-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v68)) (v3 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v68) = v2 c
          ∧ r.2.mem ((c.tc : Thread Cert.KernelIdeal.nD Cert.KernelIdeal.τ).loc Cert.KernelIdeal.main_v56) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S1x4096 : Shape := ⟨2, ![1, 4096]⟩
abbrev S4096x4096 : Shape := ⟨2, ![4096, 4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S1x4096 .f32) (main_arg5 : FVec F S4096x4096 .f32) (main_arg6 : FVec F S1x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S1x4096 .f32 := Host.absf main_arg6
  let main_cst_10 : FVec F S_ .f32 := constant S_ .f32 0x7F800000#32
  let main_v30 : FVec F S1x4096 .f32 := broadcastInDim S1x4096 ![] bcast_S_S1x4096 main_cst_10
  let main_v31 : IVec S1x4096 1 := cmpf .olt main_v29 main_v30
  let main_c_11 : IVec S_ 1 := constantI S_ 1 1#1
  let main_v32 : IVec S_ 1 := (fun x v => Host.reduce IntOp.andi x v reducesTo_S1x4096_S_d0_1 h_S_) main_v31 main_c_11
  let main_v33 : IVec S_ 1 := andi main_v28 main_v32
  main_v33

def fn {F : FTy → Type} [FloatOps F] (main_arg0 : FVec F S4096 .f32) (main_arg1 : FVec F S1x4096 .f32) (main_arg2 : FVec F S1x4096 .f32) (main_arg3 : FVec F S4096x4096 .f32) (main_arg4 : FVec F S1x4096 .f32) (main_arg5 : FVec F S4096x4096 .f32) (main_arg6 : FVec F S1x4096 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096 : Shape := ⟨1, ![4096]⟩
abbrev S1x4096 : Shape := ⟨2, ![1, 4096]⟩
abbrev S4096x4096 : Shape := ⟨2, ![4096, 4096]⟩
abbrev S1024x1024 : Shape := ⟨2, ![1024, 1024]⟩
abbrev S_ : Shape := ⟨0, ![]⟩
abbrev S4096x1 : Shape := ⟨2, ![4096, 1]⟩

abbrev nBuf : Space → Nat
  | .hbm => 129
  | .vmem => 7
  | .smem => 0
  | _ => 0

abbrev hbmTy0_0 (i : Nat) : BufTy := match i % 128 with
  | 0 => ⟨S4096, .f32⟩
  | 1 => ⟨S1x4096, .f32⟩
  | 2 => ⟨S1x4096, .f32⟩
  | 3 => ⟨S4096x4096, .f32⟩
  | 4 => ⟨S1x4096, .f32⟩
  | 5 => ⟨S4096x4096, .f32⟩
  | 6 => ⟨S1x4096, .f32⟩
  | 7 => ⟨S4096x4096, .bf16⟩
  | 8 => ⟨S4096x4096, .bf16⟩
  | 9 => ⟨S4096x4096, .f32⟩
  | 10 => ⟨S4096x4096, .f32⟩
  | 11 => ⟨S1x4096, .f32⟩
  | 12 => ⟨S1x4096, .f32⟩
  | 13 => ⟨S_, .f32⟩
  | 14 => ⟨S4096x4096, .f32⟩
  | 15 => ⟨S4096x4096, .i1⟩
  | 16 => ⟨S_, .f32⟩
  | 17 => ⟨S4096x4096, .f32⟩
  | 18 => ⟨S4096x4096, .f32⟩
  | 19 => ⟨S_, .f32⟩
  | 20 => ⟨S4096x4096, .f32⟩
  | 21 => ⟨S4096x4096, .i1⟩
  | 22 => ⟨S_, .f32⟩
  | 23 => ⟨S4096x4096, .f32⟩
  | 24 => ⟨S4096x4096, .f32⟩
  | 25 => ⟨S4096x4096, .f32⟩
  | 26 => ⟨S1x4096, .f32⟩
  | 27 => ⟨S4096x4096, .f32⟩
  | 28 => ⟨S1x4096, .f32⟩
  | 29 => ⟨S1x4096, .f32⟩
  | 30 => ⟨S1x4096, .f32⟩
  | 31 => ⟨S4096x4096, .f32⟩
  | 32 => ⟨S1x4096, .f32⟩
  | 33 => ⟨S4096x4096, .f32⟩
  | 34 => ⟨S1x4096, .f32⟩
  | 35 => ⟨S1x4096, .f32⟩
  | 36 => ⟨S1x4096, .f32⟩
  | 37 => ⟨S4096, .f32⟩
  | 38 => ⟨S4096, .f32⟩
  | 39 => ⟨S_, .f32⟩
  | 40 => ⟨S4096, .f32⟩
  | 41 => ⟨S4096, .f32⟩
  | 42 => ⟨S_, .f32⟩
  | 43 => ⟨S4096, .f32⟩
  | 44 => ⟨S4096, .f32⟩
  | 45 => ⟨S4096, .f32⟩
  | 46 => ⟨S4096, .f32⟩
  | 47 => ⟨S4096, .f32⟩
  | 48 => ⟨S_, .f32⟩
  | 49 => ⟨S4096, .f32⟩
  | 50 => ⟨S4096, .i1⟩
  | 51 => ⟨S_, .f32⟩
  | 52 => ⟨S4096, .f32⟩
  | 53 => ⟨S4096, .i1⟩
  | 54 => ⟨S_, .f32⟩
  | 55 => ⟨S_, .f32⟩
  | 56 => ⟨S4096, .f32⟩
  | 57 => ⟨S4096, .f32⟩
  | 58 => ⟨S4096, .f32⟩
  | 59 => ⟨S_, .f32⟩
  | 60 => ⟨S_, .f32⟩
  | 61 => ⟨S4096, .f32⟩
  | 62 => ⟨S4096, .f32⟩
  | 63 => ⟨S_, .f32⟩
  | 64 => ⟨S4096, .f32⟩
  | 65 => ⟨S4096, .f32⟩
  | 66 => ⟨S1x4096, .f32⟩
  | 67 => ⟨S1x4096, .f32⟩
  | 68 => ⟨S_, .f32⟩
  | 69 => ⟨S4096, .f32⟩
  | 70 => ⟨S4096, .i1⟩
  | 71 => ⟨S_, .f32⟩
  | 72 => ⟨S4096, .f32⟩
  | 73 => ⟨S4096, .i1⟩
  | 74 => ⟨S4096, .i1⟩
  | 75 => ⟨S4096, .i1⟩
  | 76 => ⟨S_, .f32⟩
  | 77 => ⟨S_, .f32⟩
  | 78 => ⟨S4096, .f32⟩
  | 79 => ⟨S4096, .f32⟩
  | 80 => ⟨S4096, .f32⟩
  | 81 => ⟨S4096, .f32⟩
  | 82 => ⟨S4096, .f32⟩
  | 83 => ⟨S1x4096, .i1⟩
  | 84 => ⟨S_, .f32⟩
  | 85 => ⟨S1x4096, .f32⟩
  | 86 => ⟨S1x4096, .f32⟩
  | 87 => ⟨S_, .f32⟩
  | 88 => ⟨S4096, .f32⟩
  | 89 => ⟨S4096, .f32⟩
  | 90 => ⟨S_, .f32⟩
  | 91 => ⟨S4096, .f32⟩
  | 92 => ⟨S4096, .f32⟩
  | 93 => ⟨S4096, .f32⟩
  | 94 => ⟨S4096, .f32⟩
  | 95 => ⟨S_, .f32⟩
  | 96 => ⟨S4096, .f32⟩
  | 97 => ⟨S4096, .f32⟩
  | 98 => ⟨S4096, .f32⟩
  | 99 => ⟨S4096, .f32⟩
  | 100 => ⟨S4096, .f32⟩
  | 101 => ⟨S_, .f32⟩
  | 102 => ⟨S1x4096, .f32⟩
  | 103 => ⟨S_, .f32⟩
  | 104 => ⟨S4096, .f32⟩
  | 105 => ⟨S4096x4096, .i32⟩
  | 106 => ⟨S4096x4096, .i32⟩
  | 107 => ⟨S_, .i32⟩
  | 108 => ⟨S4096x4096, .i32⟩
  | 109 => ⟨S4096x4096, .i32⟩
  | 110 => ⟨S4096x4096, .i1⟩
  | 111 => ⟨S4096x1, .f32⟩
  | 112 => ⟨S_, .f32⟩
  | 113 => ⟨S4096x4096, .f32⟩
  | 114 => ⟨S4096x4096, .f32⟩
  | 115 => ⟨S4096x4096, .f32⟩
  | 116 => ⟨S_, .f32⟩
  | 117 => ⟨S4096, .f32⟩
  | 118 => ⟨S4096x4096, .i32⟩
  | 119 => ⟨S4096x4096, .i32⟩
  | 120 => ⟨S_, .i32⟩
  | 121 => ⟨S4096x4096, .i32⟩
  | 122 => ⟨S4096x4096, .i32⟩
  | 123 => ⟨S4096x4096, .i1⟩
  | 124 => ⟨S4096x1, .f32⟩
  | 125 => ⟨S_, .f32⟩
  | 126 => ⟨S4096x4096, .f32⟩
  | 127 => ⟨S4096x4096, .f32⟩
  | _ => ⟨S4096, .f32⟩

abbrev hbmTy0_1 (i : Nat) : BufTy := match i % 128 with
  | 0 => ⟨S4096x4096, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_call2_v0 : Ref sig .tc := ⟨.hbm, 55, rfl⟩
abbrev main_call2_v1 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_call3_v0 : Ref sig .tc := ⟨.hbm, 60, rfl⟩
abbrev main_call3_v1 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_cst_13 : Ref sig .tc := ⟨.hbm, 77, rfl⟩
abbrev main_call4_v0 : Ref sig .tc := ⟨.hbm, 78, rfl⟩
abbrev main_call4_v1 : Ref sig .tc := ⟨.hbm, 79, rfl⟩
abbrev main_v52 : Ref sig .tc := ⟨.hbm, 80, rfl⟩
abbrev main_call5_v0 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_call7_v0 : Ref sig .tc := ⟨.hbm, 88, rfl⟩
abbrev main_v57 : Ref sig .tc := ⟨.hbm, 89, rfl⟩
abbrev main_cst_16 : Ref sig .tc := ⟨.hbm, 90, rfl⟩
abbrev main_call8_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_17 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_18 : Ref sig .tc := ⟨.hbm, 101, rfl⟩
abbrev main_v66 : Ref sig .tc := ⟨.hbm, 102, rfl⟩
abbrev main_call9_cst : Ref sig .tc := ⟨.hbm, 103, rfl⟩
abbrev main_call9_v0 : Ref sig .tc := ⟨.hbm, 104, rfl⟩
abbrev main_call9_v1 : Ref sig .tc := ⟨.hbm, 105, rfl⟩
abbrev main_call9_v2 : Ref sig .tc := ⟨.hbm, 106, rfl⟩
abbrev main_call9_c : Ref sig .tc := ⟨.hbm, 107, rfl⟩
abbrev main_call9_v3 : Ref sig .tc := ⟨.hbm, 108, rfl⟩
abbrev main_call9_v4 : Ref sig .tc := ⟨.hbm, 109, rfl⟩
abbrev main_call9_v5 : Ref sig .tc := ⟨.hbm, 110, rfl⟩
abbrev main_call9_v6 : Ref sig .tc := ⟨.hbm, 111, rfl⟩
abbrev main_call9_cst_0 : Ref sig .tc := ⟨.hbm, 112, rfl⟩
abbrev main_call9_call0_v0 : Ref sig .tc := ⟨.hbm, 113, rfl⟩
abbrev main_call9_call0_v1 : Ref sig .tc := ⟨.hbm, 114, rfl⟩
abbrev main_v67 : Ref sig .tc := ⟨.hbm, 115, rfl⟩
abbrev main_call10_cst : Ref sig .tc := ⟨.hbm, 116, rfl⟩
abbrev main_call10_v0 : Ref sig .tc := ⟨.hbm, 117, rfl⟩
abbrev main_call10_v1 : Ref sig .tc := ⟨.hbm, 118, rfl⟩
abbrev main_call10_v2 : Ref sig .tc := ⟨.hbm, 119, rfl⟩
abbrev main_call10_c : Ref sig .tc := ⟨.hbm, 120, rfl⟩
abbrev main_call10_v3 : Ref sig .tc := ⟨.hbm, 121, rfl⟩
abbrev main_call10_v4 : Ref sig .tc := ⟨.hbm, 122, rfl⟩
abbrev main_call10_v5 : Ref sig .tc := ⟨.hbm, 123, rfl⟩
abbrev main_call10_v6 : Ref sig .tc := ⟨.hbm, 124, rfl⟩
abbrev main_call10_cst_0 : Ref sig .tc := ⟨.hbm, 125, rfl⟩
abbrev main_call10_call0_v0 : Ref sig .tc := ⟨.hbm, 126, rfl⟩
abbrev main_call10_call0_v1 : Ref sig .tc := ⟨.hbm, 127, rfl⟩
abbrev main_v68 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S4096x4096_S4096x4096_1_0 : S4096x4096.Transposes [1, 0] S4096x4096
  bcast_S_S4096x4096 : S_.BroadcastsInDim S4096x4096 (![] : Fin 0 → Fin S4096x4096.rank)
  bcast_S_S4096 : S_.BroadcastsInDim S4096 (![] : Fin 0 → Fin S4096.rank)
  shapeCasts_S1x4096_S4096 : S1x4096.ShapeCasts S4096
  bcast_S4096_S1x4096_1 : S4096.BroadcastsInDim S1x4096 (![1] : Fin 1 → Fin S1x4096.rank)
  bcast_S_S1x4096 : S_.BroadcastsInDim S1x4096 (![] : Fin 0 → Fin S1x4096.rank)
  pads_S4096_S4096_000 : S4096.Pads (![0] : Fin 1 → Nat) ![0] ![0] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S1024x1024_S1024x1024_S1024x1024_1_0_0_1_n_n_wf : DotDims.WF S1024x1024 S1024x1024 S1024x1024 [1] [0] [0] [1] [] []
  dot_S1x4096_S4096x4096_S1x4096_1_0_0_1_n_n_wf : DotDims.WF S1x4096 S4096x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096 : Shape := ⟨1, ![4096]⟩
abbrev S1x4096 : Shape := ⟨2, ![1, 4096]⟩
abbrev S4096x4096 : Shape := ⟨2, ![4096, 4096]⟩
abbrev S_ : Shape := ⟨0, ![]⟩
abbrev S4096x1 : Shape := ⟨2, ![4096, 1]⟩

abbrev nBuf : Space → Nat
  | .hbm => 177
  | .vmem => 0
  | .smem => 0
  | _ => 0

abbrev hbmTy0_0 (i : Nat) : BufTy := match i % 128 with
  | 0 => ⟨S4096, .f32⟩
  | 1 => ⟨S1x4096, .f32⟩
  | 2 => ⟨S1x4096, .f32⟩
  | 3 => ⟨S4096x4096, .f32⟩
  | 4 => ⟨S1x4096, .f32⟩
  | 5 => ⟨S4096x4096, .f32⟩
  | 6 => ⟨S1x4096, .f32⟩
  | 7 => ⟨S_, .f32⟩
  | 8 => ⟨S4096x4096, .f32⟩
  | 9 => ⟨S4096x4096, .i1⟩
  | 10 => ⟨S_, .f32⟩
  | 11 => ⟨S4096x4096, .f32⟩
  | 12 => ⟨S4096x4096, .f32⟩
  | 13 => ⟨S_, .f32⟩
  | 14 => ⟨S4096x4096, .f32⟩
  | 15 => ⟨S4096x4096, .i1⟩
  | 16 => ⟨S_, .f32⟩
  | 17 => ⟨S4096x4096, .f32⟩
  | 18 => ⟨S4096x4096, .f32⟩
  | 19 => ⟨S_, .f32⟩
  | 20 => ⟨S4096x4096, .f32⟩
  | 21 => ⟨S4096x4096, .i1⟩
  | 22 => ⟨S_, .f32⟩
  | 23 => ⟨S4096x4096, .f32⟩
  | 24 => ⟨S4096x4096, .f32⟩
  | 25 => ⟨S_, .f32⟩
  | 26 => ⟨S4096x4096, .f32⟩
  | 27 => ⟨S4096x4096, .i1⟩
  | 28 => ⟨S_, .f32⟩
  | 29 => ⟨S4096x4096, .f32⟩
  | 30 => ⟨S4096x4096, .f32⟩
  | 31 => ⟨S4096x4096, .f32⟩
  | 32 => ⟨S1x4096, .f32⟩
  | 33 => ⟨S4096x4096, .f32⟩
  | 34 => ⟨S1x4096, .f32⟩
  | 35 => ⟨S1x4096, .f32⟩
  | 36 => ⟨S1x4096, .f32⟩
  | 37 => ⟨S4096x4096, .f32⟩
  | 38 => ⟨S1x4096, .f32⟩
  | 39 => ⟨S4096x4096, .f32⟩
  | 40 => ⟨S1x4096, .f32⟩
  | 41 => ⟨S1x4096, .f32⟩
  | 42 => ⟨S1x4096, .f32⟩
  | 43 => ⟨S4096x4096, .f32⟩
  | 44 => ⟨S4096x4096, .f32⟩
  | 45 => ⟨S4096x4096, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .i1⟩
  | 52 => ⟨S_, .f32⟩
  | 53 => ⟨S4096x4096, .f32⟩
  | 54 => ⟨S4096x4096, .f32⟩
  | 55 => ⟨S4096x4096, .f32⟩
  | 56 => ⟨S1x4096, .f32⟩
  | 57 => ⟨S_, .f32⟩
  | 58 => ⟨S4096x4096, .f32⟩
  | 59 => ⟨S4096x4096, .i1⟩
  | 60 => ⟨S_, .f32⟩
  | 61 => ⟨S4096x4096, .f32⟩
  | 62 => ⟨S4096x4096, .f32⟩
  | 63 => ⟨S4096x4096, .f32⟩
  | 64 => ⟨S1x4096, .f32⟩
  | 65 => ⟨S1x4096, .f32⟩
  | 66 => ⟨S1x4096, .f32⟩
  | 67 => ⟨S_, .f32⟩
  | 68 => ⟨S4096x4096, .f32⟩
  | 69 => ⟨S4096x4096, .i1⟩
  | 70 => ⟨S_, .f32⟩
  | 71 => ⟨S4096x4096, .f32⟩
  | 72 => ⟨S4096x4096, .f32⟩
  | 73 => ⟨S4096x4096, .f32⟩
  | 74 => ⟨S1x4096, .f32⟩
  | 75 => ⟨S_, .f32⟩
  | 76 => ⟨S4096x4096, .f32⟩
  | 77 => ⟨S4096x4096, .i1⟩
  | 78 => ⟨S_, .f32⟩
  | 79 => ⟨S4096x4096, .f32⟩
  | 80 => ⟨S4096x4096, .f32⟩
  | 81 => ⟨S4096x4096, .f32⟩
  | 82 => ⟨S1x4096, .f32⟩
  | 83 => ⟨S1x4096, .f32⟩
  | 84 => ⟨S1x4096, .f32⟩
  | 85 => ⟨S4096, .f32⟩
  | 86 => ⟨S4096, .f32⟩
  | 87 => ⟨S_, .f32⟩
  | 88 => ⟨S4096, .f32⟩
  | 89 => ⟨S4096, .f32⟩
  | 90 => ⟨S_, .f32⟩
  | 91 => ⟨S4096, .f32⟩
  | 92 => ⟨S4096, .f32⟩
  | 93 => ⟨S4096, .f32⟩
  | 94 => ⟨S4096, .f32⟩
  | 95 => ⟨S4096, .f32⟩
  | 96 => ⟨S_, .f32⟩
  | 97 => ⟨S4096, .f32⟩
  | 98 => ⟨S4096, .i1⟩
  | 99 => ⟨S_, .f32⟩
  | 100 => ⟨S4096, .f32⟩
  | 101 => ⟨S4096, .i1⟩
  | 102 => ⟨S_, .f32⟩
  | 103 => ⟨S_, .f32⟩
  | 104 => ⟨S4096, .f32⟩
  | 105 => ⟨S4096, .f32⟩
  | 106 => ⟨S4096, .f32⟩
  | 107 => ⟨S_, .f32⟩
  | 108 => ⟨S_, .f32⟩
  | 109 => ⟨S4096, .f32⟩
  | 110 => ⟨S4096, .f32⟩
  | 111 => ⟨S_, .f32⟩
  | 112 => ⟨S4096, .f32⟩
  | 113 => ⟨S4096, .f32⟩
  | 114 => ⟨S1x4096, .f32⟩
  | 115 => ⟨S1x4096, .f32⟩
  | 116 => ⟨S_, .f32⟩
  | 117 => ⟨S4096, .f32⟩
  | 118 => ⟨S4096, .i1⟩
  | 119 => ⟨S_, .f32⟩
  | 120 => ⟨S4096, .f32⟩
  | 121 => ⟨S4096, .i1⟩
  | 122 => ⟨S4096, .i1⟩
  | 123 => ⟨S4096, .i1⟩
  | 124 => ⟨S_, .f32⟩
  | 125 => ⟨S_, .f32⟩
  | 126 => ⟨S4096, .f32⟩
  | 127 => ⟨S4096, .f32⟩
  | _ => ⟨S4096, .f32⟩

abbrev hbmTy0_1 (i : Nat) : BufTy := match i % 128 with
  | 0 => ⟨S4096, .f32⟩
  | 1 => ⟨S4096, .f32⟩
  | 2 => ⟨S4096, .f32⟩
  | 3 => ⟨S1x4096, .i1⟩
  | 4 => ⟨S_, .f32⟩
  | 5 => ⟨S1x4096, .f32⟩
  | 6 => ⟨S1x4096, .f32⟩
  | 7 => ⟨S_, .f32⟩
  | 8 => ⟨S4096, .f32⟩
  | 9 => ⟨S4096, .f32⟩
  | 10 => ⟨S_, .f32⟩
  | 11 => ⟨S4096, .f32⟩
  | 12 => ⟨S4096, .f32⟩
  | 13 => ⟨S4096, .f32⟩
  | 14 => ⟨S4096, .f32⟩
  | 15 => ⟨S_, .f32⟩
  | 16 => ⟨S4096, .f32⟩
  | 17 => ⟨S4096, .f32⟩
  | 18 => ⟨S4096, .f32⟩
  | 19 => ⟨S4096, .f32⟩
  | 20 => ⟨S4096, .f32⟩
  | 21 => ⟨S_, .f32⟩
  | 22 => ⟨S1x4096, .f32⟩
  | 23 => ⟨S_, .f32⟩
  | 24 => ⟨S4096, .f32⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S4096x4096, .i1⟩
  | 31 => ⟨S4096x1, .f32⟩
  | 32 => ⟨S_, .f32⟩
  | 33 => ⟨S4096x4096, .f32⟩
  | 34 => ⟨S4096x4096, .f32⟩
  | 35 => ⟨S4096x4096, .f32⟩
  | 36 => ⟨S_, .f32⟩
  | 37 => ⟨S4096, .f32⟩
  | 38 => ⟨S4096x4096, .i32⟩
  | 39 => ⟨S4096x4096, .i32⟩
  | 40 => ⟨S_, .i32⟩
  | 41 => ⟨S4096x4096, .i32⟩
  | 42 => ⟨S4096x4096, .i32⟩
  | 43 => ⟨S4096x4096, .i1⟩
  | 44 => ⟨S4096x1, .f32⟩
  | 45 => ⟨S_, .f32⟩
  | 46 => ⟨S4096x4096, .f32⟩
  | 47 => ⟨S4096x4096, .f32⟩
  | 48 => ⟨S4096x4096, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_17 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩
abbrev main_cst_19 : Ref sig .tc := ⟨.hbm, 102, rfl⟩
abbrev main_call8_v0 : Ref sig .tc := ⟨.hbm, 103, rfl⟩
abbrev main_call8_v1 : Ref sig .tc := ⟨.hbm, 104, rfl⟩
abbrev main_v75 : Ref sig .tc := ⟨.hbm, 105, rfl⟩
abbrev main_v76 : Ref sig .tc := ⟨.hbm, 106, rfl⟩
abbrev main_cst_20 : Ref sig .tc := ⟨.hbm, 107, rfl⟩
abbrev main_call9_v0 : Ref sig .tc := ⟨.hbm, 108, rfl⟩
abbrev main_call9_v1 : Ref sig .tc := ⟨.hbm, 109, rfl⟩
abbrev main_v77 : Ref sig .tc := ⟨.hbm, 110, rfl⟩
abbrev main_cst_21 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_22 : Ref sig .tc := ⟨.hbm, 116, rfl⟩
abbrev main_v82 : Ref sig .tc := ⟨.hbm, 117, rfl⟩
abbrev main_v83 : Ref sig .tc := ⟨.hbm, 118, rfl⟩
abbrev main_cst_23 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_24 : Ref sig .tc := ⟨.hbm, 124, rfl⟩
abbrev main_cst_25 : Ref sig .tc := ⟨.hbm, 125, rfl⟩
abbrev main_call10_v0 : Ref sig .tc := ⟨.hbm, 126, rfl⟩
abbrev main_call10_v1 : Ref sig .tc := ⟨.hbm, 127, rfl⟩
abbrev main_v88 : Ref sig .tc := ⟨.hbm, 128, rfl⟩
abbrev main_call11_v0 : Ref sig .tc := ⟨.hbm, 129, rfl⟩
abbrev main_v89 : Ref sig .tc := ⟨.hbm, 130, rfl⟩
abbrev main_v90 : Ref sig .tc := ⟨.hbm, 131, rfl⟩
abbrev main_cst_26 : Ref sig .tc := ⟨.hbm, 132, rfl⟩
abbrev main_v91 : Ref sig .tc := ⟨.hbm, 133, rfl⟩
abbrev main_v92 : Ref sig .tc := ⟨.hbm, 134, rfl⟩
abbrev main_cst_27 : Ref sig .tc := ⟨.hbm, 135, rfl⟩
abbrev main_call13_v0 : Ref sig .tc := ⟨.hbm, 136, rfl⟩
abbrev main_v93 : Ref sig .tc := ⟨.hbm, 137, rfl⟩
abbrev main_cst_28 : Ref sig .tc := ⟨.hbm, 138, rfl⟩
abbrev main_call14_v0 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_29 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_30 : Ref sig .tc := ⟨.hbm, 149, rfl⟩
abbrev main_v102 : Ref sig .tc := ⟨.hbm, 150, rfl⟩
abbrev main_call15_cst : Ref sig .tc := ⟨.hbm, 151, rfl⟩
abbrev main_call15_v0 : Ref sig .tc := ⟨.hbm, 152, rfl⟩
abbrev main_call15_v1 : Ref sig .tc := ⟨.hbm, 153, rfl⟩
abbrev main_call15_v2 : Ref sig .tc := ⟨.hbm, 154, rfl⟩
abbrev main_call15_c : Ref sig .tc := ⟨.hbm, 155, rfl⟩
abbrev main_call15_v3 : Ref sig .tc := ⟨.hbm, 156, rfl⟩
abbrev main_call15_v4 : Ref sig .tc := ⟨.hbm, 157, rfl⟩
abbrev main_call15_v5 : Ref sig .tc := ⟨.hbm, 158, rfl⟩
abbrev main_call15_v6 : Ref sig .tc := ⟨.hbm, 159, rfl⟩
abbrev main_call15_cst_0 : Ref sig .tc := ⟨.hbm, 160, rfl⟩
abbrev main_call15_call0_v0 : Ref sig .tc := ⟨.hbm, 161, rfl⟩
abbrev main_call15_call0_v1 : Ref sig .tc := ⟨.hbm, 162, rfl⟩
abbrev main_v103 : Ref sig .tc := ⟨.hbm, 163, rfl⟩
abbrev main_call16_cst : Ref sig .tc := ⟨.hbm, 164, rfl⟩
abbrev main_call16_v0 : Ref sig .tc := ⟨.hbm, 165, rfl⟩
abbrev main_call16_v1 : Ref sig .tc := ⟨.hbm, 166, rfl⟩
abbrev main_call16_v2 : Ref sig .tc := ⟨.hbm, 167, rfl⟩
abbrev main_call16_c : Ref sig .tc := ⟨.hbm, 168, rfl⟩
abbrev main_call16_v3 : Ref sig .tc := ⟨.hbm, 169, rfl⟩
abbrev main_call16_v4 : Ref sig .tc := ⟨.hbm, 170, rfl⟩
abbrev main_call16_v5 : Ref sig .tc := ⟨.hbm, 171, rfl⟩
abbrev main_call16_v6 : Ref sig .tc := ⟨.hbm, 172, rfl⟩
abbrev main_call16_cst_0 : Ref sig .tc := ⟨.hbm, 173, rfl⟩
abbrev main_call16_call0_v0 : Ref sig .tc := ⟨.hbm, 174, rfl⟩
abbrev main_call16_call0_v1 : Ref sig .tc := ⟨.hbm, 175, rfl⟩
abbrev main_v104 : Ref sig .tc := ⟨.hbm, 176, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S_S4096 : S_.BroadcastsInDim S4096 (![] : Fin 0 → Fin S4096.rank)
  shapeCasts_S1x4096_S4096 : S1x4096.ShapeCasts S4096
  bcast_S4096_S1x4096_1 : S4096.BroadcastsInDim S1x4096 (![1] : Fin 1 → Fin S1x4096.rank)
  bcast_S_S1x4096 : S_.BroadcastsInDim S1x4096 (![] : Fin 0 → Fin S1x4096.rank)
  pads_S4096_S4096_000 : S4096.Pads (![0] : Fin 1 → Nat) ![0] ![0] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S1x4096_S4096x4096_S1x4096_1_0_0_1_n_n_wf : DotDims.WF S1x4096 S4096x4096 S1x4096 [1] [0] [0] [1] [] []
  dot_S4096x4096_S4096x4096_S4096x4096_1_0_0_1_n_n_wf : DotDims.WF S4096x4096 S4096x4096 S4096x4096 [1] [0] [0] [1] [] []

variable [Facts₀]

def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KKit.lean ====
/-
  The one pallas_call of this program multiplies two 4096 × 4096 matrices block by block on a 4 × 4 × 4 grid: at grid
  point (i, j, k) the body adds the product of block (i, k) of its first operand and block (k, j) of its second onto an
  accumulator it keeps in a scratch buffer, which it sets to zero first when k = 0, and when k = 3 it stores the
  accumulator into block (i, j) of the result. Around that call the entry function converts the two operands before it
  and goes on with twenty stretches of host operations after it.

  This module names what every later module about the program speaks of: the buffer contents when the call is entered
  (after the two conversions), the stretches after the call and the facts the launch needs of them (they touch
  TensorCore buffers only, allocate nothing, write none of the call's three arrays), the entry function as "the
  conversions, the call, the stretches", each window's block at a grid point, the two branch conditions of the body in
  closed form (k = 0 is "the point's number is 0 mod 4", k = 3 is "3 mod 4"), where the result window is idle, and the
  staging and scratch buffers by name.
-/
import proofs.«139422_j40183714021525_1_alg».proof.Proof.Gen.Kernel.Launch
import proofs.«139422_j40183714021525_1_alg».proof.Proof.Gen.Kernel.Points
import proofs.«139422_j40183714021525_1_alg».proof.Proof.Gen.Kernel.Skeleton
import Idealize.ShloMosaic.Lib.Pipeline.FrameSuffix
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the call -/

/-- Core `c`'s TensorCore buffer contents when the call is entered: after the two conversions. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The twenty stretches of host operations after the call, in order. -/
abbrev tailOps : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18, hostOps1_19]

/-- Every operation after the call touches TensorCore references only. -/
theorem tail_tc : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub,
   hostOps1_8_sub, hostOps1_9_sub, hostOps1_10_sub, hostOps1_11_sub, hostOps1_12_sub, hostOps1_13_sub, hostOps1_14_sub,
   hostOps1_15_sub, hostOps1_16_sub, hostOps1_17_sub, hostOps1_18_sub, hostOps1_19_sub⟩

/-- The two conversions allocate nothing. -/
theorem pre_fresh : ([hostOps0] : List (List (HloOp τ sig (Elt F)))).Forall fun ops => ops.Forall fun op => op.fresh = ∅ := by
  simp only [List.Forall]; repeat' constructor

/-- No operation after the call allocates. -/
theorem tail_fresh : (tailOps : List (List (HloOp τ sig (Elt F)))).Forall fun ops => ops.Forall fun op => op.fresh = ∅ := by
  simp only [List.Forall]; repeat' constructor

/-- The entry function is the conversions, the call, and the stretches after it; so it reduces to the call CONTINUED BY
    those stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps hostOps0_sub pre_fresh main_chain

/-- The stretches after the call touch the call's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp tail_tc ops hops) op hop)

/-- They allocate nothing. -/
theorem sfx_fresh : ∀ ops ∈ (tailOps : List (List (HloOp τ sig (Elt F)))), ∀ op ∈ ops, op.fresh = ∅ :=
  fun ops hops op hop => List.forall_iff_forall_mem.mp (List.forall_iff_forall_mem.mp tail_fresh ops hops) op hop

/-- One stretch at a time: each of its operations writes its own result buffer only, and that buffer is none of the
    call's three arrays (the two converted operands and the product). -/
local macro "keeps_stretch" : tactic => `(tactic| (
  simp only [List.Forall]
  repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)))

theorem keeps_0 : (hostOps1 : List (HloOp τ sig (Elt F))).Forall fun op => ∀ w, Proc.devRef .tc (Pipeline.arrRef spec0 w) ∉ op.writes := by keeps_stretch
theorem keeps_1 : (hostOps1_1 : List (HloOp τ sig (Elt F))).Forall fun op => ∀ w, Proc.devRef .tc (Pipeline.arrRef spec0 w) ∉ op.writes := by keeps_stretch
theorem keeps_2 : (hostOps1_2 : List (HloOp τ sig (Elt F))).Forall fun op => ∀ w, Proc.devRef .tc (Pipeline.arrRef spec0 w) ∉ op.writes := by keeps_stretch
theorem keeps_3 : (hostOps1_3 : List (HloOp τ sig (Elt F))).Forall fun op => ∀ w, Proc.devRef .tc (Pipeline.arrRef spec0 w) ∉ op.writes := by keeps_stretch
theorem keeps_4 : (hostOps1_4 : List (HloOp τ sig (Elt F))).Forall fun op => ∀ w, Proc.devRef .tc (Pipeline.arrRef spec0 w) ∉ op.writes := by keeps_stretch
theorem keeps_5 : (hostOps1_5 : List (HloOp τ sig (Elt F))).Forall fun op => ∀ w, Proc.devRef .tc (Pipeline.arrRef spec0 w) ∉ op.writes := by keeps_stretch
theorem keeps_6 : (hostOps1_6 : List (HloOp τ sig (Elt F))).Forall fun op => ∀ w, Proc.devRef .tc (Pipeline.arrRef spec0 w) ∉ op.writes := by keeps_stretch
theorem keeps_7 : (hostOps1_7 : List (HloOp τ sig (Elt F))).Forall fun op => ∀ w, Proc.devRef .tc (Pipeline.arrRef spec0 w) ∉ op.writes := by keeps_stretch
theorem keeps_8 : (hostOps1_8 : List (HloOp τ sig (Elt F))).Forall fun op => ∀ w, Proc.devRef .tc (Pipeline.arrRef spec0 w) ∉ op.writes := by keeps_stretch
theorem keeps_9 : (hostOps1_9 : List (HloOp τ sig (Elt F))).Forall fun op => ∀ w, Proc.devRef .tc (Pipeline.arrRef spec0 w) ∉ op.writes := by keeps_stretch
theorem keeps_10 : (hostOps1_10 : List (HloOp τ sig (Elt F))).Forall fun op => ∀ w, Proc.devRef .tc (Pipeline.arrRef spec0 w) ∉ op.writes := by keeps_stretch
theorem keeps_11 : (hostOps1_11 : List (HloOp τ sig (Elt F))).Forall fun op => ∀ w, Proc.devRef .tc (Pipeline.arrRef spec0 w) ∉ op.writes := by keeps_stretch
theorem keeps_12 : (hostOps1_12 : List (HloOp τ sig (Elt F))).Forall fun op => ∀ w, Proc.devRef .tc (Pipeline.arrRef spec0 w) ∉ op.writes := by keeps_stretch
theorem keeps_13 : (hostOps1_13 : List (HloOp τ sig (Elt F))).Forall fun op => ∀ w, Proc.devRef .tc (Pipeline.arrRef spec0 w) ∉ op.writes := by keeps_stretch
theorem keeps_14 : (hostOps1_14 : List (HloOp τ sig (Elt F))).Forall fun op => ∀ w, Proc.devRef .tc (Pipeline.arrRef spec0 w) ∉ op.writes := by keeps_stretch
theorem keeps_15 : (hostOps1_15 : List (HloOp τ sig (Elt F))).Forall fun op => ∀ w, Proc.devRef .tc (Pipeline.arrRef spec0 w) ∉ op.writes := by keeps_stretch
theorem keeps_16 : (hostOps1_16 : List (HloOp τ sig (Elt F))).Forall fun op => ∀ w, Proc.devRef .tc (Pipeline.arrRef spec0 w) ∉ op.writes := by keeps_stretch
theorem keeps_17 : (hostOps1_17 : List (HloOp τ sig (Elt F))).Forall fun op => ∀ w, Proc.devRef .tc (Pipeline.arrRef spec0 w) ∉ op.writes := by keeps_stretch
theorem keeps_18 : (hostOps1_18 : List (HloOp τ sig (Elt F))).Forall fun op => ∀ w, Proc.devRef .tc (Pipeline.arrRef spec0 w) ∉ op.writes := by keeps_stretch
theorem keeps_19 : (hostOps1_19 : List (HloOp τ sig (Elt F))).Forall fun op => ∀ w, Proc.devRef .tc (Pipeline.arrRef spec0 w) ∉ op.writes := by keeps_stretch

/-- So no operation after the call writes one of the call's arrays. -/
theorem tail_keeps : (tailOps : List (List (HloOp τ sig (Elt F)))).Forall fun ops => ops.Forall fun op =>
    ∀ w, Proc.devRef .tc (Pipeline.arrRef spec0 w) ∉ op.writes :=
  ⟨keeps_0, keeps_1, keeps_2, keeps_3, keeps_4, keeps_5, keeps_6, keeps_7, keeps_8, keeps_9, keeps_10, keeps_11, keeps_12, keeps_13, keeps_14, keeps_15, keeps_16, keeps_17, keeps_18, keeps_19⟩

theorem sfx_keeps : ∀ ops ∈ (tailOps : List (List (HloOp τ sig (Elt F)))), ∀ op ∈ ops,
    ∀ w, Proc.devRef .tc (Pipeline.arrRef spec0 w) ∉ op.writes :=
  fun ops hops op hop => List.forall_iff_forall_mem.mp (List.forall_iff_forall_mem.mp tail_keeps ops hops) op hop

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "k = 0": the condition under which the body first sets the accumulator to zero. -/
abbrev condFirst (i : grid0.Coords) : Prop := (Scalar.cmpi .ne (Scalar.extui (Scalar.cmpi .eq (BitVec.ofNat 32 (i 2).val) 0#32)) 0#32) = 1#1
/-- It holds exactly at the points whose number is 0 mod 4. -/
theorem hcondFirst : ∀ t : Fin cfg0.N, condFirst (grid0.coords t) ↔ t.val % 4 = 0 :=
  (by decide +kernel : ∀ t : Fin grid0.N, condFirst (grid0.coords t) ↔ t.val % 4 = 0)

/-- "k = 3": the condition under which the body stores the accumulator into the result's block. -/
abbrev condLast (i : grid0.Coords) : Prop := k0_cond2 i = 1#1
/-- It holds exactly at the points whose number is 3 mod 4. -/
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- The result window is idle, and not written back, at the points with k ≠ 3; live at those with k = 3. -/
theorem idleAt2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem liveAt2 : ∀ t : Fin cfg0.N, condLast (grid0.coords t) → cfg0.idle 2 (grid0.coords t) = false := by decide +kernel

/-! ## The buffers by name -/

/-- Each window's current staging memref at point `t`, as the pipeline passes it to the body, and its wholeness. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev accM : Memref sig .tc .vmem S1024x1024 .f32 := Memref.whole cc0_scratch0

/-- What the launch hands the body besides the windows: the accumulator's buffer at some contents, and the generator
    register at some state. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Frm

end
-- ==== Proof.KBody.lean ====
/-
  The kernel body on whole staging buffers, one statement per control case. With x0, x1 the two input blocks and xs the
  accumulator's contents on entry: when k = 0 the accumulator ends at 0 + x0·x1 whatever it held; when 0 < k < 3 it ends
  at xs + x0·x1; when k = 3 it ends at xs + x0·x1 and the result's block is stored with the same value. The input blocks
  are handed back as found; when k ≠ 3 the body does not touch the result's buffer, so the first two statements do not
  mention it.
-/
import proofs.«139422_j40183714021525_1_alg».proof.Proof.KKit
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block loads and stores

Every load and store of the body goes through the rectangle that spans the whole 1024 × 1024 block at offsets (0, 0).
Through it a load reads the buffer's contents, and a store, made last, leaves exactly its payload. -/

local notation "R00" => Rect.unit (s := S1024x1024) ![0, 0] S1024x1024.size inb_S1024x1024_S1024x1024_0_0

/-- The offsets of that rectangle are all zero. -/
theorem off00 : (![0, 0] : Fin 2 → ℕ) = fun _ => 0 := funext fun a => by fin_cases a <;> rfl

/-- A load of the whole block from a whole buffer whose contents read `x` gives `x`. -/
theorem load_whole {e : EltTy} (m : Memref sig .tc .vmem S1024x1024 e) (h : m.IsWhole) (x : S1024x1024.Idx → Elt F e) :
    View.readAt (Elt F) m.view (R00).toLoadRect (h.unread x) = x := by
  rw [View.readAt_eq_ld, h.read_unread, View.ld_unit_zero (S := S1024x1024) off00]

/-- Every index of the block lies under a store of the whole block, so a list of stores that holds one covers. -/
theorem cover_whole {e : EltTy} (w : S1024x1024.Idx → Elt F e) (L : List (View.Piece (Elt F) S1024x1024 e)) (y : S1024x1024.Idx) :
    ∃ p ∈ ((⟨R00, w⟩ : View.Piece (Elt F) S1024x1024 e) :: L), y ∈ p.1.set :=
  ⟨⟨R00, w⟩, List.mem_cons_self, View.mem_set_unit_zero (S := S1024x1024) off00 inb_S1024x1024_S1024x1024_0_0 y⟩

/-- After a store of the whole block, made last, the buffer reads back the stored value: whatever it held before and
    whatever the earlier stores were. -/
theorem read_store_whole {e : EltTy} (m : Memref sig .tc .vmem S1024x1024 e) (f : m.view.ty.Contents (Elt F))
    (w : S1024x1024.Idx → Elt F e) (L : List (View.Piece (Elt F) S1024x1024 e)) :
    m.view.read (Elt F) (m.view.writes (Elt F) f ((⟨R00, w⟩ : View.Piece (Elt F) S1024x1024 e) :: L)) = w := by
  rw [View.read_writes_eq_canon m.view f _ (cover_whole w L), View.canon_cons_unit_zero (S := S1024x1024) off00]

/-- A load of the whole block after one store of the whole block reads the stored value. -/
theorem load_store_whole {e : EltTy} (m : Memref sig .tc .vmem S1024x1024 e) (w : S1024x1024.Idx → Elt F e) :
    m.view.readCov [(⟨R00, w⟩ : View.Piece (Elt F) S1024x1024 e)] (R00).toLoadRect = w :=
  View.readCov_unit_zero (S := S1024x1024) m.view off00 inb_S1024x1024_S1024x1024_0_0 w

/-- k = 0: the accumulator is first set to zero, then the product of the two blocks is added. -/
theorem run_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
    (hF : condFirst i) (hL : ¬condLast i) (x0 x1 : Vec F S1024x1024 .bf16) (E : Set ℕ) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1 ∗ owns (c : Thread nD τ) arg6 fullShare (k0_pay2 (k0_pay1 (F := F)) x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d6, %f6, -, H6⟩, Hk⟩
  obtain rfl := harg3.eq_unread hf0; obtain rfl := harg4.eq_unread hf1
  sl_exec (disch := first | exact hF | exact hL)
  sl_step
  iapply Hk
  isplitl [H0]
  · iexists _; isplitr
    · ipureintro; exact hf0
    iexact H0
  isplitl [H1]
  · iexists _; isplitr
    · ipureintro; exact hf1
    iexact H1
  iexists _; isplitr
  swap
  · iexact H6
  -- the accumulator was stored twice: the zero block, then (what a load after that store read) plus the product
  ipureintro
  rw [read_store_whole]
  sl_unfold_words
  rw [load_store_whole, load_whole, load_whole]

/-- 0 < k < 3: the product of the two blocks is added onto what the accumulator held. -/
theorem run_mid (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
    (hF : ¬condFirst i) (hL : ¬condLast i) (x0 x1 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg6 fullShare xs
        ∗ (iprop(owns (c : Thread nD τ) arg3 fullShare x0 ∗ owns (c : Thread nD τ) arg4 fullShare x1 ∗ owns (c : Thread nD τ) arg6 fullShare (k0_pay2 xs x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f6, %hf6, H6⟩, Hk⟩
  obtain rfl := harg3.eq_unread hf0; obtain rfl := harg4.eq_unread hf1; obtain rfl := harg6.eq_unread hf6
  sl_exec (disch := first | exact hF | exact hL)
  sl_step
  iapply Hk
  isplitl [H0]
  · iexists _; isplitr
    · ipureintro; exact hf0
    iexact H0
  isplitl [H1]
  · iexists _; isplitr
    · ipureintro; exact hf1
    iexact H1
  iexists _; isplitr
  swap
  · iexact H6
  -- one store into the accumulator: what the three loads read, combined
  ipureintro
  rw [read_store_whole, load_whole, load_whole, load_whole]

/-- k = 3: the product is added, and the accumulator's new contents are stored into the result's block. -/
theorem run_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
    (hF : ¬condFirst i) (hL : condLast i) (x0 x1 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k0_pay2 xs x0 x1) ∗ owns (c : Thread nD τ) arg6 fullShare (k0_pay2 xs x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d5, %f5, -, H5⟩, ⟨%f6, %hf6, H6⟩, Hk⟩
  obtain rfl := harg3.eq_unread hf0; obtain rfl := harg4.eq_unread hf1; obtain rfl := harg6.eq_unread hf6
  sl_exec (disch := first | exact hF | exact hL)
  sl_step
  iapply Hk
  isplitl [H0]
  · iexists _; isplitr
    · ipureintro; exact hf0
    iexact H0
  isplitl [H1]
  · iexists _; isplitr
    · ipureintro; exact hf1
    iexact H1
  isplitl [H5]
  · iexists _; isplitr
    swap
    · iexact H5
    -- the result's block was stored once, with what a load of the accumulator after its store read
    ipureintro
    rw [read_store_whole]
    sl_unfold_words
    rw [load_store_whole, load_whole, load_whole, load_whole]
  iexists _; isplitr
  swap
  · iexact H6
  ipureintro
  sl_unfold_words
  rw [read_store_whole, load_whole, load_whole, load_whole]

end Cert.Kernel.Frm

end
-- ==== Proof.KFrame.lean ====
/-
  The frame of the program, at any float instance. The accumulator after grid point n is stated in closed form by
  recursion on n: at a point with k = 0 it is 0 + (block of the first operand)·(block of the second), at any other point
  what the point before left plus that product. The proof data say: each input window's staging buffer holds its block;
  the result window's holds the accumulator (it is consulted only where k = 3, the only points that write it back); the
  invariant carries the accumulator's buffer at the closed form from one point to the next. The body's three runs give
  the body obligation point by point, and the library's launch theorem for a call followed by host operations gives the
  run of the entry function: every array of the call at what the proof data compute, every other buffer at what the
  operations after the call leave. No operation writes an argument, so the arguments end unchanged.
-/
import proofs.«139422_j40183714021525_1_alg».proof.Proof.KBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- What the accumulator holds after the body at point `n`: the sum restarts from zero where k = 0. -/
def accAt (c : Dev nD) : (n : ℕ) → n < cfg0.N → Vec F S1024x1024 .f32
  | 0, hn => k0_pay2 (k0_pay1 (F := F)) (iblk m c 0 ⟨0, hn⟩) (iblk m c 1 ⟨0, hn⟩)
  | n + 1, hn =>
    if (n + 1) % 4 = 0 then k0_pay2 (k0_pay1 (F := F)) (iblk m c 0 ⟨n + 1, hn⟩) (iblk m c 1 ⟨n + 1, hn⟩)
    else k0_pay2 (accAt c n (Nat.lt_of_succ_lt hn)) (iblk m c 0 ⟨n + 1, hn⟩) (iblk m c 1 ⟨n + 1, hn⟩)

theorem accAt_first (c : Dev nD) (t : Fin cfg0.N) (h0 : t.val % 4 = 0) :
    accAt m c t.val t.isLt = k0_pay2 (k0_pay1 (F := F)) (iblk m c 0 t) (iblk m c 1 t) := by
  obtain ⟨n, hn⟩ := t
  cases n with
  | zero => rfl
  | succ n => exact if_pos h0

theorem accAt_next (c : Dev nD) (t : Fin cfg0.N) (h0 : ¬t.val % 4 = 0) :
    accAt m c t.val t.isLt = k0_pay2 (accAt m c (t.val - 1) (Nat.lt_of_le_of_lt (Nat.sub_le _ _) t.isLt)) (iblk m c 0 t) (iblk m c 1 t) := by
  obtain ⟨n, hn⟩ := t
  cases n with
  | zero => exact absurd (Nat.zero_mod _) h0
  | succ n => exact if_neg h0

/-! ## The invariant -/

/-- Before point `n`: at the start what the launch hands over (the accumulator's buffer at anything); afterwards the
    accumulator's buffer at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  have hN : t.val < 64 := lt_of_lt_of_eq t.isLt (show cfg0.N = 64 from N_0)
  by_cases h0 : t.val % 4 = 0
  · -- k = 0: the sum restarts
    have hF : condFirst (grid0.coords t) := (hcondFirst t).mpr h0
    have hL : ¬condLast (grid0.coords t) := fun h => by have := (hcondLast t).mp h; omega
    rw [Dat.leavesExact_idle (dats m 0 c) 2 t (idleAt2 t hL) (noFlush2 t hL), accAt_first m c t h0]
    by_cases hz : t.val = 0
    · rw [PhiS_castSucc m c t, PhiS_zero m c _ _ hz, PhiA0_eq]
      iintro ⟨⟨HS, Hg⟩, Ho, ⟨%d0, H0⟩, ⟨%d1, H1⟩, H2⟩
      iapply (run_first c (grid0.coords t) _ _ _ _ _ _ _ _ hF hL (iblk m c 0 t) (iblk m c 1 t) Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexact H2
    · rw [PhiS_castSucc m c t, PhiS_pos m c _ _ hz]
      iintro ⟨⟨HS, Hg⟩, Ho, ⟨%d0, H0⟩, ⟨%d1, H1⟩, H2⟩
      iapply (run_first c (grid0.coords t) _ _ _ _ _ _ _ _ hF hL (iblk m c 0 t) (iblk m c 1 t) Set.univ _)
      isplitl [H0]; · iexact H0
      isplitl [H1]; · iexact H1
      isplitl [HS]; · iexists _; iexact HS
      iintro ⟨H0, H1, HS⟩
      isplitl [HS Hg]
      · isplitl [HS]; · iexact HS
        iexact Hg
      isplitl [Ho]; · iexact Ho
      isplitl [H0]; · iexact H0
      isplitl [H1]; · iexact H1
      iexact H2
  · have hF : ¬condFirst (grid0.coords t) := fun h => h0 ((hcondFirst t).mp h)
    have hz : t.val ≠ 0 := fun h => h0 (by rw [h])
    by_cases h3 : t.val % 4 = 3
    · -- k = 3: the last product is added and the block is stored
      have hL : condLast (grid0.coords t) := (hcondLast t).mpr h3
      rw [show (dats m 0 c).leavesExact 2 t = owns (c : Thread nD τ) (ms2 t) fullShare ((dats m 0 c).after 2 t) from by
        unfold Dat.leavesExact; rw [liveAt2 t hL], after2]
      rw [accAt_next m c t h0, PhiS_castSucc m c t, PhiS_pos m c _ _ hz]
      iintro ⟨⟨HS, Hg⟩, Ho, ⟨%d0, H0⟩, ⟨%d1, H1⟩, ⟨%d2, H2⟩⟩
      iapply (run_last c (grid0.coords t) _ _ _ _ _ _ _ _ hF hL (iblk m c 0 t) (iblk m c 1 t) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · -- 0 < k < 3: one more product is added
      have hL : ¬condLast (grid0.coords t) := fun h => h3 ((hcondLast t).mp h)
      rw [Dat.leavesExact_idle (dats m 0 c) 2 t (idleAt2 t hL) (noFlush2 t hL), accAt_next m c t h0]
      rw [PhiS_castSucc m c t, PhiS_pos m c _ _ hz]
      iintro ⟨⟨HS, Hg⟩, Ho, ⟨%d0, H0⟩, ⟨%d1, H1⟩, H2⟩
      iapply (run_mid c (grid0.coords t) _ _ _ _ _ _ _ _ hF hL (iblk m c 0 t) (iblk m c 1 t) _ Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS, Hg⟩
  isplitl [HS]
  · iexists _; iexact HS
  iexact Hg

/-! ## The run -/

set_option backward.isDefEq.respectTransparency.types false in
/-- Every weakly fair execution of the entry function terminates without a fault, with each of the call's arrays at what
    the proof data compute and every other unscoped buffer at what the operations after the call leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.Kernel.Frm

end
-- ==== Proof.KArgs.lean ====
/-
  The seven arguments of the entry function are written by none of its host operations: each operation writes its own
  result buffer only, and no result buffer is an argument. So an argument read after the stretches that follow the call,
  and after the two conversions before it, is what it was at the start; and an argument is none of the call's three
  arrays, so the call itself passes it by.
-/
import proofs.«139422_j40183714021525_1_alg».proof.Proof.KKit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The seven arguments, numbered. -/
abbrev argRef : Fin 7 → Ref sig .tc := fun
  | 0 => main_arg0 | 1 => main_arg1 | 2 => main_arg2 | 3 => main_arg3 | 4 => main_arg4 | 5 => main_arg5 | 6 => main_arg6
  | ⟨_ + 7, h⟩ => absurd h (Nat.not_lt.2 (Nat.le_add_left _ _))

/-- One stretch at a time: none of its operations writes an argument. -/
local macro "args_stretch" : tactic => `(tactic| (
  simp only [List.Forall]
  repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)))

theorem argkeeps_pre : (hostOps0 : List (HloOp τ sig (Elt F))).Forall fun op => ∀ k : Fin 7, Proc.devRef .tc (argRef k) ∉ op.writes := by args_stretch
theorem argkeeps_0 : (hostOps1 : List (HloOp τ sig (Elt F))).Forall fun op => ∀ k : Fin 7, Proc.devRef .tc (argRef k) ∉ op.writes := by args_stretch
theorem argkeeps_1 : (hostOps1_1 : List (HloOp τ sig (Elt F))).Forall fun op => ∀ k : Fin 7, Proc.devRef .tc (argRef k) ∉ op.writes := by args_stretch
theorem argkeeps_2 : (hostOps1_2 : List (HloOp τ sig (Elt F))).Forall fun op => ∀ k : Fin 7, Proc.devRef .tc (argRef k) ∉ op.writes := by args_stretch
theorem argkeeps_3 : (hostOps1_3 : List (HloOp τ sig (Elt F))).Forall fun op => ∀ k : Fin 7, Proc.devRef .tc (argRef k) ∉ op.writes := by args_stretch
theorem argkeeps_4 : (hostOps1_4 : List (HloOp τ sig (Elt F))).Forall fun op => ∀ k : Fin 7, Proc.devRef .tc (argRef k) ∉ op.writes := by args_stretch
theorem argkeeps_5 : (hostOps1_5 : List (HloOp τ sig (Elt F))).Forall fun op => ∀ k : Fin 7, Proc.devRef .tc (argRef k) ∉ op.writes := by args_stretch
theorem argkeeps_6 : (hostOps1_6 : List (HloOp τ sig (Elt F))).Forall fun op => ∀ k : Fin 7, Proc.devRef .tc (argRef k) ∉ op.writes := by args_stretch
theorem argkeeps_7 : (hostOps1_7 : List (HloOp τ sig (Elt F))).Forall fun op => ∀ k : Fin 7, Proc.devRef .tc (argRef k) ∉ op.writes := by args_stretch
theorem argkeeps_8 : (hostOps1_8 : List (HloOp τ sig (Elt F))).Forall fun op => ∀ k : Fin 7, Proc.devRef .tc (argRef k) ∉ op.writes := by args_stretch
theorem argkeeps_9 : (hostOps1_9 : List (HloOp τ sig (Elt F))).Forall fun op => ∀ k : Fin 7, Proc.devRef .tc (argRef k) ∉ op.writes := by args_stretch
theorem argkeeps_10 : (hostOps1_10 : List (HloOp τ sig (Elt F))).Forall fun op => ∀ k : Fin 7, Proc.devRef .tc (argRef k) ∉ op.writes := by args_stretch
theorem argkeeps_11 : (hostOps1_11 : List (HloOp τ sig (Elt F))).Forall fun op => ∀ k : Fin 7, Proc.devRef .tc (argRef k) ∉ op.writes := by args_stretch
theorem argkeeps_12 : (hostOps1_12 : List (HloOp τ sig (Elt F))).Forall fun op => ∀ k : Fin 7, Proc.devRef .tc (argRef k) ∉ op.writes := by args_stretch
theorem argkeeps_13 : (hostOps1_13 : List (HloOp τ sig (Elt F))).Forall fun op => ∀ k : Fin 7, Proc.devRef .tc (argRef k) ∉ op.writes := by args_stretch
theorem argkeeps_14 : (hostOps1_14 : List (HloOp τ sig (Elt F))).Forall fun op => ∀ k : Fin 7, Proc.devRef .tc (argRef k) ∉ op.writes := by args_stretch
theorem argkeeps_15 : (hostOps1_15 : List (HloOp τ sig (Elt F))).Forall fun op => ∀ k : Fin 7, Proc.devRef .tc (argRef k) ∉ op.writes := by args_stretch
theorem argkeeps_16 : (hostOps1_16 : List (HloOp τ sig (Elt F))).Forall fun op => ∀ k : Fin 7, Proc.devRef .tc (argRef k) ∉ op.writes := by args_stretch
theorem argkeeps_17 : (hostOps1_17 : List (HloOp τ sig (Elt F))).Forall fun op => ∀ k : Fin 7, Proc.devRef .tc (argRef k) ∉ op.writes := by args_stretch
theorem argkeeps_18 : (hostOps1_18 : List (HloOp τ sig (Elt F))).Forall fun op => ∀ k : Fin 7, Proc.devRef .tc (argRef k) ∉ op.writes := by args_stretch
theorem argkeeps_19 : (hostOps1_19 : List (HloOp τ sig (Elt F))).Forall fun op => ∀ k : Fin 7, Proc.devRef .tc (argRef k) ∉ op.writes := by args_stretch

theorem tail_argkeeps : (tailOps : List (List (HloOp τ sig (Elt F)))).Forall fun ops => ops.Forall fun op =>
    ∀ k : Fin 7, Proc.devRef .tc (argRef k) ∉ op.writes :=
  ⟨argkeeps_0, argkeeps_1, argkeeps_2, argkeeps_3, argkeeps_4, argkeeps_5, argkeeps_6, argkeeps_7, argkeeps_8, argkeeps_9, argkeeps_10, argkeeps_11, argkeeps_12, argkeeps_13, argkeeps_14, argkeeps_15, argkeeps_16, argkeeps_17, argkeeps_18, argkeeps_19⟩

/-- An argument read after the stretches that follow the call is what it was before them. -/
theorem tail_arg (W : Valuation τ sig (Elt F)) (k : Fin 7) :
    StableHlo.after (tailOps : List (List (HloOp τ sig (Elt F)))).flatten W (Proc.devRef .tc (argRef k)) = W (Proc.devRef .tc (argRef k)) :=
  StableHlo.after_of_forall_not_mem _ _ fun op hop => by
    obtain ⟨ops, hops, hop'⟩ := List.mem_flatten.mp hop
    exact List.forall_iff_forall_mem.mp (List.forall_iff_forall_mem.mp tail_argkeeps ops hops) op hop' k

/-- An argument when the call is entered is what it was at the start: the two conversions write their own results. -/
theorem V0_arg (c : Dev nD) (k : Fin 7) : V0 m c (Proc.devRef .tc (argRef k)) = m ((c.tc : Thread nD τ).loc (argRef k)) :=
  StableHlo.after_of_forall_not_mem _ _ fun op hop => by
    have hop' : op ∈ (hostOps0 : List (HloOp τ sig (Elt F))) := by simpa using hop
    exact List.forall_iff_forall_mem.mp argkeeps_pre op hop' k

/-- An argument is none of the call's three arrays, -/
theorem arg_not_arr (k : Fin 7) (w : Fin 3) : Pipeline.arrRef spec0 w ≠ argRef k := by
  fin_cases k <;> fin_cases w <;> decide

/-- and it is an unscoped buffer: it bypasses the call. -/
theorem arg_rest (k : Fin 7) : argRef k ∈ Pipeline.restRefs sig spec0 :=
  Pipeline.mem_restRefs_of (argRef k) (by fin_cases k <;> rfl) (fun w => by fin_cases k <;> fin_cases w <;> decide)

end Cert.Kernel.Frm

end
-- ==== Proof.KClaims.lean ====
/-
  The frame claim, at any float instance: the entry function runs to the end without a fault and its seven arguments end
  as they began. The run leaves every buffer that bypasses the call at what the operations after the call make of the
  call's exit contents; an argument is such a buffer, none of those operations writes it, the call's exit contents agree
  with its entry contents off the call's three arrays, and the two conversions before the call do not write it either.
-/
import proofs.«139422_j40183714021525_1_alg».proof.Proof.KFrame
import proofs.«139422_j40183714021525_1_alg».proof.Proof.KArgs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the operations after the call leave in an argument's buffer: its contents at the start. -/
theorem afterTail_arg (c : Dev nD) (k : Fin 7) :
    Pipeline.afterTail₀ cfgs (dats m) 0 (V0 m) tailOps c (argRef k) = m ((c.tc : Thread nD τ).loc (argRef k)) :=
  (tail_arg _ k).trans ((Pipeline.withArrays_of_ne (cfgs 0).spec c (V0 m c) _ (argRef k) (fun w => arg_not_arr k w)).trans (V0_arg m c k))

/-- After the run an argument's buffer holds its contents at the start. -/
theorem arg_final (r : PUnit × MemSt nD τ sig (Elt F))
    (h : Pipeline.FramePost cfgs (dats m) 0 (Pipeline.afterTail₀ cfgs (dats m) 0 (V0 m) tailOps) r) (c : Dev nD) (k : Fin 7) :
    r.2.mem ((c.tc : Thread nD τ).loc (argRef k)) = m ((c.tc : Thread nD τ).loc (argRef k)) :=
  ((h c).2 (argRef k) (arg_rest k)).trans (afterTail_arg m c k)

/-- THE FRAME: every weakly fair execution terminates, faults nowhere, and leaves the seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨arg_final m r h c 0, arg_final m r h c 1, arg_final m r h c 2, arg_final m r h c 3, arg_final m r h c 4, arg_final m r h c 5, arg_final m r h c 6⟩) (run_main m ρ)

end Cert.Kernel.Frm

end
-- ==== Proof.KiKit.lean ====
/-
  The one pallas_call of this program multiplies two 4096 × 4096 matrices block by block on a 4 × 4 × 4 grid: at grid
  point (i, j, k) the body adds the product of block (i, k) of its first operand and block (k, j) of its second onto an
  accumulator it keeps in a scratch buffer, which it sets to zero first when k = 0, and when k = 3 it stores the
  accumulator into block (i, j) of the result. Around that call the entry function converts the two operands before it
  and goes on with twenty stretches of host operations after it.

  This module names what every later module about the program speaks of: the buffer contents when the call is entered
  (after the two conversions), the stretches after the call and the facts the launch needs of them (they touch
  TensorCore buffers only, allocate nothing, write none of the call's three arrays), the entry function as "the
  conversions, the call, the stretches", each window's block at a grid point, the two branch conditions of the body in
  closed form (k = 0 is "the point's number is 0 mod 4", k = 3 is "3 mod 4"), where the result window is idle, and the
  staging and scratch buffers by name.
-/
import proofs.«139422_j40183714021525_1_alg».proof.Proof.Gen.KernelIdeal.Launch
import proofs.«139422_j40183714021525_1_alg».proof.Proof.Gen.KernelIdeal.Points
import proofs.«139422_j40183714021525_1_alg».proof.Proof.Gen.KernelIdeal.Skeleton
import Idealize.ShloMosaic.Lib.Pipeline.FrameSuffix
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the call -/

/-- Core `c`'s TensorCore buffer contents when the call is entered: after the two conversions. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The twenty stretches of host operations after the call, in order. -/
abbrev tailOps : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18, hostOps1_19]

/-- Every operation after the call touches TensorCore references only. -/
theorem tail_tc : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub,
   hostOps1_8_sub, hostOps1_9_sub, hostOps1_10_sub, hostOps1_11_sub, hostOps1_12_sub, hostOps1_13_sub, hostOps1_14_sub,
   hostOps1_15_sub, hostOps1_16_sub, hostOps1_17_sub, hostOps1_18_sub, hostOps1_19_sub⟩

/-- The two conversions allocate nothing. -/
theorem pre_fresh : ([hostOps0] : List (List (HloOp τ sig (Elt F)))).Forall fun ops => ops.Forall fun op => op.fresh = ∅ := by
  simp only [List.Forall]; repeat' constructor

/-- No operation after the call allocates. -/
theorem tail_fresh : (tailOps : List (List (HloOp τ sig (Elt F)))).Forall fun ops => ops.Forall fun op => op.fresh = ∅ := by
  simp only [List.Forall]; repeat' constructor

/-- The entry function is the conversions, the call, and the stretches after it; so it reduces to the call CONTINUED BY
    those stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps hostOps0_sub pre_fresh main_chain

/-- The stretches after the call touch the call's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp tail_tc ops hops) op hop)

/-- They allocate nothing. -/
theorem sfx_fresh : ∀ ops ∈ (tailOps : List (List (HloOp τ sig (Elt F)))), ∀ op ∈ ops, op.fresh = ∅ :=
  fun ops hops op hop => List.forall_iff_forall_mem.mp (List.forall_iff_forall_mem.mp tail_fresh ops hops) op hop

/-- One stretch at a time: each of its operations writes its own result buffer only, and that buffer is none of the
    call's three arrays (the two converted operands and the product). -/
local macro "keeps_stretch" : tactic => `(tactic| (
  simp only [List.Forall]
  repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)))

theorem keeps_0 : (hostOps1 : List (HloOp τ sig (Elt F))).Forall fun op => ∀ w, Proc.devRef .tc (Pipeline.arrRef spec0 w) ∉ op.writes := by keeps_stretch
theorem keeps_1 : (hostOps1_1 : List (HloOp τ sig (Elt F))).Forall fun op => ∀ w, Proc.devRef .tc (Pipeline.arrRef spec0 w) ∉ op.writes := by keeps_stretch
theorem keeps_2 : (hostOps1_2 : List (HloOp τ sig (Elt F))).Forall fun op => ∀ w, Proc.devRef .tc (Pipeline.arrRef spec0 w) ∉ op.writes := by keeps_stretch
theorem keeps_3 : (hostOps1_3 : List (HloOp τ sig (Elt F))).Forall fun op => ∀ w, Proc.devRef .tc (Pipeline.arrRef spec0 w) ∉ op.writes := by keeps_stretch
theorem keeps_4 : (hostOps1_4 : List (HloOp τ sig (Elt F))).Forall fun op => ∀ w, Proc.devRef .tc (Pipeline.arrRef spec0 w) ∉ op.writes := by keeps_stretch
theorem keeps_5 : (hostOps1_5 : List (HloOp τ sig (Elt F))).Forall fun op => ∀ w, Proc.devRef .tc (Pipeline.arrRef spec0 w) ∉ op.writes := by keeps_stretch
theorem keeps_6 : (hostOps1_6 : List (HloOp τ sig (Elt F))).Forall fun op => ∀ w, Proc.devRef .tc (Pipeline.arrRef spec0 w) ∉ op.writes := by keeps_stretch
theorem keeps_7 : (hostOps1_7 : List (HloOp τ sig (Elt F))).Forall fun op => ∀ w, Proc.devRef .tc (Pipeline.arrRef spec0 w) ∉ op.writes := by keeps_stretch
theorem keeps_8 : (hostOps1_8 : List (HloOp τ sig (Elt F))).Forall fun op => ∀ w, Proc.devRef .tc (Pipeline.arrRef spec0 w) ∉ op.writes := by keeps_stretch
theorem keeps_9 : (hostOps1_9 : List (HloOp τ sig (Elt F))).Forall fun op => ∀ w, Proc.devRef .tc (Pipeline.arrRef spec0 w) ∉ op.writes := by keeps_stretch
theorem keeps_10 : (hostOps1_10 : List (HloOp τ sig (Elt F))).Forall fun op => ∀ w, Proc.devRef .tc (Pipeline.arrRef spec0 w) ∉ op.writes := by keeps_stretch
theorem keeps_11 : (hostOps1_11 : List (HloOp τ sig (Elt F))).Forall fun op => ∀ w, Proc.devRef .tc (Pipeline.arrRef spec0 w) ∉ op.writes := by keeps_stretch
theorem keeps_12 : (hostOps1_12 : List (HloOp τ sig (Elt F))).Forall fun op => ∀ w, Proc.devRef .tc (Pipeline.arrRef spec0 w) ∉ op.writes := by keeps_stretch
theorem keeps_13 : (hostOps1_13 : List (HloOp τ sig (Elt F))).Forall fun op => ∀ w, Proc.devRef .tc (Pipeline.arrRef spec0 w) ∉ op.writes := by keeps_stretch
theorem keeps_14 : (hostOps1_14 : List (HloOp τ sig (Elt F))).Forall fun op => ∀ w, Proc.devRef .tc (Pipeline.arrRef spec0 w) ∉ op.writes := by keeps_stretch
theorem keeps_15 : (hostOps1_15 : List (HloOp τ sig (Elt F))).Forall fun op => ∀ w, Proc.devRef .tc (Pipeline.arrRef spec0 w) ∉ op.writes := by keeps_stretch
theorem keeps_16 : (hostOps1_16 : List (HloOp τ sig (Elt F))).Forall fun op => ∀ w, Proc.devRef .tc (Pipeline.arrRef spec0 w) ∉ op.writes := by keeps_stretch
theorem keeps_17 : (hostOps1_17 : List (HloOp τ sig (Elt F))).Forall fun op => ∀ w, Proc.devRef .tc (Pipeline.arrRef spec0 w) ∉ op.writes := by keeps_stretch
theorem keeps_18 : (hostOps1_18 : List (HloOp τ sig (Elt F))).Forall fun op => ∀ w, Proc.devRef .tc (Pipeline.arrRef spec0 w) ∉ op.writes := by keeps_stretch
theorem keeps_19 : (hostOps1_19 : List (HloOp τ sig (Elt F))).Forall fun op => ∀ w, Proc.devRef .tc (Pipeline.arrRef spec0 w) ∉ op.writes := by keeps_stretch

/-- So no operation after the call writes one of the call's arrays. -/
theorem tail_keeps : (tailOps : List (List (HloOp τ sig (Elt F)))).Forall fun ops => ops.Forall fun op =>
    ∀ w, Proc.devRef .tc (Pipeline.arrRef spec0 w) ∉ op.writes :=
  ⟨keeps_0, keeps_1, keeps_2, keeps_3, keeps_4, keeps_5, keeps_6, keeps_7, keeps_8, keeps_9, keeps_10, keeps_11, keeps_12, keeps_13, keeps_14, keeps_15, keeps_16, keeps_17, keeps_18, keeps_19⟩

theorem sfx_keeps : ∀ ops ∈ (tailOps : List (List (HloOp τ sig (Elt F)))), ∀ op ∈ ops,
    ∀ w, Proc.devRef .tc (Pipeline.arrRef spec0 w) ∉ op.writes :=
  fun ops hops op hop => List.forall_iff_forall_mem.mp (List.forall_iff_forall_mem.mp tail_keeps ops hops) op hop

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "k = 0": the condition under which the body first sets the accumulator to zero. -/
abbrev condFirst (i : grid0.Coords) : Prop := (Scalar.cmpi .ne (Scalar.extui (Scalar.cmpi .eq (BitVec.ofNat 32 (i 2).val) 0#32)) 0#32) = 1#1
/-- It holds exactly at the points whose number is 0 mod 4. -/
theorem hcondFirst : ∀ t : Fin cfg0.N, condFirst (grid0.coords t) ↔ t.val % 4 = 0 :=
  (by decide +kernel : ∀ t : Fin grid0.N, condFirst (grid0.coords t) ↔ t.val % 4 = 0)

/-- "k = 3": the condition under which the body stores the accumulator into the result's block. -/
abbrev condLast (i : grid0.Coords) : Prop := k0_cond2 i = 1#1
/-- It holds exactly at the points whose number is 3 mod 4. -/
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- The result window is idle, and not written back, at the points with k ≠ 3; live at those with k = 3. -/
theorem idleAt2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem liveAt2 : ∀ t : Fin cfg0.N, condLast (grid0.coords t) → cfg0.idle 2 (grid0.coords t) = false := by decide +kernel

/-! ## The buffers by name -/

/-- Each window's current staging memref at point `t`, as the pipeline passes it to the body, and its wholeness. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev accM : Memref sig .tc .vmem S1024x1024 .f32 := Memref.whole cc0_scratch0

/-- What the launch hands the body besides the windows: the accumulator's buffer at some contents, and the generator
    register at some state. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Frm

end
-- ==== Proof.KiBody.lean ====
/-
  The kernel body on whole staging buffers, one statement per control case. With x0, x1 the two input blocks and xs the
  accumulator's contents on entry: when k = 0 the accumulator ends at 0 + x0·x1 whatever it held; when 0 < k < 3 it ends
  at xs + x0·x1; when k = 3 it ends at xs + x0·x1 and the result's block is stored with the same value. The input blocks
  are handed back as found; when k ≠ 3 the body does not touch the result's buffer, so the first two statements do not
  mention it.
-/
import proofs.«139422_j40183714021525_1_alg».proof.Proof.KiKit
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block loads and stores

Every load and store of the body goes through the rectangle that spans the whole 1024 × 1024 block at offsets (0, 0).
Through it a load reads the buffer's contents, and a store, made last, leaves exactly its payload. -/

local notation "R00" => Rect.unit (s := S1024x1024) ![0, 0] S1024x1024.size inb_S1024x1024_S1024x1024_0_0

/-- The offsets of that rectangle are all zero. -/
theorem off00 : (![0, 0] : Fin 2 → ℕ) = fun _ => 0 := funext fun a => by fin_cases a <;> rfl

/-- A load of the whole block from a whole buffer whose contents read `x` gives `x`. -/
theorem load_whole {e : EltTy} (m : Memref sig .tc .vmem S1024x1024 e) (h : m.IsWhole) (x : S1024x1024.Idx → Elt F e) :
    View.readAt (Elt F) m.view (R00).toLoadRect (h.unread x) = x := by
  rw [View.readAt_eq_ld, h.read_unread, View.ld_unit_zero (S := S1024x1024) off00]

/-- Every index of the block lies under a store of the whole block, so a list of stores that holds one covers. -/
theorem cover_whole {e : EltTy} (w : S1024x1024.Idx → Elt F e) (L : List (View.Piece (Elt F) S1024x1024 e)) (y : S1024x1024.Idx) :
    ∃ p ∈ ((⟨R00, w⟩ : View.Piece (Elt F) S1024x1024 e) :: L), y ∈ p.1.set :=
  ⟨⟨R00, w⟩, List.mem_cons_self, View.mem_set_unit_zero (S := S1024x1024) off00 inb_S1024x1024_S1024x1024_0_0 y⟩

/-- After a store of the whole block, made last, the buffer reads back the stored value: whatever it held before and
    whatever the earlier stores were. -/
theorem read_store_whole {e : EltTy} (m : Memref sig .tc .vmem S1024x1024 e) (f : m.view.ty.Contents (Elt F))
    (w : S1024x1024.Idx → Elt F e) (L : List (View.Piece (Elt F) S1024x1024 e)) :
    m.view.read (Elt F) (m.view.writes (Elt F) f ((⟨R00, w⟩ : View.Piece (Elt F) S1024x1024 e) :: L)) = w := by
  rw [View.read_writes_eq_canon m.view f _ (cover_whole w L), View.canon_cons_unit_zero (S := S1024x1024) off00]

/-- A load of the whole block after one store of the whole block reads the stored value. -/
theorem load_store_whole {e : EltTy} (m : Memref sig .tc .vmem S1024x1024 e) (w : S1024x1024.Idx → Elt F e) :
    m.view.readCov [(⟨R00, w⟩ : View.Piece (Elt F) S1024x1024 e)] (R00).toLoadRect = w :=
  View.readCov_unit_zero (S := S1024x1024) m.view off00 inb_S1024x1024_S1024x1024_0_0 w

/-- k = 0: the accumulator is first set to zero, then the product of the two blocks is added. -/
theorem run_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
    (hF : condFirst i) (hL : ¬condLast i) (x0 x1 : Vec F S1024x1024 .bf16) (E : Set ℕ) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1 ∗ owns (c : Thread nD τ) arg6 fullShare (k0_pay2 (k0_pay1 (F := F)) x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d6, %f6, -, H6⟩, Hk⟩
  obtain rfl := harg3.eq_unread hf0; obtain rfl := harg4.eq_unread hf1
  sl_exec (disch := first | exact hF | exact hL)
  sl_step
  iapply Hk
  isplitl [H0]
  · iexists _; isplitr
    · ipureintro; exact hf0
    iexact H0
  isplitl [H1]
  · iexists _; isplitr
    · ipureintro; exact hf1
    iexact H1
  iexists _; isplitr
  swap
  · iexact H6
  -- the accumulator was stored twice: the zero block, then (what a load after that store read) plus the product
  ipureintro
  rw [read_store_whole]
  sl_unfold_words
  rw [load_store_whole, load_whole, load_whole]

/-- 0 < k < 3: the product of the two blocks is added onto what the accumulator held. -/
theorem run_mid (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
    (hF : ¬condFirst i) (hL : ¬condLast i) (x0 x1 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg6 fullShare xs
        ∗ (iprop(owns (c : Thread nD τ) arg3 fullShare x0 ∗ owns (c : Thread nD τ) arg4 fullShare x1 ∗ owns (c : Thread nD τ) arg6 fullShare (k0_pay2 xs x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f6, %hf6, H6⟩, Hk⟩
  obtain rfl := harg3.eq_unread hf0; obtain rfl := harg4.eq_unread hf1; obtain rfl := harg6.eq_unread hf6
  sl_exec (disch := first | exact hF | exact hL)
  sl_step
  iapply Hk
  isplitl [H0]
  · iexists _; isplitr
    · ipureintro; exact hf0
    iexact H0
  isplitl [H1]
  · iexists _; isplitr
    · ipureintro; exact hf1
    iexact H1
  iexists _; isplitr
  swap
  · iexact H6
  -- one store into the accumulator: what the three loads read, combined
  ipureintro
  rw [read_store_whole, load_whole, load_whole, load_whole]

/-- k = 3: the product is added, and the accumulator's new contents are stored into the result's block. -/
theorem run_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
    (hF : ¬condFirst i) (hL : condLast i) (x0 x1 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k0_pay2 xs x0 x1) ∗ owns (c : Thread nD τ) arg6 fullShare (k0_pay2 xs x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d5, %f5, -, H5⟩, ⟨%f6, %hf6, H6⟩, Hk⟩
  obtain rfl := harg3.eq_unread hf0; obtain rfl := harg4.eq_unread hf1; obtain rfl := harg6.eq_unread hf6
  sl_exec (disch := first | exact hF | exact hL)
  sl_step
  iapply Hk
  isplitl [H0]
  · iexists _; isplitr
    · ipureintro; exact hf0
    iexact H0
  isplitl [H1]
  · iexists _; isplitr
    · ipureintro; exact hf1
    iexact H1
  isplitl [H5]
  · iexists _; isplitr
    swap
    · iexact H5
    -- the result's block was stored once, with what a load of the accumulator after its store read
    ipureintro
    rw [read_store_whole]
    sl_unfold_words
    rw [load_store_whole, load_whole, load_whole, load_whole]
  iexists _; isplitr
  swap
  · iexact H6
  ipureintro
  sl_unfold_words
  rw [read_store_whole, load_whole, load_whole, load_whole]

end Cert.KernelIdeal.Frm

end
-- ==== Proof.KiFrame.lean ====
/-
  The frame of the program, at any float instance. The accumulator after grid point n is stated in closed form by
  recursion on n: at a point with k = 0 it is 0 + (block of the first operand)·(block of the second), at any other point
  what the point before left plus that product. The proof data say: each input window's staging buffer holds its block;
  the result window's holds the accumulator (it is consulted only where k = 3, the only points that write it back); the
  invariant carries the accumulator's buffer at the closed form from one point to the next. The body's three runs give
  the body obligation point by point, and the library's launch theorem for a call followed by host operations gives the
  run of the entry function: every array of the call at what the proof data compute, every other buffer at what the
  operations after the call leave. No operation writes an argument, so the arguments end unchanged.
-/
import proofs.«139422_j40183714021525_1_alg».proof.Proof.KiBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- What the accumulator holds after the body at point `n`: the sum restarts from zero where k = 0. -/
def accAt (c : Dev nD) : (n : ℕ) → n < cfg0.N → Vec F S1024x1024 .f32
  | 0, hn => k0_pay2 (k0_pay1 (F := F)) (iblk m c 0 ⟨0, hn⟩) (iblk m c 1 ⟨0, hn⟩)
  | n + 1, hn =>
    if (n + 1) % 4 = 0 then k0_pay2 (k0_pay1 (F := F)) (iblk m c 0 ⟨n + 1, hn⟩) (iblk m c 1 ⟨n + 1, hn⟩)
    else k0_pay2 (accAt c n (Nat.lt_of_succ_lt hn)) (iblk m c 0 ⟨n + 1, hn⟩) (iblk m c 1 ⟨n + 1, hn⟩)

theorem accAt_first (c : Dev nD) (t : Fin cfg0.N) (h0 : t.val % 4 = 0) :
    accAt m c t.val t.isLt = k0_pay2 (k0_pay1 (F := F)) (iblk m c 0 t) (iblk m c 1 t) := by
  obtain ⟨n, hn⟩ := t
  cases n with
  | zero => rfl
  | succ n => exact if_pos h0

theorem accAt_next (c : Dev nD) (t : Fin cfg0.N) (h0 : ¬t.val % 4 = 0) :
    accAt m c t.val t.isLt = k0_pay2 (accAt m c (t.val - 1) (Nat.lt_of_le_of_lt (Nat.sub_le _ _) t.isLt)) (iblk m c 0 t) (iblk m c 1 t) := by
  obtain ⟨n, hn⟩ := t
  cases n with
  | zero => exact absurd (Nat.zero_mod _) h0
  | succ n => exact if_neg h0

/-! ## The invariant -/

/-- Before point `n`: at the start what the launch hands over (the accumulator's buffer at anything); afterwards the
    accumulator's buffer at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  have hN : t.val < 64 := lt_of_lt_of_eq t.isLt (show cfg0.N = 64 from N_0)
  by_cases h0 : t.val % 4 = 0
  · -- k = 0: the sum restarts
    have hF : condFirst (grid0.coords t) := (hcondFirst t).mpr h0
    have hL : ¬condLast (grid0.coords t) := fun h => by have := (hcondLast t).mp h; omega
    rw [Dat.leavesExact_idle (dats m 0 c) 2 t (idleAt2 t hL) (noFlush2 t hL), accAt_first m c t h0]
    by_cases hz : t.val = 0
    · rw [PhiS_castSucc m c t, PhiS_zero m c _ _ hz, PhiA0_eq]
      iintro ⟨⟨HS, Hg⟩, Ho, ⟨%d0, H0⟩, ⟨%d1, H1⟩, H2⟩
      iapply (run_first c (grid0.coords t) _ _ _ _ _ _ _ _ hF hL (iblk m c 0 t) (iblk m c 1 t) Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexact H2
    · rw [PhiS_castSucc m c t, PhiS_pos m c _ _ hz]
      iintro ⟨⟨HS, Hg⟩, Ho, ⟨%d0, H0⟩, ⟨%d1, H1⟩, H2⟩
      iapply (run_first c (grid0.coords t) _ _ _ _ _ _ _ _ hF hL (iblk m c 0 t) (iblk m c 1 t) Set.univ _)
      isplitl [H0]; · iexact H0
      isplitl [H1]; · iexact H1
      isplitl [HS]; · iexists _; iexact HS
      iintro ⟨H0, H1, HS⟩
      isplitl [HS Hg]
      · isplitl [HS]; · iexact HS
        iexact Hg
      isplitl [Ho]; · iexact Ho
      isplitl [H0]; · iexact H0
      isplitl [H1]; · iexact H1
      iexact H2
  · have hF : ¬condFirst (grid0.coords t) := fun h => h0 ((hcondFirst t).mp h)
    have hz : t.val ≠ 0 := fun h => h0 (by rw [h])
    by_cases h3 : t.val % 4 = 3
    · -- k = 3: the last product is added and the block is stored
      have hL : condLast (grid0.coords t) := (hcondLast t).mpr h3
      rw [show (dats m 0 c).leavesExact 2 t = owns (c : Thread nD τ) (ms2 t) fullShare ((dats m 0 c).after 2 t) from by
        unfold Dat.leavesExact; rw [liveAt2 t hL], after2]
      rw [accAt_next m c t h0, PhiS_castSucc m c t, PhiS_pos m c _ _ hz]
      iintro ⟨⟨HS, Hg⟩, Ho, ⟨%d0, H0⟩, ⟨%d1, H1⟩, ⟨%d2, H2⟩⟩
      iapply (run_last c (grid0.coords t) _ _ _ _ _ _ _ _ hF hL (iblk m c 0 t) (iblk m c 1 t) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · -- 0 < k < 3: one more product is added
      have hL : ¬condLast (grid0.coords t) := fun h => h3 ((hcondLast t).mp h)
      rw [Dat.leavesExact_idle (dats m 0 c) 2 t (idleAt2 t hL) (noFlush2 t hL), accAt_next m c t h0]
      rw [PhiS_castSucc m c t, PhiS_pos m c _ _ hz]
      iintro ⟨⟨HS, Hg⟩, Ho, ⟨%d0, H0⟩, ⟨%d1, H1⟩, H2⟩
      iapply (run_mid c (grid0.coords t) _ _ _ _ _ _ _ _ hF hL (iblk m c 0 t) (iblk m c 1 t) _ Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS, Hg⟩
  isplitl [HS]
  · iexists _; iexact HS
  iexact Hg

/-! ## The run -/

set_option backward.isDefEq.respectTransparency.types false in
/-- Every weakly fair execution of the entry function terminates without a fault, with each of the call's arrays at what
    the proof data compute and every other unscoped buffer at what the operations after the call leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.KernelIdeal.Frm

end
-- ==== Proof.KiArgs.lean ====
/-
  The seven arguments of the entry function are written by none of its host operations: each operation writes its own
  result buffer only, and no result buffer is an argument. So an argument read after the stretches that follow the call,
  and after the two conversions before it, is what it was at the start; and an argument is none of the call's three
  arrays, so the call itself passes it by.
-/
import proofs.«139422_j40183714021525_1_alg».proof.Proof.KiKit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The seven arguments, numbered. -/
abbrev argRef : Fin 7 → Ref sig .tc := fun
  | 0 => main_arg0 | 1 => main_arg1 | 2 => main_arg2 | 3 => main_arg3 | 4 => main_arg4 | 5 => main_arg5 | 6 => main_arg6
  | ⟨_ + 7, h⟩ => absurd h (Nat.not_lt.2 (Nat.le_add_left _ _))

/-- One stretch at a time: none of its operations writes an argument. -/
local macro "args_stretch" : tactic => `(tactic| (
  simp only [List.Forall]
  repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)))

theorem argkeeps_pre : (hostOps0 : List (HloOp τ sig (Elt F))).Forall fun op => ∀ k : Fin 7, Proc.devRef .tc (argRef k) ∉ op.writes := by args_stretch
theorem argkeeps_0 : (hostOps1 : List (HloOp τ sig (Elt F))).Forall fun op => ∀ k : Fin 7, Proc.devRef .tc (argRef k) ∉ op.writes := by args_stretch
theorem argkeeps_1 : (hostOps1_1 : List (HloOp τ sig (Elt F))).Forall fun op => ∀ k : Fin 7, Proc.devRef .tc (argRef k) ∉ op.writes := by args_stretch
theorem argkeeps_2 : (hostOps1_2 : List (HloOp τ sig (Elt F))).Forall fun op => ∀ k : Fin 7, Proc.devRef .tc (argRef k) ∉ op.writes := by args_stretch
theorem argkeeps_3 : (hostOps1_3 : List (HloOp τ sig (Elt F))).Forall fun op => ∀ k : Fin 7, Proc.devRef .tc (argRef k) ∉ op.writes := by args_stretch
theorem argkeeps_4 : (hostOps1_4 : List (HloOp τ sig (Elt F))).Forall fun op => ∀ k : Fin 7, Proc.devRef .tc (argRef k) ∉ op.writes := by args_stretch
theorem argkeeps_5 : (hostOps1_5 : List (HloOp τ sig (Elt F))).Forall fun op => ∀ k : Fin 7, Proc.devRef .tc (argRef k) ∉ op.writes := by args_stretch
theorem argkeeps_6 : (hostOps1_6 : List (HloOp τ sig (Elt F))).Forall fun op => ∀ k : Fin 7, Proc.devRef .tc (argRef k) ∉ op.writes := by args_stretch
theorem argkeeps_7 : (hostOps1_7 : List (HloOp τ sig (Elt F))).Forall fun op => ∀ k : Fin 7, Proc.devRef .tc (argRef k) ∉ op.writes := by args_stretch
theorem argkeeps_8 : (hostOps1_8 : List (HloOp τ sig (Elt F))).Forall fun op => ∀ k : Fin 7, Proc.devRef .tc (argRef k) ∉ op.writes := by args_stretch
theorem argkeeps_9 : (hostOps1_9 : List (HloOp τ sig (Elt F))).Forall fun op => ∀ k : Fin 7, Proc.devRef .tc (argRef k) ∉ op.writes := by args_stretch
theorem argkeeps_10 : (hostOps1_10 : List (HloOp τ sig (Elt F))).Forall fun op => ∀ k : Fin 7, Proc.devRef .tc (argRef k) ∉ op.writes := by args_stretch
theorem argkeeps_11 : (hostOps1_11 : List (HloOp τ sig (Elt F))).Forall fun op => ∀ k : Fin 7, Proc.devRef .tc (argRef k) ∉ op.writes := by args_stretch
theorem argkeeps_12 : (hostOps1_12 : List (HloOp τ sig (Elt F))).Forall fun op => ∀ k : Fin 7, Proc.devRef .tc (argRef k) ∉ op.writes := by args_stretch
theorem argkeeps_13 : (hostOps1_13 : List (HloOp τ sig (Elt F))).Forall fun op => ∀ k : Fin 7, Proc.devRef .tc (argRef k) ∉ op.writes := by args_stretch
theorem argkeeps_14 : (hostOps1_14 : List (HloOp τ sig (Elt F))).Forall fun op => ∀ k : Fin 7, Proc.devRef .tc (argRef k) ∉ op.writes := by args_stretch
theorem argkeeps_15 : (hostOps1_15 : List (HloOp τ sig (Elt F))).Forall fun op => ∀ k : Fin 7, Proc.devRef .tc (argRef k) ∉ op.writes := by args_stretch
theorem argkeeps_16 : (hostOps1_16 : List (HloOp τ sig (Elt F))).Forall fun op => ∀ k : Fin 7, Proc.devRef .tc (argRef k) ∉ op.writes := by args_stretch
theorem argkeeps_17 : (hostOps1_17 : List (HloOp τ sig (Elt F))).Forall fun op => ∀ k : Fin 7, Proc.devRef .tc (argRef k) ∉ op.writes := by args_stretch
theorem argkeeps_18 : (hostOps1_18 : List (HloOp τ sig (Elt F))).Forall fun op => ∀ k : Fin 7, Proc.devRef .tc (argRef k) ∉ op.writes := by args_stretch
theorem argkeeps_19 : (hostOps1_19 : List (HloOp τ sig (Elt F))).Forall fun op => ∀ k : Fin 7, Proc.devRef .tc (argRef k) ∉ op.writes := by args_stretch

theorem tail_argkeeps : (tailOps : List (List (HloOp τ sig (Elt F)))).Forall fun ops => ops.Forall fun op =>
    ∀ k : Fin 7, Proc.devRef .tc (argRef k) ∉ op.writes :=
  ⟨argkeeps_0, argkeeps_1, argkeeps_2, argkeeps_3, argkeeps_4, argkeeps_5, argkeeps_6, argkeeps_7, argkeeps_8, argkeeps_9, argkeeps_10, argkeeps_11, argkeeps_12, argkeeps_13, argkeeps_14, argkeeps_15, argkeeps_16, argkeeps_17, argkeeps_18, argkeeps_19⟩

/-- An argument read after the stretches that follow the call is what it was before them. -/
theorem tail_arg (W : Valuation τ sig (Elt F)) (k : Fin 7) :
    StableHlo.after (tailOps : List (List (HloOp τ sig (Elt F)))).flatten W (Proc.devRef .tc (argRef k)) = W (Proc.devRef .tc (argRef k)) :=
  StableHlo.after_of_forall_not_mem _ _ fun op hop => by
    obtain ⟨ops, hops, hop'⟩ := List.mem_flatten.mp hop
    exact List.forall_iff_forall_mem.mp (List.forall_iff_forall_mem.mp tail_argkeeps ops hops) op hop' k

/-- An argument when the call is entered is what it was at the start: the two conversions write their own results. -/
theorem V0_arg (c : Dev nD) (k : Fin 7) : V0 m c (Proc.devRef .tc (argRef k)) = m ((c.tc : Thread nD τ).loc (argRef k)) :=
  StableHlo.after_of_forall_not_mem _ _ fun op hop => by
    have hop' : op ∈ (hostOps0 : List (HloOp τ sig (Elt F))) := by simpa using hop
    exact List.forall_iff_forall_mem.mp argkeeps_pre op hop' k

/-- An argument is none of the call's three arrays, -/
theorem arg_not_arr (k : Fin 7) (w : Fin 3) : Pipeline.arrRef spec0 w ≠ argRef k := by
  fin_cases k <;> fin_cases w <;> decide

/-- and it is an unscoped buffer: it bypasses the call. -/
theorem arg_rest (k : Fin 7) : argRef k ∈ Pipeline.restRefs sig spec0 :=
  Pipeline.mem_restRefs_of (argRef k) (by fin_cases k <;> rfl) (fun w => by fin_cases k <;> fin_cases w <;> decide)

end Cert.KernelIdeal.Frm

end
-- ==== Proof.KiClaims.lean ====
/-
  The frame claim, at any float instance: the entry function runs to the end without a fault and its seven arguments end
  as they began. The run leaves every buffer that bypasses the call at what the operations after the call make of the
  call's exit contents; an argument is such a buffer, none of those operations writes it, the call's exit contents agree
  with its entry contents off the call's three arrays, and the two conversions before the call do not write it either.
-/
import proofs.«139422_j40183714021525_1_alg».proof.Proof.KiFrame
import proofs.«139422_j40183714021525_1_alg».proof.Proof.KiArgs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the operations after the call leave in an argument's buffer: its contents at the start. -/
theorem afterTail_arg (c : Dev nD) (k : Fin 7) :
    Pipeline.afterTail₀ cfgs (dats m) 0 (V0 m) tailOps c (argRef k) = m ((c.tc : Thread nD τ).loc (argRef k)) :=
  (tail_arg _ k).trans ((Pipeline.withArrays_of_ne (cfgs 0).spec c (V0 m c) _ (argRef k) (fun w => arg_not_arr k w)).trans (V0_arg m c k))

/-- After the run an argument's buffer holds its contents at the start. -/
theorem arg_final (r : PUnit × MemSt nD τ sig (Elt F))
    (h : Pipeline.FramePost cfgs (dats m) 0 (Pipeline.afterTail₀ cfgs (dats m) 0 (V0 m) tailOps) r) (c : Dev nD) (k : Fin 7) :
    r.2.mem ((c.tc : Thread nD τ).loc (argRef k)) = m ((c.tc : Thread nD τ).loc (argRef k)) :=
  ((h c).2 (argRef k) (arg_rest k)).trans (afterTail_arg m c k)

/-- THE FRAME: every weakly fair execution terminates, faults nowhere, and leaves the seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨arg_final m r h c 0, arg_final m r h c 1, arg_final m r h c 2, arg_final m r h c 3, arg_final m r h c 4, arg_final m r h c 5, arg_final m r h c 6⟩) (run_main m ρ)

end Cert.KernelIdeal.Frm

end
-- ==== Proof.RefOps.lean ====
/-
  The reference program's @main as one straight line of host operations.

  @main calls the module-local functions `_where` … `_where_6` and `_diag` (which itself calls `_where_6`);
  a call executes the callee's body on the operands, so the program is the flat sequence of its own
  operations with each callee's operations standing at the call site, over that call's buffers. `ops` is
  that sequence, 170 operations in program order (60 + 67 + 43 over the three printed windows), and
  `main_eq` states that @main is `seq ops`: both sides are the same chain of `hlo` steps once the
  callees' definitions are unfolded and sequencing is re-associated, which is definitional in the free monad.
-/
import proofs.«139422_j40183714021525_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxRecDepth 65536 in
set_option maxHeartbeats 40000000 in
/-- @main's 170 operations, in order: its own, and at each call the callee's over that call's buffer record
    (`main_callK`; `_diag`'s inner call to `_where_6` over `main_callK.call0`). -/
abbrev ops : List (HloOp τ sig (Elt F)) :=
  [ StableHlo.nullary main_cst (constant S_ .f32 0x00000000#32),
    StableHlo.unary main_cst main_v0 (broadcastInDim S4096x4096 ![] bcast_S_S4096x4096 : (⟨S_, .f32⟩ : BufTy).Contents (Elt F) → (⟨S4096x4096, .f32⟩ : BufTy).Contents (Elt F)),
    StableHlo.binary main_arg5 main_v0 main_v1 (cmpf .ogt : (⟨S4096x4096, .f32⟩ : BufTy).Contents (Elt F) → (⟨S4096x4096, .f32⟩ : BufTy).Contents (Elt F) → (⟨S4096x4096, .i1⟩ : BufTy).Contents (Elt F)),
    StableHlo.nullary main_cst_0 (constant S_ .f32 0x00000000#32),
    StableHlo.unary main_cst_0 main_v2 (broadcastInDim S4096x4096 ![] bcast_S_S4096x4096 : (⟨S_, .f32⟩ : BufTy).Contents (Elt F) → (⟨S4096x4096, .f32⟩ : BufTy).Contents (Elt F)),
    StableHlo.TRef.ternary (.of main_v1 : StableHlo.TRef sig ⟨S4096x4096, .i1⟩) (.of main_arg5 : StableHlo.TRef sig ⟨S4096x4096, .f32⟩) (.of main_v2 : StableHlo.TRef sig ⟨S4096x4096, .f32⟩) main_call0.v0 select,
    StableHlo.nullary main_cst_1 (constant S_ .f32 0x00000000#32),
    StableHlo.unary main_cst_1 main_v4 (broadcastInDim S4096x4096 ![] bcast_S_S4096x4096 : (⟨S_, .f32⟩ : BufTy).Contents (Elt F) → (⟨S4096x4096, .f32⟩ : BufTy).Contents (Elt F)),
    StableHlo.binary main_arg5 main_v4 main_v5 (cmpf .olt : (⟨S4096x4096, .f32⟩ : BufTy).Contents (Elt F) → (⟨S4096x4096, .f32⟩ : BufTy).Contents (Elt F) → (⟨S4096x4096, .i1⟩ : BufTy).Contents (Elt F)),
    StableHlo.nullary main_cst_2 (constant S_ .f32 0x00000000#32),
    StableHlo.unary main_cst_2 main_v6 (broadcastInDim S4096x4096 ![] bcast_S_S4096x4096 : (⟨S_, .f32⟩ : BufTy).Contents (Elt F) → (⟨S4096x4096, .f32⟩ : BufTy).Contents (Elt F)),
    StableHlo.TRef.ternary (.of main_v5 : StableHlo.TRef sig ⟨S4096x4096, .i1⟩) (.of main_arg5 : StableHlo.TRef sig ⟨S4096x4096, .f32⟩) (.of main_v6 : StableHlo.TRef sig ⟨S4096x4096, .f32⟩) main_call1.v0 select,
    StableHlo.nullary main_cst_3 (constant S_ .f32 0x00000000#32),
    StableHlo.unary main_cst_3 main_v8 (broadcastInDim S4096x4096 ![] bcast_S_S4096x4096 : (⟨S_, .f32⟩ : BufTy).Contents (Elt F) → (⟨S4096x4096, .f32⟩ : BufTy).Contents (Elt F)),
    StableHlo.binary main_arg5 main_v8 main_v9 (cmpf .ogt : (⟨S4096x4096, .f32⟩ : BufTy).Contents (Elt F) → (⟨S4096x4096, .f32⟩ : BufTy).Contents (Elt F) → (⟨S4096x4096, .i1⟩ : BufTy).Contents (Elt F)),
    StableHlo.nullary main_cst_4 (constant S_ .f32 0x00000000#32),
    StableHlo.unary main_cst_4 main_v10 (broadcastInDim S4096x4096 ![] bcast_S_S4096x4096 : (⟨S_, .f32⟩ : BufTy).Contents (Elt F) → (⟨S4096x4096, .f32⟩ : BufTy).Contents (Elt F)),
    StableHlo.TRef.ternary (.of main_v9 : StableHlo.TRef sig ⟨S4096x4096, .i1⟩) (.of main_arg5 : StableHlo.TRef sig ⟨S4096x4096, .f32⟩) (.of main_v10 : StableHlo.TRef sig ⟨S4096x4096, .f32⟩) main_call2.v0 select,
    StableHlo.nullary main_cst_5 (constant S_ .f32 0x00000000#32),
    StableHlo.unary main_cst_5 main_v12 (broadcastInDim S4096x4096 ![] bcast_S_S4096x4096 : (⟨S_, .f32⟩ : BufTy).Contents (Elt F) → (⟨S4096x4096, .f32⟩ : BufTy).Contents (Elt F)),
    StableHlo.binary main_arg5 main_v12 main_v13 (cmpf .olt : (⟨S4096x4096, .f32⟩ : BufTy).Contents (Elt F) → (⟨S4096x4096, .f32⟩ : BufTy).Contents (Elt F) → (⟨S4096x4096, .i1⟩ : BufTy).Contents (Elt F)),
    StableHlo.nullary main_cst_6 (constant S_ .f32 0x00000000#32),
    StableHlo.unary main_cst_6 main_v14 (broadcastInDim S4096x4096 ![] bcast_S_S4096x4096 : (⟨S_, .f32⟩ : BufTy).Contents (Elt F) → (⟨S4096x4096, .f32⟩ : BufTy).Contents (Elt F)),
    StableHlo.TRef.ternary (.of main_v13 : StableHlo.TRef sig ⟨S4096x4096, .i1⟩) (.of main_arg5 : StableHlo.TRef sig ⟨S4096x4096, .f32⟩) (.of main_v14 : StableHlo.TRef sig ⟨S4096x4096, .f32⟩) main_call3.v0 select,
    StableHlo.unary main_v3 main_v16 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg4 main_v16 main_v17 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    StableHlo.unary main_v7 main_v18 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg4 main_v18 main_v19 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    StableHlo.binary main_v17 main_v19 main_v20 (addf : (⟨S1x4096, .f32⟩ : BufTy).Contents (Elt F) → (⟨S1x4096, .f32⟩ : BufTy).Contents (Elt F) → (⟨S1x4096, .f32⟩ : BufTy).Contents (Elt F)),
    StableHlo.binary main_v20 main_arg6 main_v21 (addf : (⟨S1x4096, .f32⟩ : BufTy).Contents (Elt F) → (⟨S1x4096, .f32⟩ : BufTy).Contents (Elt F) → (⟨S1x4096, .f32⟩ : BufTy).Contents (Elt F)),
    StableHlo.unary main_v11 main_v22 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg4 main_v22 main_v23 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    StableHlo.unary main_v15 main_v24 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg4 main_v24 main_v25 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    StableHlo.binary main_v23 main_v25 main_v26 (addf : (⟨S1x4096, .f32⟩ : BufTy).Contents (Elt F) → (⟨S1x4096, .f32⟩ : BufTy).Contents (Elt F) → (⟨S1x4096, .f32⟩ : BufTy).Contents (Elt F)),
    StableHlo.binary main_v26 main_arg6 main_v27 (addf : (⟨S1x4096, .f32⟩ : BufTy).Contents (Elt F) → (⟨S1x4096, .f32⟩ : BufTy).Contents (Elt F) → (⟨S1x4096, .f32⟩ : BufTy).Contents (Elt F)),
    StableHlo.binary main_v3 main_arg3 main_v28 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    StableHlo.binary main_v7 main_arg3 main_v29 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    StableHlo.binary main_v28 main_v29 main_v30 (addf : (⟨S4096x4096, .f32⟩ : BufTy).Contents (Elt F) → (⟨S4096x4096, .f32⟩ : BufTy).Contents (Elt F) → (⟨S4096x4096, .f32⟩ : BufTy).Contents (Elt F)),
    StableHlo.binary main_v11 main_arg3 main_v31 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    StableHlo.binary main_v15 main_arg3 main_v32 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    StableHlo.binary main_v31 main_v32 main_v33 (addf : (⟨S4096x4096, .f32⟩ : BufTy).Contents (Elt F) → (⟨S4096x4096, .f32⟩ : BufTy).Contents (Elt F) → (⟨S4096x4096, .f32⟩ : BufTy).Contents (Elt F)),
    StableHlo.nullary main_cst_7 (constant S_ .f32 0x00000000#32),
    StableHlo.unary main_cst_7 main_v34 (broadcastInDim S4096x4096 ![] bcast_S_S4096x4096 : (⟨S_, .f32⟩ : BufTy).Contents (Elt F) → (⟨S4096x4096, .f32⟩ : BufTy).Contents (Elt F)),
    StableHlo.binary main_v30 main_v34 main_v35 (cmpf .ogt : (⟨S4096x4096, .f32⟩ : BufTy).Contents (Elt F) → (⟨S4096x4096, .f32⟩ : BufTy).Contents (Elt F) → (⟨S4096x4096, .i1⟩ : BufTy).Contents (Elt F)),
    StableHlo.nullary main_cst_8 (constant S_ .f32 0x00000000#32),
    StableHlo.unary main_cst_8 main_v36 (broadcastInDim S4096x4096 ![] bcast_S_S4096x4096 : (⟨S_, .f32⟩ : BufTy).Contents (Elt F) → (⟨S4096x4096, .f32⟩ : BufTy).Contents (Elt F)),
    StableHlo.TRef.ternary (.of main_v35 : StableHlo.TRef sig ⟨S4096x4096, .i1⟩) (.of main_v30 : StableHlo.TRef sig ⟨S4096x4096, .f32⟩) (.of main_v36 : StableHlo.TRef sig ⟨S4096x4096, .f32⟩) main_call4.v0 select,
    StableHlo.unary main_v37 main_v38 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg1 main_v38 main_v39 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    StableHlo.nullary main_cst_9 (constant S_ .f32 0x00000000#32),
    StableHlo.unary main_cst_9 main_v40 (broadcastInDim S4096x4096 ![] bcast_S_S4096x4096 : (⟨S_, .f32⟩ : BufTy).Contents (Elt F) → (⟨S4096x4096, .f32⟩ : BufTy).Contents (Elt F)),
    StableHlo.binary main_v30 main_v40 main_v41 (cmpf .olt : (⟨S4096x4096, .f32⟩ : BufTy).Contents (Elt F) → (⟨S4096x4096, .f32⟩ : BufTy).Contents (Elt F) → (⟨S4096x4096, .i1⟩ : BufTy).Contents (Elt F)),
    StableHlo.nullary main_cst_10 (constant S_ .f32 0x00000000#32),
    StableHlo.unary main_cst_10 main_v42 (broadcastInDim S4096x4096 ![] bcast_S_S4096x4096 : (⟨S_, .f32⟩ : BufTy).Contents (Elt F) → (⟨S4096x4096, .f32⟩ : BufTy).Contents (Elt F)),
    StableHlo.TRef.ternary (.of main_v41 : StableHlo.TRef sig ⟨S4096x4096, .i1⟩) (.of main_v30 : StableHlo.TRef sig ⟨S4096x4096, .f32⟩) (.of main_v42 : StableHlo.TRef sig ⟨S4096x4096, .f32⟩) main_call5.v0 select,
    StableHlo.unary main_v43 main_v44 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg2 main_v44 main_v45 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    StableHlo.binary main_v39 main_v45 main_v46 (addf : (⟨S1x4096, .f32⟩ : BufTy).Contents (Elt F) → (⟨S1x4096, .f32⟩ : BufTy).Contents (Elt F) → (⟨S1x4096, .f32⟩ : BufTy).Contents (Elt F)),
    StableHlo.binary main_v46 main_v21 main_v47 (addf : (⟨S1x4096, .f32⟩ : BufTy).Contents (Elt F) → (⟨S1x4096, .f32⟩ : BufTy).Contents (Elt F) → (⟨S1x4096, .f32⟩ : BufTy).Contents (Elt F)),
    StableHlo.nullary main_cst_11 (constant S_ .f32 0x00000000#32),
    StableHlo.unary main_cst_11 main_v48 (broadcastInDim S4096x4096 ![] bcast_S_S4096x4096 : (⟨S_, .f32⟩ : BufTy).Contents (Elt F) → (⟨S4096x4096, .f32⟩ : BufTy).Contents (Elt F)),
    StableHlo.binary main_v33 main_v48 main_v49 (cmpf .ogt : (⟨S4096x4096, .f32⟩ : BufTy).Contents (Elt F) → (⟨S4096x4096, .f32⟩ : BufTy).Contents (Elt F) → (⟨S4096x4096, .i1⟩ : BufTy).Contents (Elt F)),
    StableHlo.nullary main_cst_12 (constant S_ .f32 0x00000000#32),
    StableHlo.unary main_cst_12 main_v50 (broadcastInDim S4096x4096 ![] bcast_S_S4096x4096 : (⟨S_, .f32⟩ : BufTy).Contents (Elt F) → (⟨S4096x4096, .f32⟩ : BufTy).Contents (Elt F)),
    StableHlo.TRef.ternary (.of main_v49 : StableHlo.TRef sig ⟨S4096x4096, .i1⟩) (.of main_v33 : StableHlo.TRef sig ⟨S4096x4096, .f32⟩) (.of main_v50 : StableHlo.TRef sig ⟨S4096x4096, .f32⟩) main_call6.v0 select,
    StableHlo.unary main_v51 main_v52 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg2 main_v52 main_v53 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    StableHlo.nullary main_cst_13 (constant S_ .f32 0x00000000#32),
    StableHlo.unary main_cst_13 main_v54 (broadcastInDim S4096x4096 ![] bcast_S_S4096x4096 : (⟨S_, .f32⟩ : BufTy).Contents (Elt F) → (⟨S4096x4096, .f32⟩ : BufTy).Contents (Elt F)),
    StableHlo.binary main_v33 main_v54 main_v55 (cmpf .olt : (⟨S4096x4096, .f32⟩ : BufTy).Contents (Elt F) → (⟨S4096x4096, .f32⟩ : BufTy).Contents (Elt F) → (⟨S4096x4096, .i1⟩ : BufTy).Contents (Elt F)),
    StableHlo.nullary main_cst_14 (constant S_ .f32 0x00000000#32),
    StableHlo.unary main_cst_14 main_v56 (broadcastInDim S4096x4096 ![] bcast_S_S4096x4096 : (⟨S_, .f32⟩ : BufTy).Contents (Elt F) → (⟨S4096x4096, .f32⟩ : BufTy).Contents (Elt F)),
    StableHlo.TRef.ternary (.of main_v55 : StableHlo.TRef sig ⟨S4096x4096, .i1⟩) (.of main_v33 : StableHlo.TRef sig ⟨S4096x4096, .f32⟩) (.of main_v56 : StableHlo.TRef sig ⟨S4096x4096, .f32⟩) main_call7.v0 select,
    StableHlo.unary main_v57 main_v58 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg1 main_v58 main_v59 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    StableHlo.binary main_v53 main_v59 main_v60 (addf : (⟨S1x4096, .f32⟩ : BufTy).Contents (Elt F) → (⟨S1x4096, .f32⟩ : BufTy).Contents (Elt F) → (⟨S1x4096, .f32⟩ : BufTy).Contents (Elt F)),
    StableHlo.binary main_v60 main_v27 main_v61 (addf : (⟨S1x4096, .f32⟩ : BufTy).Contents (Elt F) → (⟨S1x4096, .f32⟩ : BufTy).Contents (Elt F) → (⟨S1x4096, .f32⟩ : BufTy).Contents (Elt F)),
    StableHlo.unary main_arg0 main_v62 (Host.negf : (⟨S4096, .f32⟩ : BufTy).Contents (Elt F) → (⟨S4096, .f32⟩ : BufTy).Contents (Elt F)),
    StableHlo.unary main_v62 main_v63 (Host.exp : (⟨S4096, .f32⟩ : BufTy).Contents (Elt F) → (⟨S4096, .f32⟩ : BufTy).Contents (Elt F)),
    StableHlo.nullary main_cst_15 (constant S_ .f32 0x3F800000#32),
    StableHlo.unary main_cst_15 main_v64 (broadcastInDim S4096 ![] bcast_S_S4096 : (⟨S_, .f32⟩ : BufTy).Contents (Elt F) → (⟨S4096, .f32⟩ : BufTy).Contents (Elt F)),
    StableHlo.binary main_v64 main_v63 main_v65 (addf : (⟨S4096, .f32⟩ : BufTy).Contents (Elt F) → (⟨S4096, .f32⟩ : BufTy).Contents (Elt F) → (⟨S4096, .f32⟩ : BufTy).Contents (Elt F)),
    StableHlo.nullary main_cst_16 (constant S_ .f32 0x3F800000#32),
    StableHlo.unary main_cst_16 main_v66 (broadcastInDim S4096 ![] bcast_S_S4096 : (⟨S_, .f32⟩ : BufTy).Contents (Elt F) → (⟨S4096, .f32⟩ : BufTy).Contents (Elt F)),
    StableHlo.binary main_v66 main_v65 main_v67 (Host.divf : (⟨S4096, .f32⟩ : BufTy).Contents (Elt F) → (⟨S4096, .f32⟩ : BufTy).Contents (Elt F) → (⟨S4096, .f32⟩ : BufTy).Contents (Elt F)),
    StableHlo.reshape main_v47 main_v68 rfl shapeCasts_S1x4096_S4096,
    StableHlo.reshape main_v61 main_v69 rfl shapeCasts_S1x4096_S4096,
    StableHlo.binary main_v69 main_v68 main_v70 (subf : (⟨S4096, .f32⟩ : BufTy).Contents (Elt F) → (⟨S4096, .f32⟩ : BufTy).Contents (Elt F) → (⟨S4096, .f32⟩ : BufTy).Contents (Elt F)),
    StableHlo.nullary main_cst_17 (constant S_ .f32 0x00000000#32),
    StableHlo.unary main_cst_17 main_v71 (broadcastInDim S4096 ![] bcast_S_S4096 : (⟨S_, .f32⟩ : BufTy).Contents (Elt F) → (⟨S4096, .f32⟩ : BufTy).Contents (Elt F)),
    StableHlo.binary main_v70 main_v71 main_v72 (cmpf .oeq : (⟨S4096, .f32⟩ : BufTy).Contents (Elt F) → (⟨S4096, .f32⟩ : BufTy).Contents (Elt F) → (⟨S4096, .i1⟩ : BufTy).Contents (Elt F)),
    StableHlo.nullary main_cst_18 (constant S_ .f32 0x00000000#32),
    StableHlo.unary main_cst_18 main_v73 (broadcastInDim S4096 ![] bcast_S_S4096 : (⟨S_, .f32⟩ : BufTy).Contents (Elt F) → (⟨S4096, .f32⟩ : BufTy).Contents (Elt F)),
    StableHlo.binary main_v70 main_v73 main_v74 (cmpf .oeq : (⟨S4096, .f32⟩ : BufTy).Contents (Elt F) → (⟨S4096, .f32⟩ : BufTy).Contents (Elt F) → (⟨S4096, .i1⟩ : BufTy).Contents (Elt F)),
    StableHlo.nullary main_cst_19 (constant S_ .f32 0x3F800000#32),
    StableHlo.TRef.unary (.of main_cst_19 : StableHlo.TRef sig ⟨S_, .f32⟩) main_call8.v0 id,
    StableHlo.TRef.unary main_call8.v0 main_call8.v1 (broadcastInDim S4096 ![] bcast_S_S4096),
    StableHlo.TRef.ternary (.of main_v74 : StableHlo.TRef sig ⟨S4096, .i1⟩) main_call8.v1 (.of main_v70 : StableHlo.TRef sig ⟨S4096, .f32⟩) main_call8.v2 select,
    StableHlo.binary main_v69 main_v75 main_v76 (Host.divf : (⟨S4096, .f32⟩ : BufTy).Contents (Elt F) → (⟨S4096, .f32⟩ : BufTy).Contents (Elt F) → (⟨S4096, .f32⟩ : BufTy).Contents (Elt F)),
    StableHlo.nullary main_cst_20 (constant S_ .f32 0x00000000#32),
    StableHlo.TRef.unary (.of main_cst_20 : StableHlo.TRef sig ⟨S_, .f32⟩) main_call9.v0 id,
    StableHlo.TRef.unary main_call9.v0 main_call9.v1 (broadcastInDim S4096 ![] bcast_S_S4096),
    StableHlo.TRef.ternary (.of main_v72 : StableHlo.TRef sig ⟨S4096, .i1⟩) main_call9.v1 (.of main_v76 : StableHlo.TRef sig ⟨S4096, .f32⟩) main_call9.v2 select,
    StableHlo.nullary main_cst_21 (constant S_ .f32 0x3F800000#32),
    StableHlo.unary main_cst_21 main_v78 (broadcastInDim S4096 ![] bcast_S_S4096 : (⟨S_, .f32⟩ : BufTy).Contents (Elt F) → (⟨S4096, .f32⟩ : BufTy).Contents (Elt F)),
    StableHlo.binary main_v78 main_v77 main_v79 (subf : (⟨S4096, .f32⟩ : BufTy).Contents (Elt F) → (⟨S4096, .f32⟩ : BufTy).Contents (Elt F) → (⟨S4096, .f32⟩ : BufTy).Contents (Elt F)),
    StableHlo.unary main_v79 main_v80 (broadcastInDim S1x4096 ![1] bcast_S4096_S1x4096_1 : (⟨S4096, .f32⟩ : BufTy).Contents (Elt F) → (⟨S1x4096, .f32⟩ : BufTy).Contents (Elt F)),
    StableHlo.binary main_v80 main_v61 main_v81 (mulf : (⟨S1x4096, .f32⟩ : BufTy).Contents (Elt F) → (⟨S1x4096, .f32⟩ : BufTy).Contents (Elt F) → (⟨S1x4096, .f32⟩ : BufTy).Contents (Elt F)),
    StableHlo.nullary main_cst_22 (constant S_ .f32 0x00000000#32),
    StableHlo.unary main_cst_22 main_v82 (broadcastInDim S4096 ![] bcast_S_S4096 : (⟨S_, .f32⟩ : BufTy).Contents (Elt F) → (⟨S4096, .f32⟩ : BufTy).Contents (Elt F)),
    StableHlo.binary main_v69 main_v82 main_v83 (cmpf .ole : (⟨S4096, .f32⟩ : BufTy).Contents (Elt F) → (⟨S4096, .f32⟩ : BufTy).Contents (Elt F) → (⟨S4096, .i1⟩ : BufTy).Contents (Elt F)),
    StableHlo.nullary main_cst_23 (constant S_ .f32 0x00000000#32),
    StableHlo.unary main_cst_23 main_v84 (broadcastInDim S4096 ![] bcast_S_S4096 : (⟨S_, .f32⟩ : BufTy).Contents (Elt F) → (⟨S4096, .f32⟩ : BufTy).Contents (Elt F)),
    StableHlo.binary main_v68 main_v84 main_v85 (cmpf .oge : (⟨S4096, .f32⟩ : BufTy).Contents (Elt F) → (⟨S4096, .f32⟩ : BufTy).Contents (Elt F) → (⟨S4096, .i1⟩ : BufTy).Contents (Elt F)),
    StableHlo.binary main_v83 main_v85 main_v86 (ori : (⟨S4096, .i1⟩ : BufTy).Contents (Elt F) → (⟨S4096, .i1⟩ : BufTy).Contents (Elt F) → (⟨S4096, .i1⟩ : BufTy).Contents (Elt F)),
    StableHlo.unary main_v86 main_v87 (noti : (⟨S4096, .i1⟩ : BufTy).Contents (Elt F) → (⟨S4096, .i1⟩ : BufTy).Contents (Elt F)),
    StableHlo.nullary main_cst_24 (constant S_ .f32 0x3F800000#32),
    StableHlo.nullary main_cst_25 (constant S_ .f32 0x00000000#32),
    StableHlo.TRef.unary (.of main_cst_24 : StableHlo.TRef sig ⟨S_, .f32⟩) main_call10.v0 (broadcastInDim S4096 ![] bcast_S_S4096),
    StableHlo.TRef.unary (.of main_cst_25 : StableHlo.TRef sig ⟨S_, .f32⟩) main_call10.v1 (broadcastInDim S4096 ![] bcast_S_S4096),
    StableHlo.TRef.ternary (.of main_v85 : StableHlo.TRef sig ⟨S4096, .i1⟩) main_call10.v0 main_call10.v1 main_call10.v2 select,
    StableHlo.TRef.unary (.of main_v88 : StableHlo.TRef sig ⟨S4096, .f32⟩) main_call11.v0 id,
    StableHlo.TRef.ternary (.of main_v87 : StableHlo.TRef sig ⟨S4096, .i1⟩) (.of main_v77 : StableHlo.TRef sig ⟨S4096, .f32⟩) main_call11.v0 main_call11.v1 select,
    StableHlo.unary main_v87 main_v90 (broadcastInDim S1x4096 ![1] bcast_S4096_S1x4096_1 : (⟨S4096, .i1⟩ : BufTy).Contents (Elt F) → (⟨S1x4096, .i1⟩ : BufTy).Contents (Elt F)),
    StableHlo.nullary main_cst_26 (constant S_ .f32 0x00000000#32),
    StableHlo.unary main_cst_26 main_v91 (broadcastInDim S1x4096 ![] bcast_S_S1x4096 : (⟨S_, .f32⟩ : BufTy).Contents (Elt F) → (⟨S1x4096, .f32⟩ : BufTy).Contents (Elt F)),
    StableHlo.TRef.ternary (.of main_v90 : StableHlo.TRef sig ⟨S1x4096, .i1⟩) (.of main_v81 : StableHlo.TRef sig ⟨S1x4096, .f32⟩) (.of main_v91 : StableHlo.TRef sig ⟨S1x4096, .f32⟩) main_call12.v0 select,
    StableHlo.nullary main_cst_27 (constant S_ .f32 0x00000000#32),
    StableHlo.TRef.unary (.of main_cst_27 : StableHlo.TRef sig ⟨S_, .f32⟩) main_call13.v0 (broadcastInDim S4096 ![] bcast_S_S4096),
    StableHlo.TRef.ternary (.of main_v87 : StableHlo.TRef sig ⟨S4096, .i1⟩) main_call13.v0 (.of main_v88 : StableHlo.TRef sig ⟨S4096, .f32⟩) main_call13.v1 select,
    StableHlo.nullary main_cst_28 (constant S_ .f32 0x3F800000#32),
    StableHlo.TRef.unary (.of main_cst_28 : StableHlo.TRef sig ⟨S_, .f32⟩) main_call14.v0 (broadcastInDim S4096 ![] bcast_S_S4096),
    StableHlo.TRef.ternary (.of main_v87 : StableHlo.TRef sig ⟨S4096, .i1⟩) main_call14.v0 (.of main_v88 : StableHlo.TRef sig ⟨S4096, .f32⟩) main_call14.v1 select,
    StableHlo.unary main_v93 main_v95 (id : (⟨S4096, .f32⟩ : BufTy).Contents (Elt F) → (⟨S4096, .f32⟩ : BufTy).Contents (Elt F)),
    StableHlo.binary main_v67 main_v95 main_v96 (mulf : (⟨S4096, .f32⟩ : BufTy).Contents (Elt F) → (⟨S4096, .f32⟩ : BufTy).Contents (Elt F) → (⟨S4096, .f32⟩ : BufTy).Contents (Elt F)),
    StableHlo.nullary main_cst_29 (constant S_ .f32 0x3F800000#32),
    StableHlo.unary main_cst_29 main_v97 (broadcastInDim S4096 ![] bcast_S_S4096 : (⟨S_, .f32⟩ : BufTy).Contents (Elt F) → (⟨S4096, .f32⟩ : BufTy).Contents (Elt F)),
    StableHlo.binary main_v97 main_v67 main_v98 (subf : (⟨S4096, .f32⟩ : BufTy).Contents (Elt F) → (⟨S4096, .f32⟩ : BufTy).Contents (Elt F) → (⟨S4096, .f32⟩ : BufTy).Contents (Elt F)),
    StableHlo.unary main_v94 main_v99 (id : (⟨S4096, .f32⟩ : BufTy).Contents (Elt F) → (⟨S4096, .f32⟩ : BufTy).Contents (Elt F)),
    StableHlo.binary main_v98 main_v99 main_v100 (mulf : (⟨S4096, .f32⟩ : BufTy).Contents (Elt F) → (⟨S4096, .f32⟩ : BufTy).Contents (Elt F) → (⟨S4096, .f32⟩ : BufTy).Contents (Elt F)),
    StableHlo.binary main_v96 main_v100 main_v101 (addf : (⟨S4096, .f32⟩ : BufTy).Contents (Elt F) → (⟨S4096, .f32⟩ : BufTy).Contents (Elt F) → (⟨S4096, .f32⟩ : BufTy).Contents (Elt F)),
    StableHlo.nullary main_cst_30 (constant S_ .f32 0x00000000#32),
    StableHlo.unary main_cst_30 main_v102 (broadcastInDim S1x4096 ![] bcast_S_S1x4096 : (⟨S_, .f32⟩ : BufTy).Contents (Elt F) → (⟨S1x4096, .f32⟩ : BufTy).Contents (Elt F)),
    StableHlo.TRef.nullary main_call15.cst (constant S_ .f32 0x00000000#32),
    StableHlo.TRef.binary (.of main_v101 : StableHlo.TRef sig ⟨S4096, .f32⟩) main_call15.cst main_call15.v0 (fun x v => pad S4096 ![0] ![0] ![0] x v pads_S4096_S4096_000 h_S_),
    StableHlo.TRef.nullary main_call15.v1 (iotaInDim S4096x4096 32 0),
    StableHlo.TRef.nullary main_call15.v2 (iotaInDim S4096x4096 32 1),
    StableHlo.TRef.nullary main_call15.c (constantI S_ 32 0#32),
    StableHlo.TRef.unary main_call15.c main_call15.v3 (broadcastInDim S4096x4096 ![] bcast_S_S4096x4096),
    StableHlo.TRef.binary main_call15.v1 main_call15.v3 main_call15.v4 addi,
    StableHlo.TRef.binary main_call15.v4 main_call15.v2 main_call15.v5 (cmpi .eq),
    StableHlo.TRef.unary main_call15.v0 main_call15.v6 (broadcastInDim S4096x1 ![0] bcast_S4096_S4096x1_0),
    StableHlo.TRef.nullary main_call15.cst_0 (constant S_ .f32 0x00000000#32),
    StableHlo.TRef.unary main_call15.v6 main_call15.call0.v0 (broadcastInDim S4096x4096 ![0, 1] bcast_S4096x1_S4096x4096_0_1),
    StableHlo.TRef.unary main_call15.cst_0 main_call15.call0.v1 (broadcastInDim S4096x4096 ![] bcast_S_S4096x4096),
    StableHlo.TRef.ternary main_call15.v5 main_call15.call0.v0 main_call15.call0.v1 main_call15.call0.v2 select,
    StableHlo.TRef.nullary main_call16.cst (constant S_ .f32 0x00000000#32),
    StableHlo.TRef.binary (.of main_v89 : StableHlo.TRef sig ⟨S4096, .f32⟩) main_call16.cst main_call16.v0 (fun x v => pad S4096 ![0] ![0] ![0] x v pads_S4096_S4096_000 h_S_),
    StableHlo.TRef.nullary main_call16.v1 (iotaInDim S4096x4096 32 0),
    StableHlo.TRef.nullary main_call16.v2 (iotaInDim S4096x4096 32 1),
    StableHlo.TRef.nullary main_call16.c (constantI S_ 32 0#32),
    StableHlo.TRef.unary main_call16.c main_call16.v3 (broadcastInDim S4096x4096 ![] bcast_S_S4096x4096),
    StableHlo.TRef.binary main_call16.v1 main_call16.v3 main_call16.v4 addi,
    StableHlo.TRef.binary main_call16.v4 main_call16.v2 main_call16.v5 (cmpi .eq),
    StableHlo.TRef.unary main_call16.v0 main_call16.v6 (broadcastInDim S4096x1 ![0] bcast_S4096_S4096x1_0),
    StableHlo.TRef.nullary main_call16.cst_0 (constant S_ .f32 0x00000000#32),
    StableHlo.TRef.unary main_call16.v6 main_call16.call0.v0 (broadcastInDim S4096x4096 ![0, 1] bcast_S4096x1_S4096x4096_0_1),
    StableHlo.TRef.unary main_call16.cst_0 main_call16.call0.v1 (broadcastInDim S4096x4096 ![] bcast_S_S4096x4096),
    StableHlo.TRef.ternary main_call16.v5 main_call16.call0.v0 main_call16.call0.v1 main_call16.call0.v2 select ]

set_option maxRecDepth 65536 in
set_option maxHeartbeats 40000000 in
/-- @main is that straight line. -/
theorem main_eq (c : Dev nD) : main (F := F) c = StableHlo.seq ops := by
  chain_rfl

end Cert.ReferenceIdeal.Hand

end
-- ==== Proof.RefRun.lean ====
/-
  The run of the reference program.

  @main is the straight line `ops` (`main_eq`), its signature scopes no buffer and no semaphore, and every
  operation touches TensorCore references only and determines what it writes; so from any memory with zero
  counters every weakly fair execution terminates, nothing faulting, and each buffer of each device ends at the
  fold `StableHlo.after ops` of the operations' results over the device's launch contents (`run_all`). The seven
  arguments are written by no operation (`written` lists the 170 buffers that are), so they end as launched
  (`keep`); `run` states the four results at the fold and the arguments unchanged, `frame` the arguments alone.
-/
import proofs.«139422_j40183714021525_1_alg».proof.Proof.RefOps
import proofs.«139422_j40183714021525_1_alg».proof.Defs

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- No TensorCore buffer of the signature is scoped, -/
theorem scopedRefs_eq : (Finset.univ.filter fun b : Ref sig .tc => b.isScoped) = ∅ := by decide
/-- and there is no semaphore. -/
theorem scopedSems_eq : (Finset.univ.filter fun sm : SemLoc sig => sm.isScoped .tc) = ∅ := by decide

set_option maxRecDepth 65536 in
/-- Each operation touches TensorCore references only. -/
theorem ops_sub : (ops : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..,
    StableHlo.unary_bufs_sub .., StableHlo.ternary_bufs_sub .., StableHlo.nullary_bufs_sub .., StableHlo.unary_bufs_sub ..,
    StableHlo.binary_bufs_sub .., StableHlo.nullary_bufs_sub .., StableHlo.unary_bufs_sub .., StableHlo.ternary_bufs_sub ..,
    StableHlo.nullary_bufs_sub .., StableHlo.unary_bufs_sub .., StableHlo.binary_bufs_sub .., StableHlo.nullary_bufs_sub ..,
    StableHlo.unary_bufs_sub .., StableHlo.ternary_bufs_sub .., StableHlo.nullary_bufs_sub .., StableHlo.unary_bufs_sub ..,
    StableHlo.binary_bufs_sub .., StableHlo.nullary_bufs_sub .., StableHlo.unary_bufs_sub .., StableHlo.ternary_bufs_sub ..,
    StableHlo.unary_bufs_sub .., StableHlo.binary_bufs_sub .., StableHlo.unary_bufs_sub .., StableHlo.binary_bufs_sub ..,
    StableHlo.binary_bufs_sub .., StableHlo.binary_bufs_sub .., StableHlo.unary_bufs_sub .., StableHlo.binary_bufs_sub ..,
    StableHlo.unary_bufs_sub .., StableHlo.binary_bufs_sub .., StableHlo.binary_bufs_sub .., StableHlo.binary_bufs_sub ..,
    StableHlo.binary_bufs_sub .., StableHlo.binary_bufs_sub .., StableHlo.binary_bufs_sub .., StableHlo.binary_bufs_sub ..,
    StableHlo.binary_bufs_sub .., StableHlo.binary_bufs_sub .., StableHlo.nullary_bufs_sub .., StableHlo.unary_bufs_sub ..,
    StableHlo.binary_bufs_sub .., StableHlo.nullary_bufs_sub .., StableHlo.unary_bufs_sub .., StableHlo.ternary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.ternary_bufs_sub ..,
    StableHlo.unary_bufs_sub .., StableHlo.binary_bufs_sub .., StableHlo.binary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.ternary_bufs_sub .., StableHlo.unary_bufs_sub .., StableHlo.binary_bufs_sub ..,
    StableHlo.binary_bufs_sub .., StableHlo.binary_bufs_sub .., StableHlo.unary_bufs_sub .., StableHlo.unary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.reshape_bufs_sub .., StableHlo.reshape_bufs_sub ..,
    StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.unary_bufs_sub .., StableHlo.ternary_bufs_sub .., StableHlo.binary_bufs_sub ..,
    StableHlo.nullary_bufs_sub .., StableHlo.unary_bufs_sub .., StableHlo.unary_bufs_sub .., StableHlo.ternary_bufs_sub ..,
    StableHlo.nullary_bufs_sub .., StableHlo.unary_bufs_sub .., StableHlo.binary_bufs_sub .., StableHlo.unary_bufs_sub ..,
    StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.binary_bufs_sub ..,
    StableHlo.unary_bufs_sub .., StableHlo.nullary_bufs_sub .., StableHlo.nullary_bufs_sub .., StableHlo.unary_bufs_sub ..,
    StableHlo.unary_bufs_sub .., StableHlo.ternary_bufs_sub .., StableHlo.unary_bufs_sub .., StableHlo.ternary_bufs_sub ..,
    StableHlo.unary_bufs_sub .., StableHlo.nullary_bufs_sub .., StableHlo.unary_bufs_sub .., StableHlo.ternary_bufs_sub ..,
    StableHlo.nullary_bufs_sub .., StableHlo.unary_bufs_sub .., StableHlo.ternary_bufs_sub .., StableHlo.nullary_bufs_sub ..,
    StableHlo.unary_bufs_sub .., StableHlo.ternary_bufs_sub .., StableHlo.unary_bufs_sub .., StableHlo.binary_bufs_sub ..,
    StableHlo.nullary_bufs_sub .., StableHlo.unary_bufs_sub .., StableHlo.binary_bufs_sub .., StableHlo.unary_bufs_sub ..,
    StableHlo.binary_bufs_sub .., StableHlo.binary_bufs_sub .., StableHlo.nullary_bufs_sub .., StableHlo.unary_bufs_sub ..,
    StableHlo.nullary_bufs_sub .., StableHlo.binary_bufs_sub .., StableHlo.nullary_bufs_sub .., StableHlo.nullary_bufs_sub ..,
    StableHlo.nullary_bufs_sub .., StableHlo.unary_bufs_sub .., StableHlo.binary_bufs_sub .., StableHlo.binary_bufs_sub ..,
    StableHlo.unary_bufs_sub .., StableHlo.nullary_bufs_sub .., StableHlo.unary_bufs_sub .., StableHlo.unary_bufs_sub ..,
    StableHlo.ternary_bufs_sub .., StableHlo.nullary_bufs_sub .., StableHlo.binary_bufs_sub .., StableHlo.nullary_bufs_sub ..,
    StableHlo.nullary_bufs_sub .., StableHlo.nullary_bufs_sub .., StableHlo.unary_bufs_sub .., StableHlo.binary_bufs_sub ..,
    StableHlo.binary_bufs_sub .., StableHlo.unary_bufs_sub .., StableHlo.nullary_bufs_sub .., StableHlo.unary_bufs_sub ..,
    StableHlo.unary_bufs_sub .., StableHlo.ternary_bufs_sub ..⟩

set_option maxRecDepth 65536 in
/-- Each operation determines everything it writes. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

/-- At the compiled mesh, for any float values, from any memory with zero counters: every weakly fair execution of
    @main on the TensorCores terminates, and every final state has each TensorCore buffer at the operations' fold
    over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ
    (fun _ => List.forall_iff_forall_mem.mp ops_fresh)

/-- The 170 buffers the operations write, in order: every buffer of the signature but the seven arguments. -/
abbrev written : List (Ref sig .tc) :=
  [main_cst, main_v0, main_v1, main_cst_0, main_v2, main_call0.v0.ref, main_cst_1, main_v4, main_v5, main_cst_2, main_v6, main_call1.v0.ref,
   main_cst_3, main_v8, main_v9, main_cst_4, main_v10, main_call2.v0.ref, main_cst_5, main_v12, main_v13, main_cst_6, main_v14, main_call3.v0.ref,
   main_v16, main_v17, main_v18, main_v19, main_v20, main_v21, main_v22, main_v23, main_v24, main_v25, main_v26, main_v27, main_v28, main_v29,
   main_v30, main_v31, main_v32, main_v33, main_cst_7, main_v34, main_v35, main_cst_8, main_v36, main_call4.v0.ref, main_v38, main_v39, main_cst_9,
   main_v40, main_v41, main_cst_10, main_v42, main_call5.v0.ref, main_v44, main_v45, main_v46, main_v47, main_cst_11, main_v48, main_v49,
   main_cst_12, main_v50, main_call6.v0.ref, main_v52, main_v53, main_cst_13, main_v54, main_v55, main_cst_14, main_v56, main_call7.v0.ref, main_v58,
   main_v59, main_v60, main_v61, main_v62, main_v63, main_cst_15, main_v64, main_v65, main_cst_16, main_v66, main_v67, main_v68, main_v69, main_v70,
   main_cst_17, main_v71, main_v72, main_cst_18, main_v73, main_v74, main_cst_19, main_call8.v0.ref, main_call8.v1.ref, main_call8.v2.ref, main_v76,
   main_cst_20, main_call9.v0.ref, main_call9.v1.ref, main_call9.v2.ref, main_cst_21, main_v78, main_v79, main_v80, main_v81, main_cst_22, main_v82,
   main_v83, main_cst_23, main_v84, main_v85, main_v86, main_v87, main_cst_24, main_cst_25, main_call10.v0.ref, main_call10.v1.ref,
   main_call10.v2.ref, main_call11.v0.ref, main_call11.v1.ref, main_v90, main_cst_26, main_v91, main_call12.v0.ref, main_cst_27, main_call13.v0.ref,
   main_call13.v1.ref, main_cst_28, main_call14.v0.ref, main_call14.v1.ref, main_v95, main_v96, main_cst_29, main_v97, main_v98, main_v99, main_v100,
   main_v101, main_cst_30, main_v102, main_call15.cst.ref, main_call15.v0.ref, main_call15.v1.ref, main_call15.v2.ref, main_call15.c.ref,
   main_call15.v3.ref, main_call15.v4.ref, main_call15.v5.ref, main_call15.v6.ref, main_call15.cst_0.ref, main_call15.call0.v0.ref,
   main_call15.call0.v1.ref, main_call15.call0.v2.ref, main_call16.cst.ref, main_call16.v0.ref, main_call16.v1.ref, main_call16.v2.ref,
   main_call16.c.ref, main_call16.v3.ref, main_call16.v4.ref, main_call16.v5.ref, main_call16.v6.ref, main_call16.cst_0.ref,
   main_call16.call0.v0.ref, main_call16.call0.v1.ref, main_call16.call0.v2.ref]

/-- A singleton of a listed reference lies in the list's references. -/
theorem singleton_sub_written {y : Ref sig .tc} (h : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem h))

set_option maxRecDepth 65536 in
set_option maxHeartbeats 4000000 in
/-- Each operation writes a buffer of `written`. -/
theorem ops_writes : (ops : List (HloOp τ sig (Elt F))).Forall fun op =>
    op.writes ⊆ (written.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer that is not written keeps its contents through the line. -/
theorem keep (V : Valuation τ sig (Elt F)) {r : Ref sig .tc} (h : r ∉ written) :
    StableHlo.after ops V (Proc.devRef .tc r) = V (Proc.devRef .tc r) :=
  StableHlo.after_of_writes_sub ops V ops_writes h

/-- On every device, for any float values, from any memory with zero counters: every weakly fair execution of
    @main terminates with each of the four results at the operations' fold over the launch contents, and the
    seven arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v103) = StableHlo.after ops (StableHlo.launchContents m c) (Proc.devRef .tc main_v103)
      ∧ r.2.mem ((c.tc : Thread nD τ).loc main_v102) = StableHlo.after ops (StableHlo.launchContents m c) (Proc.devRef .tc main_v102)
      ∧ r.2.mem ((c.tc : Thread nD τ).loc main_v104) = StableHlo.after ops (StableHlo.launchContents m c) (Proc.devRef .tc main_v104)
      ∧ r.2.mem ((c.tc : Thread nD τ).loc main_v92) = StableHlo.after ops (StableHlo.launchContents m c) (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h c main_v103, h c main_v102, h c main_v104, h c main_v92,
      (h c main_arg0).trans (keep _ (by decide)),
      (h c main_arg1).trans (keep _ (by decide)),
      (h c main_arg2).trans (keep _ (by decide)),
      (h c main_arg3).trans (keep _ (by decide)),
      (h c main_arg4).trans (keep _ (by decide)),
      (h c main_arg5).trans (keep _ (by decide)),
      (h c main_arg6).trans (keep _ (by decide))⟩)
    (run_all m ρ)

/-- The reference program runs (terminates, no fault) and its argument arrays end unchanged. -/
theorem frame [hReferenceIdeal : Cert.ReferenceIdeal.Facts] [hPre_finite_inputs : Cert.Pre_finite_inputs.Facts] :
    Cert.frame_ReferenceIdeal :=
  fun m g _ => (θ_run _ _ _).mono (fun _ h c => (h c).2.2.2.2) (run (F := Ideal) m g)

end Cert.ReferenceIdeal.Hand

end
-- ==== Proof.Spec.lean ====
/-
  The two programs' result values as pure terms.

  Every array is a function on the indices of its shape with values in the float family \`F\`;
  each definition below applies the operations of the printed program text in the printed order
  and nesting, over explicit shape evidence (\`Ev\`) and explicit contraction records (\`d1\` for a
  row [1,4096] against a matrix [4096,4096], \`dM\` for two matrices [4096,4096]).

  Notation of the comments: Z is the zero array (a broadcast zero constant), pos X = select (X > Z) X Z,
  neg X = select (X < Z) X Z, Xᵀ the transpose, a · M the contraction of a's axis 1 with M's axis 0.
-/
import Idealize.ShloMosaic.PureOps

noncomputable section

namespace Cert.Spec

open Idealize.ShloMosaic

/-! ## Shapes -/

abbrev T4096 : Shape := ⟨1, ![4096]⟩
abbrev T1x4096 : Shape := ⟨2, ![1, 4096]⟩
abbrev T4096x4096 : Shape := ⟨2, ![4096, 4096]⟩
abbrev T_ : Shape := ⟨0, ![]⟩
abbrev T4096x1 : Shape := ⟨2, ![4096, 1]⟩

/-- The shape relations the operations cite. -/
structure Ev : Prop where
  transposes : T4096x4096.Transposes [1, 0] T4096x4096
  bcast_S_M : T_.BroadcastsInDim T4096x4096 (![] : Fin 0 → Fin T4096x4096.rank)
  bcast_S_V : T_.BroadcastsInDim T4096 (![] : Fin 0 → Fin T4096.rank)
  shapeCasts_R_V : T1x4096.ShapeCasts T4096
  bcast_V_R : T4096.BroadcastsInDim T1x4096 (![1] : Fin 1 → Fin T1x4096.rank)
  bcast_S_R : T_.BroadcastsInDim T1x4096 (![] : Fin 0 → Fin T1x4096.rank)
  pads_V : T4096.Pads (![0] : Fin 1 → Nat) ![0] ![0] T4096
  h_S : 0 < T_.numel
  bcast_V_C : T4096.BroadcastsInDim T4096x1 (![0] : Fin 1 → Fin T4096x1.rank)
  bcast_C_M : T4096x1.BroadcastsInDim T4096x4096 (![0, 1] : Fin 2 → Fin T4096x4096.rank)

variable {F : FTy → Type} [FloatOps F]

/-! ## The shared pieces: zero arrays, positive and negative parts -/

/-- The zero matrix: a zero constant broadcast to [4096,4096]. -/
def zeroM (ev : Ev) : FVec F T4096x4096 .f32 :=
  broadcastInDim T4096x4096 ![] ev.bcast_S_M (constant T_ .f32 0x00000000#32)

/-- pos X: X where X > 0, else 0. -/
def pos (ev : Ev) (X : FVec F T4096x4096 .f32) : FVec F T4096x4096 .f32 :=
  select (cmpf .ogt X (zeroM ev)) X (zeroM ev)

/-- neg X: X where X < 0, else 0. -/
def neg (ev : Ev) (X : FVec F T4096x4096 .f32) : FVec F T4096x4096 .f32 :=
  select (cmpf .olt X (zeroM ev)) X (zeroM ev)

/-- Xᵀ. -/
def tr (ev : Ev) (X : FVec F T4096x4096 .f32) : FVec F T4096x4096 .f32 :=
  transpose T4096x4096 [1, 0] X ev.transposes

/-! ## The first program's bounds: from the product matrix S -/

/-- (b1 · W2ᵀ) + b2. -/
def kC (ev : Ev) (d1 : DotDims T1x4096 T4096x4096 T1x4096) (W2 : FVec F T4096x4096 .f32) (b1 b2 : FVec F T1x4096 .f32) :
    FVec F T1x4096 .f32 :=
  addf (Host.dotGeneral d1 (some .fp32) b1 (tr ev W2)) b2

/-- ((lb0 · (pos S)ᵀ) + (ub0 · (neg S)ᵀ)) + ((b1 · W2ᵀ) + b2). -/
def kLb (ev : Ev) (d1 : DotDims T1x4096 T4096x4096 T1x4096) (S W2 : FVec F T4096x4096 .f32)
    (b1 b2 lb0 ub0 : FVec F T1x4096 .f32) : FVec F T1x4096 .f32 :=
  addf (addf (Host.dotGeneral d1 (some .fp32) lb0 (tr ev (pos ev S))) (Host.dotGeneral d1 (some .fp32) ub0 (tr ev (neg ev S))))
    (kC ev d1 W2 b1 b2)

/-- ((ub0 · (pos S)ᵀ) + (lb0 · (neg S)ᵀ)) + ((b1 · W2ᵀ) + b2). -/
def kUb (ev : Ev) (d1 : DotDims T1x4096 T4096x4096 T1x4096) (S W2 : FVec F T4096x4096 .f32)
    (b1 b2 lb0 ub0 : FVec F T1x4096 .f32) : FVec F T1x4096 .f32 :=
  addf (addf (Host.dotGeneral d1 (some .fp32) ub0 (tr ev (pos ev S))) (Host.dotGeneral d1 (some .fp32) lb0 (tr ev (neg ev S))))
    (kC ev d1 W2 b1 b2)

/-! ## The second program's bounds: from W1 and the two parts of W2 -/

/-- ((b1 · (pos W2)ᵀ) + (b1 · (neg W2)ᵀ)) + b2. -/
def rC (ev : Ev) (d1 : DotDims T1x4096 T4096x4096 T1x4096) (W2 : FVec F T4096x4096 .f32) (b1 b2 : FVec F T1x4096 .f32) :
    FVec F T1x4096 .f32 :=
  addf (addf (Host.dotGeneral d1 none b1 (tr ev (pos ev W2))) (Host.dotGeneral d1 none b1 (tr ev (neg ev W2)))) b2

/-- (pos W2 · W1) + (neg W2 · W1). -/
def rS (ev : Ev) (dM : DotDims T4096x4096 T4096x4096 T4096x4096) (W1 W2 : FVec F T4096x4096 .f32) :
    FVec F T4096x4096 .f32 :=
  addf (Host.dotGeneral dM none (pos ev W2) W1) (Host.dotGeneral dM none (neg ev W2) W1)

/-- ((lb0 · (pos SL)ᵀ) + (ub0 · (neg SL)ᵀ)) + cL, with SL = (pos W2 · W1) + (neg W2 · W1). -/
def rLb (ev : Ev) (d1 : DotDims T1x4096 T4096x4096 T1x4096) (dM : DotDims T4096x4096 T4096x4096 T4096x4096)
    (W1 W2 : FVec F T4096x4096 .f32) (b1 b2 lb0 ub0 : FVec F T1x4096 .f32) : FVec F T1x4096 .f32 :=
  addf (addf (Host.dotGeneral d1 none lb0 (tr ev (pos ev (rS ev dM W1 W2))))
      (Host.dotGeneral d1 none ub0 (tr ev (neg ev (rS ev dM W1 W2)))))
    (rC ev d1 W2 b1 b2)

/-- ((ub0 · (pos SU)ᵀ) + (lb0 · (neg SU)ᵀ)) + cU, with SU and cU the same terms again. -/
def rUb (ev : Ev) (d1 : DotDims T1x4096 T4096x4096 T1x4096) (dM : DotDims T4096x4096 T4096x4096 T4096x4096)
    (W1 W2 : FVec F T4096x4096 .f32) (b1 b2 lb0 ub0 : FVec F T1x4096 .f32) : FVec F T1x4096 .f32 :=
  addf (addf (Host.dotGeneral d1 none ub0 (tr ev (pos ev (rS ev dM W1 W2))))
      (Host.dotGeneral d1 none lb0 (tr ev (neg ev (rS ev dM W1 W2)))))
    (rC ev d1 W2 b1 b2)

/-! ## The shared tail: from (raw_alpha, lbounds, ubounds) to the four results -/

/-- A scalar constant broadcast to a vector [4096]. -/
def splatV (ev : Ev) (b : BitVec 32) : FVec F T4096 .f32 :=
  broadcastInDim T4096 ![] ev.bcast_S_V (constant T_ .f32 b)

/-- A scalar constant broadcast to a row [1,4096]. -/
def splatR (ev : Ev) (b : BitVec 32) : FVec F T1x4096 .f32 :=
  broadcastInDim T1x4096 ![] ev.bcast_S_R (constant T_ .f32 b)

/-- alpha = 1 / (1 + exp (−raw_alpha)). -/
def alpha (ev : Ev) (ra : FVec F T4096 .f32) : FVec F T4096 .f32 :=
  Host.divf (splatV ev 0x3F800000#32) (addf (splatV ev 0x3F800000#32) (Host.exp (Host.negf ra)))

/-- l: the lower bounds as a vector. -/
def lv (ev : Ev) (lb : FVec F T1x4096 .f32) : FVec F T4096 .f32 := shapeCast T4096 lb ev.shapeCasts_R_V

/-- u: the upper bounds as a vector. -/
def uv (ev : Ev) (ub : FVec F T1x4096 .f32) : FVec F T4096 .f32 := shapeCast T4096 ub ev.shapeCasts_R_V

/-- u − l. -/
def gap (ev : Ev) (lb ub : FVec F T1x4096 .f32) : FVec F T4096 .f32 := subf (uv ev ub) (lv ev lb)

/-- The crossing slope: 0 where u − l = 0, else u / (u − l, or 1 where that is 0). -/
def slope (ev : Ev) (lb ub : FVec F T1x4096 .f32) : FVec F T4096 .f32 :=
  select (cmpf .oeq (gap ev lb ub) (splatV ev 0x00000000#32))
    (broadcastInDim T4096 ![] ev.bcast_S_V (id (constant T_ .f32 0x00000000#32)))
    (Host.divf (uv ev ub)
      (select (cmpf .oeq (gap ev lb ub) (splatV ev 0x00000000#32))
        (broadcastInDim T4096 ![] ev.bcast_S_V (id (constant T_ .f32 0x3F800000#32)))
        (gap ev lb ub)))

/-- l ≥ 0. -/
def lNonneg (ev : Ev) (lb : FVec F T1x4096 .f32) : IVec T4096 1 := cmpf .oge (lv ev lb) (splatV ev 0x00000000#32)

/-- The crossing mask: not (u ≤ 0 or l ≥ 0). -/
def crossing (ev : Ev) (lb ub : FVec F T1x4096 .f32) : IVec T4096 1 :=
  noti (ori (cmpf .ole (uv ev ub) (splatV (F := F) ev 0x00000000#32)) (lNonneg ev lb))

/-- 1 where l ≥ 0, else 0. -/
def stable (ev : Ev) (lb : FVec F T1x4096 .f32) : FVec F T4096 .f32 :=
  select (lNonneg ev lb) (splatV ev 0x3F800000#32) (splatV ev 0x00000000#32)

/-- The fourth result, [1,4096]: ((1 − slope) as a row) · ubounds where crossing, else 0. -/
def tail56 (ev : Ev) (lb ub : FVec F T1x4096 .f32) : FVec F T1x4096 .f32 :=
  select (broadcastInDim T1x4096 ![1] ev.bcast_V_R (crossing ev lb ub))
    (mulf (broadcastInDim T1x4096 ![1] ev.bcast_V_R (subf (splatV ev 0x3F800000#32) (slope ev lb ub))) ub)
    (splatR ev 0x00000000#32)

/-- The upper slope, [4096]: the crossing slope where crossing, else 1 where l ≥ 0, else 0. -/
def uslope (ev : Ev) (lb ub : FVec F T1x4096 .f32) : FVec F T4096 .f32 :=
  select (crossing ev lb ub) (slope ev lb ub) (id (stable ev lb))

/-- The lower slope, [4096]: alpha · (0 where crossing, else stable) + (1 − alpha) · (1 where crossing, else stable). -/
def lslope (ev : Ev) (ra : FVec F T4096 .f32) (lb ub : FVec F T1x4096 .f32) : FVec F T4096 .f32 :=
  addf
    (mulf (alpha ev ra) (id (select (crossing ev lb ub) (splatV ev 0x00000000#32) (stable ev lb))))
    (mulf (subf (splatV ev 0x3F800000#32) (alpha ev ra))
      (id (select (crossing ev lb ub) (splatV ev 0x3F800000#32) (stable ev lb))))

/-- The diagonal matrix of a vector: the vector (padded by nothing) down the rows where row = column, else 0. -/
def diag (ev : Ev) (x : FVec F T4096 .f32) : FVec F T4096x4096 .f32 :=
  select
    (cmpi .eq (addi (iotaInDim T4096x4096 32 0) (broadcastInDim T4096x4096 ![] ev.bcast_S_M (constantI T_ 32 0#32)))
      (iotaInDim T4096x4096 32 1))
    (broadcastInDim T4096x4096 ![0, 1] ev.bcast_C_M
      (broadcastInDim T4096x1 ![0] ev.bcast_V_C
        (pad T4096 ![0] ![0] ![0] x (constant (F := F) T_ .f32 0x00000000#32) ev.pads_V ev.h_S)))
    (broadcastInDim T4096x4096 ![] ev.bcast_S_M (constant T_ .f32 0x00000000#32))

/-- The first result, [4096,4096]: diag (lower slope). -/
def tail67 (ev : Ev) (ra : FVec F T4096 .f32) (lb ub : FVec F T1x4096 .f32) : FVec F T4096x4096 .f32 :=
  diag ev (lslope ev ra lb ub)

/-- The second result, [1,4096]: zeros. -/
def tail66 (ev : Ev) : FVec F T1x4096 .f32 := splatR ev 0x00000000#32

/-- The third result, [4096,4096]: diag (upper slope). -/
def tail68 (ev : Ev) (lb ub : FVec F T1x4096 .f32) : FVec F T4096x4096 .f32 :=
  diag ev (uslope ev lb ub)

end Cert.Spec

end
-- ==== Proof.KiTail.lean ====
/-
  What the program's host operations after its one call compute, as pure terms.

  After the call the program runs 119 host operations (twenty stretches, the module-local calls inlined). Started from
  ANY buffer contents `W` (what the device holds just after the call), each of its four results is a fixed composition
  of the arrays `W` holds at the call's result (the product matrix S) and at the seven arguments:

    lbK = ((lb0 · (pos S)ᵀ) + (ub0 · (neg S)ᵀ)) + ((b1 · W2ᵀ) + b2)      (the program's value 19)
    ubK = ((ub0 · (pos S)ᵀ) + (lb0 · (neg S)ᵀ)) + ((b1 · W2ᵀ) + b2)      (the program's value 25)

  and the four results are the shared tail of the two programs at (raw_alpha, lbK, ubK): the diagonal matrix of the
  lower slope, a zero row, the diagonal matrix of the upper slope, and the crossing intercept row. None of the 119
  operations writes an argument, so the seven arguments are found as they were.

  Each statement is read off the list of operations: an operation's result at its own buffer is its function applied to
  the contents of its operand buffers, and any other buffer is left as it was; composing these 119 times from the result
  buffer backwards gives the printed term, which is the corresponding definition of the specification unfolded.
-/
import proofs.«139422_j40183714021525_1_alg».proof.Proof.KiKit
import proofs.«139422_j40183714021525_1_alg».proof.Proof.Spec
import Idealize.ShloMosaic.Lib.StableHlo.Run

set_option maxRecDepth 16384

noncomputable section

namespace Cert.KernelIdeal.TailVal

open Cert.KernelIdeal Cert.KernelIdeal.Gen Cert.KernelIdeal.Frm
open Idealize.ShloMosaic Idealize.ShloMosaic.TcCoe Idealize.ShloMosaic.StableHlo
open Idealize.SL.Sem

variable {F : FTy → Type} [FloatOps F]

/-- The shape relations the two programs' operations cite, as this program proves them. -/
theorem ev : Cert.Spec.Ev :=
  ⟨transposes_S4096x4096_S4096x4096_1_0, bcast_S_S4096x4096, bcast_S_S4096, shapeCasts_S1x4096_S4096, bcast_S4096_S1x4096_1,
   bcast_S_S1x4096, pads_S4096_S4096_000, h_S_, bcast_S4096_S4096x1_0, bcast_S4096x1_S4096x4096_0_1⟩

/-- The contraction record of a row [1,4096] against a matrix [4096,4096]. -/
abbrev d1 : DotDims Cert.Spec.T1x4096 Cert.Spec.T4096x4096 Cert.Spec.T1x4096 := dot_S1x4096_S4096x4096_S1x4096_1_0_0_1_n_n

variable (W : Valuation τ sig (Elt F))

/-- The lower bounds the program computes from the product matrix it finds in the call's result. -/
abbrev lbK : FVec F Cert.Spec.T1x4096 .f32 :=
  Cert.Spec.kLb ev d1 (W (Proc.devRef .tc main_v2)) (W (Proc.devRef .tc main_arg5)) (W (Proc.devRef .tc main_arg4))
    (W (Proc.devRef .tc main_arg6)) (W (Proc.devRef .tc main_arg1)) (W (Proc.devRef .tc main_arg2))
/-- The upper bounds, likewise. -/
abbrev ubK : FVec F Cert.Spec.T1x4096 .f32 :=
  Cert.Spec.kUb ev d1 (W (Proc.devRef .tc main_v2)) (W (Proc.devRef .tc main_arg5)) (W (Proc.devRef .tc main_arg4))
    (W (Proc.devRef .tc main_arg6)) (W (Proc.devRef .tc main_arg1)) (W (Proc.devRef .tc main_arg2))

/-- The fourth result: the crossing intercept row. -/
theorem tail_v56 : StableHlo.after (tailOps (F := F)).flatten W (Proc.devRef .tc main_v56) = Cert.Spec.tail56 ev (lbK W) (ubK W) := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp
  rfl

/-- The second result: the zero row. -/
theorem tail_v66 : StableHlo.after (tailOps (F := F)).flatten W (Proc.devRef .tc main_v66) = Cert.Spec.tail66 ev := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp
  rfl

/-- The first result: the diagonal matrix of the lower slope. -/
theorem tail_v67 : StableHlo.after (tailOps (F := F)).flatten W (Proc.devRef .tc main_v67)
    = Cert.Spec.tail67 ev (W (Proc.devRef .tc main_arg0)) (lbK W) (ubK W) := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp
  rfl

/-- The third result: the diagonal matrix of the upper slope. -/
theorem tail_v68 : StableHlo.after (tailOps (F := F)).flatten W (Proc.devRef .tc main_v68) = Cert.Spec.tail68 ev (lbK W) (ubK W) := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp
  rfl

/-! ## The arguments are left as they were -/

theorem tail_arg0 : StableHlo.after (tailOps (F := F)).flatten W (Proc.devRef .tc main_arg0) = W (Proc.devRef .tc main_arg0) := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp

theorem tail_arg1 : StableHlo.after (tailOps (F := F)).flatten W (Proc.devRef .tc main_arg1) = W (Proc.devRef .tc main_arg1) := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp

theorem tail_arg2 : StableHlo.after (tailOps (F := F)).flatten W (Proc.devRef .tc main_arg2) = W (Proc.devRef .tc main_arg2) := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp

theorem tail_arg3 : StableHlo.after (tailOps (F := F)).flatten W (Proc.devRef .tc main_arg3) = W (Proc.devRef .tc main_arg3) := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp

theorem tail_arg4 : StableHlo.after (tailOps (F := F)).flatten W (Proc.devRef .tc main_arg4) = W (Proc.devRef .tc main_arg4) := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp

theorem tail_arg5 : StableHlo.after (tailOps (F := F)).flatten W (Proc.devRef .tc main_arg5) = W (Proc.devRef .tc main_arg5) := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp

theorem tail_arg6 : StableHlo.after (tailOps (F := F)).flatten W (Proc.devRef .tc main_arg6) = W (Proc.devRef .tc main_arg6) := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    List.flatten_cons, List.flatten_nil, List.append_nil, List.cons_append, List.nil_append]
  after_results_simp

end Cert.KernelIdeal.TailVal

end
-- ==== Proof.KiResults.lean ====
/-
  What the kernel program's four results hold after the run, at any float instance. The run leaves each result's buffer
  at what the operations after the call make of the call's exit contents: the product array at what the proof data
  compute, every other buffer as the call found it. The operations after the call were read as pure terms of those
  contents (the two bound vectors, then the shared tail); here the exit contents are named and the arguments in them are
  replaced by the arguments at the start.
-/
import proofs.«139422_j40183714021525_1_alg».proof.Proof.KiClaims
import proofs.«139422_j40183714021525_1_alg».proof.Proof.KiTail

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.TailVal

variable (m : (ℓ : Loc nD τ sig) → Buf (Elt F) ℓ) (ρ : Dev nD → PrngReg)

/-- The core's buffer contents when the call is left: the call's three arrays at what the proof data compute, every other
    buffer as at the entry. -/
abbrev Wx (c : Dev nD) : Valuation τ sig (Elt F) :=
  Pipeline.withArrays (cfgs 0).spec c (V0 m c) fun w => (dats m 0 c).arrAt w (cfgs 0).N

/-- The product array in them. -/
theorem Wx_S (c : Dev nD) : Wx m c (Proc.devRef .tc main_v2) = (dats m 0 c).arrAt 2 cfg0.N :=
  Pipeline.withArrays_arr (cfgs 0).spec launch0.win.arr_inj c _ _ 2

/-- An argument in them is the argument at the start. -/
theorem Wx_arg (c : Dev nD) (k : Fin 7) : Wx m c (Proc.devRef .tc (argRef k)) = m ((c.tc : Thread nD τ).loc (argRef k)) :=
  (Pipeline.withArrays_of_ne (cfgs 0).spec c (V0 m c) _ (argRef k) (fun w => arg_not_arr k w)).trans (V0_arg m c k)

theorem rest_v67 : main_v67 ∈ Pipeline.restRefs sig spec0 := Pipeline.mem_restRefs_of main_v67 rfl (fun w => by fin_cases w <;> decide)
theorem rest_v66 : main_v66 ∈ Pipeline.restRefs sig spec0 := Pipeline.mem_restRefs_of main_v66 rfl (fun w => by fin_cases w <;> decide)
theorem rest_v68 : main_v68 ∈ Pipeline.restRefs sig spec0 := Pipeline.mem_restRefs_of main_v68 rfl (fun w => by fin_cases w <;> decide)
theorem rest_v56 : main_v56 ∈ Pipeline.restRefs sig spec0 := Pipeline.mem_restRefs_of main_v56 rfl (fun w => by fin_cases w <;> decide)

variable (r : PUnit × MemSt nD τ sig (Elt F))
  (h : Pipeline.FramePost cfgs (dats m) 0 (Pipeline.afterTail₀ cfgs (dats m) 0 (V0 m) tailOps) r) (c : Dev nD)

include h in
/-- The first result: the diagonal matrix of the lower slopes, a term of the first argument and the two bound vectors. -/
theorem res_v67 : r.2.mem ((c.tc : Thread nD τ).loc main_v67)
    = Cert.Spec.tail67 ev (m ((c.tc : Thread nD τ).loc main_arg0)) (lbK (Wx m c)) (ubK (Wx m c)) :=
  ((h c).2 main_v67 rest_v67).trans ((tail_v67 (Wx m c)).trans
    (congrArg (fun a => Cert.Spec.tail67 ev a (lbK (Wx m c)) (ubK (Wx m c))) (Wx_arg m c 0)))

include h in
theorem res_v66 : r.2.mem ((c.tc : Thread nD τ).loc main_v66) = Cert.Spec.tail66 (F := F) ev :=
  ((h c).2 main_v66 rest_v66).trans (tail_v66 (Wx m c))

include h in
theorem res_v68 : r.2.mem ((c.tc : Thread nD τ).loc main_v68) = Cert.Spec.tail68 ev (lbK (Wx m c)) (ubK (Wx m c)) :=
  ((h c).2 main_v68 rest_v68).trans (tail_v68 (Wx m c))

include h in
theorem res_v56 : r.2.mem ((c.tc : Thread nD τ).loc main_v56) = Cert.Spec.tail56 ev (lbK (Wx m c)) (ubK (Wx m c)) :=
  ((h c).2 main_v56 rest_v56).trans (tail_v56 (Wx m c))

end Cert.KernelIdeal.Frm

end
-- ==== Proof.RefValue.lean ====
/-
  What the second program computes, as pure terms of its arguments.

  The program is a straight line of 170 array operations. Its first 78 operations compute, from the
  six bound arguments (W1, W2, b1, b2, lb0, ub0), the two rows of bounds

      lbounds = ((lb0 · (pos S)ᵀ) + (ub0 · (neg S)ᵀ)) + c,   ubounds = ((ub0 · (pos S)ᵀ) + (lb0 · (neg S)ᵀ)) + c,

  with S = (pos W2 · W1) + (neg W2 · W1) and c = ((b1 · (pos W2)ᵀ) + (b1 · (neg W2)ᵀ)) + b2; the remaining 92
  operations read only raw_alpha and those two rows, and compute the four results from them: the two
  diagonal slope matrices, the zero row, and the crossing intercept row.

  So the run is cut at operation 78: the first stretch is read at the two rows (and leaves raw_alpha as it
  was), the second stretch is read at the four results from ANY contents, and the two compose because
  running a concatenation is running the second line from where the first ends.
-/
import proofs.«139422_j40183714021525_1_alg».proof.Proof.RefOps
import proofs.«139422_j40183714021525_1_alg».proof.Proof.Spec
import Idealize.ShloMosaic.Lib.StableHlo.Run

noncomputable section

namespace Cert.ReferenceIdeal.TailVal

open Cert.ReferenceIdeal Cert.ReferenceIdeal.Gen Cert.ReferenceIdeal.Hand Idealize.ShloMosaic Idealize.ShloMosaic.TcCoe
  Idealize.SL.Sem Idealize.ShloMosaic.StableHlo

variable {F : FTy → Type} [FloatOps F]

/-- The shape relations the specification cites, from the reference's own facts. -/
theorem ev : Cert.Spec.Ev :=
  ⟨transposes_S4096x4096_S4096x4096_1_0, bcast_S_S4096x4096, bcast_S_S4096, shapeCasts_S1x4096_S4096,
    bcast_S4096_S1x4096_1, bcast_S_S1x4096, pads_S4096_S4096_000, h_S_, bcast_S4096_S4096x1_0,
    bcast_S4096x1_S4096x4096_0_1⟩

/-- The row-against-matrix contraction record of the reference. -/
abbrev d1 : DotDims Cert.Spec.T1x4096 Cert.Spec.T4096x4096 Cert.Spec.T1x4096 := dot_S1x4096_S4096x4096_S1x4096_1_0_0_1_n_n

/-- The matrix-against-matrix contraction record of the reference. -/
abbrev dM : DotDims Cert.Spec.T4096x4096 Cert.Spec.T4096x4096 Cert.Spec.T4096x4096 :=
  dot_S4096x4096_S4096x4096_S4096x4096_1_0_0_1_n_n

/-- The lower bounds, as a term of the initial contents of the six bound arguments. -/
abbrev lbR (W : Valuation τ sig (Elt F)) : FVec F Cert.Spec.T1x4096 .f32 :=
  Cert.Spec.rLb ev d1 dM (W (Proc.devRef .tc main_arg3)) (W (Proc.devRef .tc main_arg5)) (W (Proc.devRef .tc main_arg4))
    (W (Proc.devRef .tc main_arg6)) (W (Proc.devRef .tc main_arg1)) (W (Proc.devRef .tc main_arg2))

/-- The upper bounds, likewise. -/
abbrev ubR (W : Valuation τ sig (Elt F)) : FVec F Cert.Spec.T1x4096 .f32 :=
  Cert.Spec.rUb ev d1 dM (W (Proc.devRef .tc main_arg3)) (W (Proc.devRef .tc main_arg5)) (W (Proc.devRef .tc main_arg4))
    (W (Proc.devRef .tc main_arg6)) (W (Proc.devRef .tc main_arg1)) (W (Proc.devRef .tc main_arg2))

/-- Running two lines in a row is running the second from where the first ends. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The cut -/

/-- The whole line is its first 78 operations and then the rest. -/
theorem after_ops (W : Valuation τ sig (Elt F)) :
    after ops W = after (ops.drop 78) (after (ops.take 78) W) := by
  rw [← after_app, List.take_append_drop]

/-! ## The first stretch: the two rows of bounds -/

set_option maxRecDepth 65536 in
set_option maxHeartbeats 4000000 in
/-- After the first stretch the buffer of %47 holds the lower bounds. -/
theorem head_v47 (W : Valuation τ sig (Elt F)) :
    after (ops.take 78) W (Proc.devRef .tc main_v47) = lbR W := by
  show after (List.take 78 ops) W (Proc.devRef .tc main_v47) = _
  simp only [ops, List.take_succ_cons, List.take_zero]
  after_results_simp
  rfl

set_option maxRecDepth 65536 in
set_option maxHeartbeats 4000000 in
/-- After the first stretch the buffer of %61 holds the upper bounds. -/
theorem head_v61 (W : Valuation τ sig (Elt F)) :
    after (ops.take 78) W (Proc.devRef .tc main_v61) = ubR W := by
  show after (List.take 78 ops) W (Proc.devRef .tc main_v61) = _
  simp only [ops, List.take_succ_cons, List.take_zero]
  after_results_simp
  rfl

set_option maxRecDepth 65536 in
set_option maxHeartbeats 4000000 in
/-- The first stretch does not write raw_alpha. -/
theorem head_arg0 (W : Valuation τ sig (Elt F)) :
    after (ops.take 78) W (Proc.devRef .tc main_arg0) = W (Proc.devRef .tc main_arg0) := by
  show after (List.take 78 ops) W (Proc.devRef .tc main_arg0) = _
  simp only [ops, List.take_succ_cons, List.take_zero]
  after_results_simp

/-! ## The second stretch: the four results from raw_alpha and the two rows -/

set_option maxRecDepth 65536 in
set_option maxHeartbeats 4000000 in
/-- From any contents, the second stretch leaves at %103 the diagonal matrix of the lower slope. -/
theorem tail_v103 (V : Valuation τ sig (Elt F)) :
    after (ops.drop 78) V (Proc.devRef .tc main_v103)
      = Cert.Spec.tail67 ev (V (Proc.devRef .tc main_arg0)) (V (Proc.devRef .tc main_v47)) (V (Proc.devRef .tc main_v61)) := by
  show after (List.drop 78 ops) V (Proc.devRef .tc main_v103) = _
  simp only [ops, List.drop_succ_cons, List.drop_zero]
  after_results_simp
  rfl

set_option maxRecDepth 65536 in
set_option maxHeartbeats 4000000 in
/-- From any contents, the second stretch leaves at %102 the zero row. -/
theorem tail_v102 (V : Valuation τ sig (Elt F)) :
    after (ops.drop 78) V (Proc.devRef .tc main_v102) = Cert.Spec.tail66 ev := by
  show after (List.drop 78 ops) V (Proc.devRef .tc main_v102) = _
  simp only [ops, List.drop_succ_cons, List.drop_zero]
  after_results_simp
  rfl

set_option maxRecDepth 65536 in
set_option maxHeartbeats 4000000 in
/-- From any contents, the second stretch leaves at %104 the diagonal matrix of the upper slope. -/
theorem tail_v104 (V : Valuation τ sig (Elt F)) :
    after (ops.drop 78) V (Proc.devRef .tc main_v104)
      = Cert.Spec.tail68 ev (V (Proc.devRef .tc main_v47)) (V (Proc.devRef .tc main_v61)) := by
  show after (List.drop 78 ops) V (Proc.devRef .tc main_v104) = _
  simp only [ops, List.drop_succ_cons, List.drop_zero]
  after_results_simp
  rfl

set_option maxRecDepth 65536 in
set_option maxHeartbeats 4000000 in
/-- From any contents, the second stretch leaves at %92 the crossing intercept row. -/
theorem tail_v92 (V : Valuation τ sig (Elt F)) :
    after (ops.drop 78) V (Proc.devRef .tc main_v92)
      = Cert.Spec.tail56 ev (V (Proc.devRef .tc main_v47)) (V (Proc.devRef .tc main_v61)) := by
  show after (List.drop 78 ops) V (Proc.devRef .tc main_v92) = _
  simp only [ops, List.drop_succ_cons, List.drop_zero]
  after_results_simp
  rfl

/-! ## The whole line at its four results -/

/-- %103 = diag (lower slope of raw_alpha, lbounds, ubounds). -/
theorem ref_v103 (W : Valuation τ sig (Elt F)) :
    after ops W (Proc.devRef .tc main_v103) = Cert.Spec.tail67 ev (W (Proc.devRef .tc main_arg0)) (lbR W) (ubR W) := by
  rw [after_ops, tail_v103, head_arg0, head_v47, head_v61]

/-- %102 = the zero row. -/
theorem ref_v102 (W : Valuation τ sig (Elt F)) :
    after ops W (Proc.devRef .tc main_v102) = Cert.Spec.tail66 ev := by
  rw [after_ops, tail_v102]

/-- %104 = diag (upper slope of lbounds, ubounds). -/
theorem ref_v104 (W : Valuation τ sig (Elt F)) :
    after ops W (Proc.devRef .tc main_v104) = Cert.Spec.tail68 ev (lbR W) (ubR W) := by
  rw [after_ops, tail_v104, head_v47, head_v61]

/-- %92 = the crossing intercept row of lbounds, ubounds. -/
theorem ref_v92 (W : Valuation τ sig (Elt F)) :
    after ops W (Proc.devRef .tc main_v92) = Cert.Spec.tail56 ev (lbR W) (ubR W) := by
  rw [after_ops, tail_v92, head_v47, head_v61]

end Cert.ReferenceIdeal.TailVal

end
-- ==== Proof.Bridge.lean ====
/-
  The algebraic bridge between the two bound computations, at the ideal values (floats are extended
  reals, every operation exact).

  Write pos x for x where x > 0 and 0 elsewhere, neg x for x where x < 0 and 0 elsewhere. For all
  extended reals x and y, pos x * y + neg x * y = x * y and y * pos x + y * neg x = y * x: one of pos x,
  neg x is 0 and the other is x, and 0 * y = 0 holds for every extended real, the infinities included; so
  no finiteness is needed. Summed over an index (a finite sum in the commutative monoid of extended
  reals splits over +), a product against pos M plus the product against neg M is the product against
  M. Hence (pos W2 · W1) + (neg W2 · W1) = W2 · W1, (b1 · (pos W2)ᵀ) + (b1 · (neg W2)ᵀ) = b1 · W2ᵀ,
  and the two programs' lower and upper bounds are the same arrays whenever the first program's matrix
  S is the product W2 · W1.
-/
import proofs.«139422_j40183714021525_1_alg».proof.Proof.Spec
import Idealize.ShloMosaic.PureOps.Ideal.Laws
import Idealize.ShloMosaic.Lib.ValueIdx
import Idealize.ShloMosaic.Lib.ValueLayout
import Idealize.ShloMosaic.Lib.IdealHost
import Mathlib.Data.EReal.Operations
import Mathlib.Algebra.BigOperators.Group.Finset.Basic

noncomputable section

namespace Cert.Bridge

open Idealize.ShloMosaic Idealize.ShloMosaic.ValueIdx Cert.Spec
open scoped BigOperators

/-! ## The scalar law -/

/-- pos x: x where x > 0, else 0. -/
def posE (x : EReal) : EReal := Scalar.select (Ideal.cmp .ogt x 0) x 0

/-- neg x: x where x < 0, else 0. -/
def negE (x : EReal) : EReal := Scalar.select (Ideal.cmp .olt x 0) x 0

theorem posE_eq (x : EReal) : posE x = if 0 < x then x else 0 := by
  unfold posE Scalar.select Ideal.cmp
  by_cases h : 0 < x <;> simp [h]

theorem negE_eq (x : EReal) : negE x = if x < 0 then x else 0 := by
  unfold negE Scalar.select Ideal.cmp
  by_cases h : x < 0 <;> simp [h]

/-- One of pos x, neg x is 0 and the other is x. -/
theorem posE_negE (x : EReal) : (posE x = x ∧ negE x = 0) ∨ (posE x = 0 ∧ negE x = x) := by
  rw [posE_eq, negE_eq]
  rcases lt_trichotomy x 0 with h | h | h
  · exact Or.inr ⟨if_neg (not_lt.mpr h.le), if_pos h⟩
  · subst h; exact Or.inl ⟨by simp, by simp⟩
  · exact Or.inl ⟨if_pos h, if_neg (not_lt.mpr h.le)⟩

/-- pos x * y + neg x * y = x * y on all extended reals. -/
theorem posE_mul_add_negE_mul (x y : EReal) : posE x * y + negE x * y = x * y := by
  rcases posE_negE x with ⟨hp, hn⟩ | ⟨hp, hn⟩
  · rw [hp, hn, zero_mul, add_zero]
  · rw [hp, hn, zero_mul, zero_add]

/-- y * pos x + y * neg x = y * x on all extended reals. -/
theorem mul_posE_add_mul_negE (x y : EReal) : y * posE x + y * negE x = y * x := by
  rcases posE_negE x with ⟨hp, hn⟩ | ⟨hp, hn⟩
  · rw [hp, hn, mul_zero, add_zero]
  · rw [hp, hn, mul_zero, zero_add]

/-! ## The law under a finite sum -/

theorem sum_posE_mul_add_sum_negE_mul {n : Nat} (f g : Fin n → EReal) :
    (∑ q : Fin n, posE (f q) * g q) + (∑ q : Fin n, negE (f q) * g q) = ∑ q : Fin n, f q * g q := by
  rw [← Finset.sum_add_distrib]
  exact Finset.sum_congr rfl fun q _ => posE_mul_add_negE_mul (f q) (g q)

theorem sum_mul_posE_add_sum_mul_negE {n : Nat} (f g : Fin n → EReal) :
    (∑ q : Fin n, g q * posE (f q)) + (∑ q : Fin n, g q * negE (f q)) = ∑ q : Fin n, g q * f q := by
  rw [← Finset.sum_add_distrib]
  exact Finset.sum_congr rfl fun q _ => mul_posE_add_mul_negE (f q) (g q)

/-! ## A plain matrix product read at an index -/

section Plain
variable (m k n : Nat)

theorem plain_rank : (DotDims.plain m k n).contr.rank = 1 := rfl
theorem plain_size : (DotDims.plain m k n).contr.size ⟨0, by rw [plain_rank]; exact Nat.one_pos⟩ = k := rfl

theorem plain_lhs_0 (j : (⟨2, ![m, n]⟩ : Shape).Idx) (q : (DotDims.plain m k n).contr.Idx) :
    ((DotDims.plain m k n).lhsIdx j q 0).val = (j 0).val := rfl
theorem plain_lhs_1 (j : (⟨2, ![m, n]⟩ : Shape).Idx) (q : (DotDims.plain m k n).contr.Idx) :
    ((DotDims.plain m k n).lhsIdx j q 1).val = (q ⟨0, by rw [plain_rank]; exact Nat.one_pos⟩).val :=
  (DotDims.plain m k n).lhsIdx_val_of_single (cl := 1) rfl j q
theorem plain_rhs_0 (j : (⟨2, ![m, n]⟩ : Shape).Idx) (q : (DotDims.plain m k n).contr.Idx) :
    ((DotDims.plain m k n).rhsIdx j q 0).val = (q ⟨0, by rw [plain_rank]; exact Nat.one_pos⟩).val :=
  (DotDims.plain m k n).rhsIdx_val_of_single (cr := 0) rfl j q
theorem plain_rhs_1 (j : (⟨2, ![m, n]⟩ : Shape).Idx) (q : (DotDims.plain m k n).contr.Idx) :
    ((DotDims.plain m k n).rhsIdx j q 1).val = (j 1).val := rfl

/-- The left operand's index at output (i, j) and contraction coordinate q is (i, q). -/
theorem plain_lhsIdx (i : Fin m) (j : Fin n) (q : Fin k) :
    (DotDims.plain m k n).lhsIdx (ix2 i j) ((contrEquiv1 (DotDims.plain m k n) k (plain_rank m k n) (plain_size m k n)).symm q)
      = ix2 i q := by
  funext c
  match c with
  | ⟨0, _⟩ => exact Fin.ext (plain_lhs_0 m k n _ _)
  | ⟨1, _⟩ =>
    exact Fin.ext ((plain_lhs_1 m k n _ _).trans
      (contrEquiv1_symm_val (DotDims.plain m k n) k (plain_rank m k n) (plain_size m k n) q))

/-- The right operand's index at output (i, j) and contraction coordinate q is (q, j). -/
theorem plain_rhsIdx (i : Fin m) (j : Fin n) (q : Fin k) :
    (DotDims.plain m k n).rhsIdx (ix2 i j) ((contrEquiv1 (DotDims.plain m k n) k (plain_rank m k n) (plain_size m k n)).symm q)
      = ix2 q j := by
  funext c
  match c with
  | ⟨0, _⟩ =>
    exact Fin.ext ((plain_rhs_0 m k n _ _).trans
      (contrEquiv1_symm_val (DotDims.plain m k n) k (plain_rank m k n) (plain_size m k n) q))
  | ⟨1, _⟩ => exact Fin.ext (plain_rhs_1 m k n _ _)

/-- A plain [m,k] × [k,n] product at (i, j), at the ideal values: the sum over q of a (i, q) * b (q, j),
    whatever the precision. -/
theorem dot_plain_apply (prec : Option ContractPrecision) (a : FVec Ideal ⟨2, ![m, k]⟩ .f32) (b : FVec Ideal ⟨2, ![k, n]⟩ .f32)
    (i : Fin m) (j : Fin n) :
    Host.dotGeneral (F := Ideal) (DotDims.plain m k n) prec a b (ix2 i j) = ∑ q : Fin k, a (ix2 i q) * b (ix2 q j) := by
  refine (Ideal.dotGeneral_apply (DotDims.plain m k n) prec .single a b (ix2 i j)).trans ?_
  refine (Equiv.sum_comp (contrEquiv1 (DotDims.plain m k n) k (plain_rank m k n) (plain_size m k n)).symm _).symm.trans ?_
  exact Finset.sum_congr rfl fun q _ => by rw [plain_lhsIdx, plain_rhsIdx]

end Plain

/-- At the ideal values a product does not depend on the precision. -/
theorem dot_prec_irrel {sl sr so : Shape} (d : DotDims sl sr so) (p p' : Option ContractPrecision)
    (a : FVec Ideal sl .f32) (b : FVec Ideal sr .f32) :
    Host.dotGeneral (F := Ideal) d p a b = Host.dotGeneral (F := Ideal) d p' a b :=
  funext fun j => (Ideal.dotGeneral_apply d p .single a b j).trans (Ideal.dotGeneral_apply d p' .single a b j).symm

/-! ## The arrays read at an index -/

section Arrays
variable (ev : Ev)

/-- The zero matrix is 0 everywhere. -/
theorem zeroM_apply (j : T4096x4096.Idx) : zeroM (F := Ideal) ev j = 0 := by
  unfold zeroM
  rw [broadcastInDim_scalar_apply, constant_apply, Ideal.ofBits_zero_f32]

/-- pos X at an index is pos of the element. -/
theorem pos_apply (X : FVec Ideal T4096x4096 .f32) (j : T4096x4096.Idx) : pos ev X j = posE (X j) := by
  show Scalar.select (FloatOps.cmpf .ogt (X j) (zeroM (F := Ideal) ev j)) (X j) (zeroM (F := Ideal) ev j) = _
  rw [zeroM_apply]; rfl

/-- neg X at an index is neg of the element. -/
theorem neg_apply (X : FVec Ideal T4096x4096 .f32) (j : T4096x4096.Idx) : neg ev X j = negE (X j) := by
  show Scalar.select (FloatOps.cmpf .olt (X j) (zeroM (F := Ideal) ev j)) (X j) (zeroM (F := Ideal) ev j) = _
  rw [zeroM_apply]; rfl

/-- Xᵀ at (a, b) is X at (b, a). -/
theorem tr_apply (X : FVec Ideal T4096x4096 .f32) (a b : Fin 4096) : tr ev X (ix2 a b) = X (ix2 b a) :=
  transpose_ix2_apply X ev.transposes a b

/-! ## The two programs' pieces are equal -/

/-- (pos W2 · W1) + (neg W2 · W1) = W2 · W1: the second program's matrix is the first's, when that is the product. -/
theorem rS_eq (dM : DotDims T4096x4096 T4096x4096 T4096x4096) (hdM : dM = DotDims.plain 4096 4096 4096)
    (S W1 W2 : FVec Ideal T4096x4096 .f32)
    (hS : ∀ i j : Fin 4096, S (ix2 i j) = ∑ q : Fin 4096, W2 (ix2 i q) * W1 (ix2 q j)) :
    rS ev dM W1 W2 = S := by
  subst hdM
  funext j
  obtain ⟨a, b, rfl⟩ : ∃ a b : Fin 4096, j = ix2 a b := ⟨j 0, j 1, eq_ix2 j⟩
  show Host.dotGeneral (F := Ideal) (DotDims.plain 4096 4096 4096) none (pos ev W2) W1 (ix2 a b)
      + Host.dotGeneral (F := Ideal) (DotDims.plain 4096 4096 4096) none (neg ev W2) W1 (ix2 a b) = _
  rw [dot_plain_apply, dot_plain_apply, hS]
  simp only [pos_apply ev, neg_apply ev]
  exact sum_posE_mul_add_sum_negE_mul (fun q => W2 (ix2 a q)) (fun q => W1 (ix2 q b))

/-- ((b1 · (pos W2)ᵀ) + (b1 · (neg W2)ᵀ)) + b2 = (b1 · W2ᵀ) + b2. -/
theorem rC_eq (d1 : DotDims T1x4096 T4096x4096 T1x4096) (hd1 : d1 = DotDims.plain 1 4096 4096)
    (W2 : FVec Ideal T4096x4096 .f32) (b1 b2 : FVec Ideal T1x4096 .f32) :
    rC ev d1 W2 b1 b2 = kC ev d1 W2 b1 b2 := by
  subst hd1
  funext j
  obtain ⟨a, b, rfl⟩ : ∃ (a : Fin 1) (b : Fin 4096), j = ix2 a b := ⟨j 0, j 1, eq_ix2 j⟩
  show (Host.dotGeneral (F := Ideal) (DotDims.plain 1 4096 4096) none b1 (tr ev (pos ev W2)) (ix2 a b)
        + Host.dotGeneral (F := Ideal) (DotDims.plain 1 4096 4096) none b1 (tr ev (neg ev W2)) (ix2 a b)) + b2 (ix2 a b)
      = Host.dotGeneral (F := Ideal) (DotDims.plain 1 4096 4096) (some .fp32) b1 (tr ev W2) (ix2 a b) + b2 (ix2 a b)
  rw [dot_plain_apply, dot_plain_apply, dot_plain_apply]
  have hp : ∀ q : Fin 4096, b1 (ix2 a q) * tr ev (pos ev W2) (ix2 q b) = b1 (ix2 a q) * posE (W2 (ix2 b q)) :=
    fun q => by rw [tr_apply, pos_apply]
  have hn : ∀ q : Fin 4096, b1 (ix2 a q) * tr ev (neg ev W2) (ix2 q b) = b1 (ix2 a q) * negE (W2 (ix2 b q)) :=
    fun q => by rw [tr_apply, neg_apply]
  have h0 : ∀ q : Fin 4096, b1 (ix2 a q) * tr ev W2 (ix2 q b) = b1 (ix2 a q) * W2 (ix2 b q) :=
    fun q => by rw [tr_apply]
  rw [Finset.sum_congr rfl (fun q _ => hp q), Finset.sum_congr rfl (fun q _ => hn q), Finset.sum_congr rfl (fun q _ => h0 q),
    sum_mul_posE_add_sum_mul_negE (fun q => W2 (ix2 b q)) (fun q => b1 (ix2 a q))]

/-! ## The bounds -/

/-- The lower bounds of the two programs are one array, when S = W2 · W1. -/
theorem lb_eq (d1 : DotDims T1x4096 T4096x4096 T1x4096) (dM : DotDims T4096x4096 T4096x4096 T4096x4096)
    (hd1 : d1 = DotDims.plain 1 4096 4096) (hdM : dM = DotDims.plain 4096 4096 4096)
    (S W1 W2 : FVec Ideal T4096x4096 .f32) (b1 b2 lb0 ub0 : FVec Ideal T1x4096 .f32)
    (hS : ∀ i j : Fin 4096, S (ix2 i j) = ∑ q : Fin 4096, W2 (ix2 i q) * W1 (ix2 q j)) :
    kLb ev d1 S W2 b1 b2 lb0 ub0 = rLb ev d1 dM W1 W2 b1 b2 lb0 ub0 := by
  unfold kLb rLb
  rw [rS_eq ev dM hdM S W1 W2 hS, rC_eq ev d1 hd1 W2 b1 b2,
    dot_prec_irrel d1 none (some .fp32) lb0, dot_prec_irrel d1 none (some .fp32) ub0]

/-- The upper bounds likewise. -/
theorem ub_eq (d1 : DotDims T1x4096 T4096x4096 T1x4096) (dM : DotDims T4096x4096 T4096x4096 T4096x4096)
    (hd1 : d1 = DotDims.plain 1 4096 4096) (hdM : dM = DotDims.plain 4096 4096 4096)
    (S W1 W2 : FVec Ideal T4096x4096 .f32) (b1 b2 lb0 ub0 : FVec Ideal T1x4096 .f32)
    (hS : ∀ i j : Fin 4096, S (ix2 i j) = ∑ q : Fin 4096, W2 (ix2 i q) * W1 (ix2 q j)) :
    kUb ev d1 S W2 b1 b2 lb0 ub0 = rUb ev d1 dM W1 W2 b1 b2 lb0 ub0 := by
  unfold kUb rUb
  rw [rS_eq ev dM hdM S W1 W2 hS, rC_eq ev d1 hd1 W2 b1 b2,
    dot_prec_irrel d1 none (some .fp32) ub0, dot_prec_irrel d1 none (some .fp32) lb0]

end Arrays

end Cert.Bridge

end
-- ==== Proof.KiBlocks.lean ====
/-
  The two input windows' blocks, read entry by entry. At grid point t = 16 i + 4 j + k the first window's block is block
  (i, k) of the first operand as the call finds it, and the second window's is block (k, j) of the second; each operand
  is the conversion to bf16 of an argument of the entry function, and over the ideal numbers that conversion changes
  nothing. So entry (p, r) of the first block is entry (1024 i + p, 1024 k + r) of the argument, and entry (r, q) of the
  second block is entry (1024 k + r, 1024 j + q) of the other argument.
-/
import proofs.«139422_j40183714021525_1_alg».proof.Proof.KiKit
import Idealize.ShloMosaic.Lib.ValueIdx
import Idealize.ShloMosaic.Lib.Pipeline.Value
import Idealize.ShloMosaic.Lib.StableHlo.Run
import Idealize.ShloMosaic.PureOps.Ideal

set_option maxRecDepth 16384

noncomputable section

namespace Cert.KernelIdeal.Val

open Cert.KernelIdeal Cert.KernelIdeal.Gen Cert.KernelIdeal.Frm
open Idealize.ShloMosaic Idealize.ShloMosaic.TcCoe
open Idealize.SL Idealize.SL.Sem

/-- The first operand as the call finds it: the first conversion's result, which over the ideal numbers is the argument itself. -/
theorem V_v0 (m : (ℓ : Loc nD τ sig) → Buf (Elt Ideal) ℓ) (c : Dev nD) :
    (V (F := Ideal) m c main_v0 : S4096x4096.Idx → EReal) = (m ((c.tc : Thread nD τ).loc main_arg5) : S4096x4096.Idx → EReal) := by
  show StableHlo.after hostOps0 (fun b => m (c, b)) (Proc.devRef .tc main_v0) = _
  after_results
  rfl

/-- The second operand as the call finds it. -/
theorem V_v1 (m : (ℓ : Loc nD τ sig) → Buf (Elt Ideal) ℓ) (c : Dev nD) :
    (V (F := Ideal) m c main_v1 : S4096x4096.Idx → EReal) = (m ((c.tc : Thread nD τ).loc main_arg3) : S4096x4096.Idx → EReal) := by
  show StableHlo.after hostOps0 (fun b => m (c, b)) (Proc.devRef .tc main_v1) = _
  after_results
  rfl

/-- The index maps of the two input windows at each grid point. -/
theorem idx_in : ∀ t : Fin cfg0.N, win0_0.index t (0 : Fin 2) = t.val / 16 ∧ win0_0.index t (1 : Fin 2) = t.val % 4
    ∧ win0_1.index t (0 : Fin 2) = t.val % 4 ∧ win0_1.index t (1 : Fin 2) = (t.val / 4) % 4 :=
  (by decide +kernel : ∀ t : Fin grid0.N, _)

/-- Entry (p, r) of the first window's block at point t: entry (1024 (t / 16) + p, 1024 (t % 4) + r) of the first argument. -/
theorem iblk0_apply (m : (ℓ : Loc nD τ sig) → Buf (Elt Ideal) ℓ) (c : Dev nD) (t : Fin cfg0.N) (p r : Fin 1024) :
    (iblk (F := Ideal) m c 0 t : Vec Ideal S1024x1024 .bf16) (ValueIdx.ix2 p r)
      = (m ((c.tc : Thread nD τ).loc main_arg5) : FVec Ideal S4096x4096 .f32)
          (ValueIdx.ix2 (n0 := 4096) (n1 := 4096) ⟨1024 * (t.val / 16) + p.val, by have h : t.val < 64 := t.isLt; have := p.isLt; omega⟩
            ⟨1024 * (t.val % 4) + r.val, by have := r.isLt; omega⟩) := by
  obtain ⟨e0, e1, -, -⟩ := idx_in t
  show V (F := Ideal) m c main_v0 (((cfg0.win 0).blk t).view.emb (ValueIdx.ix2 p r)) = _
  rw [V_v0]
  refine congrArg _ (funext fun a => Fin.ext ?_)
  match a with
  | ⟨0, _⟩ => show win0_0.index t (0 : Fin 2) * 1024 + 1 * p.val = 1024 * (t.val / 16) + p.val; omega
  | ⟨1, _⟩ => show win0_0.index t (1 : Fin 2) * 1024 + 1 * r.val = 1024 * (t.val % 4) + r.val; omega

/-- Entry (r, q) of the second window's block at point t: entry (1024 (t % 4) + r, 1024 (t / 4 % 4) + q) of the second argument. -/
theorem iblk1_apply (m : (ℓ : Loc nD τ sig) → Buf (Elt Ideal) ℓ) (c : Dev nD) (t : Fin cfg0.N) (r q : Fin 1024) :
    (iblk (F := Ideal) m c 1 t : Vec Ideal S1024x1024 .bf16) (ValueIdx.ix2 r q)
      = (m ((c.tc : Thread nD τ).loc main_arg3) : FVec Ideal S4096x4096 .f32)
          (ValueIdx.ix2 (n0 := 4096) (n1 := 4096) ⟨1024 * (t.val % 4) + r.val, by have := r.isLt; omega⟩
            ⟨1024 * ((t.val / 4) % 4) + q.val, by have := q.isLt; omega⟩) := by
  obtain ⟨-, -, e0, e1⟩ := idx_in t
  show V (F := Ideal) m c main_v1 (((cfg0.win 1).blk t).view.emb (ValueIdx.ix2 r q)) = _
  rw [V_v1]
  refine congrArg _ (funext fun a => Fin.ext ?_)
  match a with
  | ⟨0, _⟩ => show win0_1.index t (0 : Fin 2) * 1024 + 1 * r.val = 1024 * (t.val % 4) + r.val; omega
  | ⟨1, _⟩ => show win0_1.index t (1 : Fin 2) * 1024 + 1 * q.val = 1024 * ((t.val / 4) % 4) + q.val; omega

end Cert.KernelIdeal.Val

end
-- ==== Proof.LibBlockSum.lean ====
/-
  Block decompositions of one finite sum over the extended reals.

  A contraction with terms `f 0, f 1, …` is cut into consecutive blocks of width `B`; block `j` is the sum of the terms
  `j·B, …, j·B + B − 1`.  Adding blocks `j₀, …, j₀ + k` left to right — whether the first is STORED and the later ones
  added to it (`accum`: an accumulator kept in an output block that the first grid point overwrites), or all are added
  onto a ZERO start (`accum0`: a scratch accumulator cleared at the first grid point) — gives the contiguous stretch of
  `(k + 1)·B` terms that starts at `j₀·B` (`accum_eq`, `accum0_eq`).  Only commutativity and associativity of addition
  are used (the extended reals are an additive commutative monoid), so no term needs to be finite.
  The terms are indexed by ℕ and summed over `Finset.range`, so that a block is an offset and a zero-padded tail is
  "the terms beyond the extent are zero".  Mathlib imports only.
-/
import Mathlib.Data.EReal.Operations
import Mathlib.Algebra.BigOperators.Intervals

noncomputable section

namespace Cert.Spec

open Finset

variable (f : ℕ → EReal)

/-- Block `j` of width `B` of the contraction: the terms `j·B, …, j·B + B − 1`. -/
def block (B j : ℕ) : EReal := ∑ κ ∈ range B, f (j * B + κ)

/-- Blocks `j₀, j₀+1, …, j₀+k` added up left to right, the first one STORED (not added to anything). -/
def accum (B j₀ : ℕ) : ℕ → EReal
  | 0 => block f B j₀
  | k + 1 => accum B j₀ k + block f B (j₀ + (k + 1))

/-- Blocks `0, …, k` added up left to right onto a zero start. -/
def accum0 (B : ℕ) : ℕ → EReal
  | 0 => 0 + block f B 0
  | k + 1 => accum0 B k + block f B (k + 1)

/-- Consecutive blocks, the first stored, are one contiguous stretch of the contraction. -/
theorem accum_eq (B j₀ k : ℕ) : accum f B j₀ k = ∑ i ∈ range ((k + 1) * B), f (j₀ * B + i) := by
  induction k with
  | zero => simp only [accum, block, Nat.zero_add, Nat.one_mul]
  | succ k ih =>
    show accum f B j₀ k + block f B (j₀ + (k + 1)) = _
    rw [ih, block, show (k + 1 + 1) * B = (k + 1) * B + B by ring, Finset.sum_range_add]
    refine congrArg _ (Finset.sum_congr rfl fun κ _ => congrArg f ?_)
    ring

/-- Consecutive blocks added onto zero are the contraction's first `(k + 1)·B` terms. -/
theorem accum0_eq (B k : ℕ) : accum0 f B k = ∑ i ∈ range ((k + 1) * B), f i := by
  induction k with
  | zero => simp only [accum0, block, zero_add, Nat.zero_mul, Nat.zero_add, Nat.one_mul]
  | succ k ih =>
    show accum0 f B k + block f B (k + 1) = _
    rw [ih, block, show (k + 1 + 1) * B = (k + 1) * B + B by ring, Finset.sum_range_add]

end Cert.Spec

end
-- ==== Proof.KiValue1.lean ====
/-
  The accumulator of the blocked matrix product, read at an index, at the ideal values.

  One step of the body adds, at entry (p, q) of the 1024 × 1024 accumulator, the product of row p of the first operand's
  block with column q of the second operand's block; the accumulator restarts from zero at the points with k = 0. The
  blocks at point (i, j, k) are block (i, k) of the first argument matrix and block (k, j) of the second, so that step
  contributes terms 1024·k … 1024·k + 1023 of the contraction of row 1024·i + p with column 1024·j + q. By induction over
  the points, after point (i, j, k) the accumulator holds blocks 0 … k of that contraction added left to right onto
  zero, which is its first (k + 1)·1024 terms; at k = 3 that is the whole contraction over the 4096 positions.
-/
import proofs.«139422_j40183714021525_1_alg».proof.Proof.KiFrame
import proofs.«139422_j40183714021525_1_alg».proof.Proof.KiBlocks
import proofs.«139422_j40183714021525_1_alg».proof.Proof.LibBlockSum
import Idealize.ShloMosaic.Lib.StackMember
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL.Sem
open Idealize.ShloMosaic.Pipeline (Dat)
open Cert.Spec (block accum0 accum0_eq)

variable (m : (ℓ : Loc nD τ sig) → Buf (Elt Ideal) ℓ)

/-! ## The body's arithmetic at an index -/

/-- The body's dimension numbers are those of the plain product of a 1024 × 1024 by a 1024 × 1024 matrix. -/
theorem dot_eq_plain : dot_S1024x1024_S1024x1024_S1024x1024_1_0_0_1_n_n = DotDims.plain 1024 1024 1024 := rfl

/-- The block the accumulator is reset to is zero at every index. -/
theorem pay1_apply (p q : Fin 1024) : (k0_pay1 (F := Ideal)) (ix2 p q) = 0 := by
  unfold k0_pay1
  simp only [shapeCast_self]
  show Ideal.ofBits .f32 0x00000000#32 = 0
  exact Ideal.ofBits_zero_f32

/-- One step of the accumulation at an index: the accumulator's entry plus row p of the first block times column q of
    the second. -/
theorem pay2_apply (acc : FVec Ideal S1024x1024 .f32) (a b : FVec Ideal S1024x1024 .bf16) (p q : Fin 1024) :
    k0_pay2 (F := Ideal) acc a b (ix2 p q) = acc (ix2 p q) + ∑ r : Fin 1024, a (ix2 p r) * b (ix2 r q) := by
  unfold k0_pay2
  simp only [shapeCast_self]
  show acc (ix2 p q) + matmul dot_S1024x1024_S1024x1024_S1024x1024_1_0_0_1_n_n none a b (constant (F := Ideal) S1024x1024 .f32 0x00000000#32) (ix2 p q) = _
  rw [matmul_zero_eq_dotGeneral, dot_eq_plain]
  exact congrArg (acc (ix2 p q) + ·) (StackMember.dotGeneral_plain_apply none a b p q)

/-! ## The arrays and blocks by their literal types -/

/-- The first argument matrix of the product (the program's %arg5) on core c. -/
abbrev lhsArr (c : Dev nD) : FVec Ideal S4096x4096 .f32 := m ((c.tc : Thread nD τ).loc main_arg5)
/-- The second argument matrix (the program's %arg3). -/
abbrev rhsArr (c : Dev nD) : FVec Ideal S4096x4096 .f32 := m ((c.tc : Thread nD τ).loc main_arg3)
/-- The first operand's block at point t. -/
abbrev ablk (c : Dev nD) (t : Fin cfg0.N) : FVec Ideal S1024x1024 .bf16 := iblk (F := Ideal) m c 0 t
/-- The second operand's block at point t. -/
abbrev bblk (c : Dev nD) (t : Fin cfg0.N) : FVec Ideal S1024x1024 .bf16 := iblk (F := Ideal) m c 1 t

/-! ## The contraction, term by term -/

/-- Term x of the contraction of row I of X with column J of Y; zero beyond the extent 4096. -/
def term (X Y : FVec Ideal S4096x4096 .f32) (I J : Fin 4096) (x : ℕ) : EReal :=
  if h : x < 4096 then X (ix2 I ⟨x, h⟩) * Y (ix2 ⟨x, h⟩ J) else 0

/-- A row of a 1024-wide block of X times a column of a 1024-high block of Y, both cut at offset 1024·k of the contracted
    axis, is block k of the contraction's terms. -/
theorem blockProd_eq (X Y : FVec Ideal S4096x4096 .f32) (A B : FVec Ideal S1024x1024 .bf16) (I J : Fin 4096) (k : ℕ) (hk : k < 4)
    (p q : Fin 1024)
    (hA : ∀ r : Fin 1024, A (ix2 p r) = X (ix2 I ⟨1024 * k + r.val, by have := r.isLt; omega⟩))
    (hB : ∀ r : Fin 1024, B (ix2 r q) = Y (ix2 ⟨1024 * k + r.val, by have := r.isLt; omega⟩ J)) :
    ∑ r : Fin 1024, A (ix2 p r) * B (ix2 r q) = block (term X Y I J) 1024 k := by
  unfold block
  rw [Finset.sum_range]
  refine Finset.sum_congr rfl fun r _ => ?_
  have h : k * 1024 + r.val < 4096 := by have := r.isLt; omega
  have e : (⟨1024 * k + r.val, by have := r.isLt; omega⟩ : Fin 4096) = ⟨k * 1024 + r.val, h⟩ :=
    Fin.ext (by show 1024 * k + r.val = k * 1024 + r.val; omega)
  rw [hA r, hB r, e]
  unfold term
  rw [dif_pos h]

/-! ## The accumulator, point by point -/

theorem accum0_zero (f : ℕ → EReal) (B : ℕ) : accum0 f B 0 = 0 + block f B 0 := rfl
theorem accum0_succ (f : ℕ → EReal) (B k : ℕ) : accum0 f B (k + 1) = accum0 f B k + block f B (k + 1) := rfl

/-- At point t = (i, j, k) the two operand blocks' product at (p, q) is block k of the contraction of row 1024·i + p of the
    first matrix with column 1024·j + q of the second. -/
theorem point_block (c : Dev nD) (t : Fin cfg0.N) (k : ℕ) (hk : t.val % 4 = k) (p q : Fin 1024) (I J : Fin 4096)
    (hI : I.val = 1024 * (t.val / 16) + p.val) (hJ : J.val = 1024 * (t.val / 4 % 4) + q.val) :
    ∑ r : Fin 1024, ablk m c t (ix2 p r) * bblk m c t (ix2 r q) = block (term (lhsArr m c) (rhsArr m c) I J) 1024 k := by
  subst hk
  have hIb : 1024 * (t.val / 16) + p.val < 4096 := by
    have h : t.val < 64 := t.isLt
    have := p.isLt; omega
  have hJb : 1024 * (t.val / 4 % 4) + q.val < 4096 := by have := q.isLt; omega
  obtain rfl : I = ⟨1024 * (t.val / 16) + p.val, hIb⟩ := Fin.ext hI
  obtain rfl : J = ⟨1024 * (t.val / 4 % 4) + q.val, hJb⟩ := Fin.ext hJ
  exact blockProd_eq (lhsArr m c) (rhsArr m c) (ablk m c t) (bblk m c t) _ _ (t.val % 4) (Nat.mod_lt _ (by decide)) p q
    (fun r => iblk0_apply m c t p r) (fun r => iblk1_apply m c t r q)

/-- A point with k = 0 leaves zero plus its block product. -/
theorem acc_first (c : Dev nD) (t : Fin cfg0.N) (h0 : t.val % 4 = 0) (p q : Fin 1024) :
    accAt (F := Ideal) m c t.val t.isLt (ix2 p q) = 0 + ∑ r : Fin 1024, ablk m c t (ix2 p r) * bblk m c t (ix2 r q) := by
  refine (congrFun (accAt_first (F := Ideal) m c t h0) (ix2 p q)).trans ?_
  refine (pay2_apply (k0_pay1 (F := Ideal)) (ablk m c t) (bblk m c t) p q).trans ?_
  rw [pay1_apply]

/-- Any other point adds its block product onto what the point before left. -/
theorem acc_next (c : Dev nD) (n : ℕ) (hn : n + 1 < cfg0.N) (h0 : ¬(n + 1) % 4 = 0) (p q : Fin 1024) :
    accAt (F := Ideal) m c (n + 1) hn (ix2 p q)
      = accAt (F := Ideal) m c n (Nat.lt_of_succ_lt hn) (ix2 p q)
        + ∑ r : Fin 1024, ablk m c ⟨n + 1, hn⟩ (ix2 p r) * bblk m c ⟨n + 1, hn⟩ (ix2 r q) := by
  have e : accAt (F := Ideal) m c (n + 1) hn
      = k0_pay2 (accAt (F := Ideal) m c n (Nat.lt_of_succ_lt hn)) (iblk m c 0 ⟨n + 1, hn⟩) (iblk m c 1 ⟨n + 1, hn⟩) :=
    accAt_next (F := Ideal) m c ⟨n + 1, hn⟩ h0
  refine (congrFun e (ix2 p q)).trans ?_
  exact pay2_apply (accAt (F := Ideal) m c n (Nat.lt_of_succ_lt hn)) (ablk m c ⟨n + 1, hn⟩) (bblk m c ⟨n + 1, hn⟩) p q

/-- After point n = (i, j, k) the accumulator holds, at (p, q), blocks 0 … k of the contraction of row 1024·i + p with
    column 1024·j + q, added left to right onto zero. -/
theorem acc_apply (c : Dev nD) : ∀ (n : ℕ) (hn : n < cfg0.N) (p q : Fin 1024) (I J : Fin 4096),
    I.val = 1024 * (n / 16) + p.val → J.val = 1024 * (n / 4 % 4) + q.val →
    accAt (F := Ideal) m c n hn (ix2 p q) = accum0 (term (lhsArr m c) (rhsArr m c) I J) 1024 (n % 4) := by
  intro n
  induction n with
  | zero =>
    intro hn p q I J hI hJ
    rw [acc_first m c ⟨0, hn⟩ rfl p q, point_block m c ⟨0, hn⟩ 0 rfl p q I J hI hJ]
    rfl
  | succ n ih =>
    intro hn p q I J hI hJ
    by_cases h0 : (n + 1) % 4 = 0
    · rw [acc_first m c ⟨n + 1, hn⟩ h0 p q, point_block m c ⟨n + 1, hn⟩ 0 h0 p q I J hI hJ, h0]
      rfl
    · have hk : (n + 1) % 4 = n % 4 + 1 := by omega
      rw [acc_next m c n hn h0 p q, ih (Nat.lt_of_succ_lt hn) p q I J (by omega) (by omega),
        point_block m c ⟨n + 1, hn⟩ (n % 4 + 1) hk p q I J hI hJ, hk, accum0_succ]

/-- So a point with k = 3 leaves the whole contraction. -/
theorem acc_last (c : Dev nD) (t : Fin cfg0.N) (h3 : t.val % 4 = 3) (p q : Fin 1024) (I J : Fin 4096)
    (hI : I.val = 1024 * (t.val / 16) + p.val) (hJ : J.val = 1024 * (t.val / 4 % 4) + q.val) :
    accAt (F := Ideal) m c t.val t.isLt (ix2 p q) = ∑ k : Fin 4096, lhsArr m c (ix2 I k) * rhsArr m c (ix2 k J) := by
  rw [acc_apply m c t.val t.isLt p q I J hI hJ, h3, accum0_eq]
  show ∑ x ∈ Finset.range 4096, term (lhsArr m c) (rhsArr m c) I J x = _
  rw [Finset.sum_range]
  refine Finset.sum_congr rfl fun k _ => ?_
  unfold term
  rw [dif_pos k.isLt]

end Cert.KernelIdeal.Val

end
-- ==== Proof.KiCover.lean ====
/-
  From the blocks the call writes back to the result array. The result window is written back only at the grid points
  with k = 3; at point t = 16 i + 4 j + k its block is block (i, j) of the array; the blocks are 1024 × 1024 and tile the
  4096 × 4096 array. So after the run the array holds, at (I, J), what the accumulator held after the point
  (I / 1024, J / 1024, 3) — number (4 (I / 1024) + J / 1024) · 4 + 3 — at (I % 1024, J % 1024).
-/
import proofs.«139422_j40183714021525_1_alg».proof.Proof.KiFrame
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The result array as one function of the index: the accumulator after the last point of the index's block, read
    inside the block. -/
def outArr (c : Dev nD) (i : S4096x4096.Idx) : Elt F .f32 :=
  accAt m c ((4 * ((i 0).val / 1024) + (i 1).val / 1024) * 4 + 3)
    (by have h0 : (i 0).val < 4096 := (i 0).isLt; have h1 : (i 1).val < 4096 := (i 1).isLt; have : cfg0.N = 64 := N_0; omega)
    (ValueIdx.ix2 (n0 := 1024) (n1 := 1024) ⟨(i 0).val % 1024, Nat.mod_lt _ (by omega)⟩ ⟨(i 1).val % 1024, Nat.mod_lt _ (by omega)⟩)

/-- The accumulator's closed form depends on the point's number and the index only. -/
theorem accAt_congr (c : Dev nD) {n n' : ℕ} (hn : n < cfg0.N) (hn' : n' < cfg0.N) (e : n = n') {x x' : S1024x1024.Idx} (ex : x = x') :
    accAt m c n hn x = accAt m c n' hn' x' := by
  subst e; subst ex; rfl

/-- The result window's block index at each grid point. -/
theorem idx_out : ∀ t : Fin cfg0.N, win0_2.index t (0 : Fin 2) = t.val / 16 ∧ win0_2.index t (1 : Fin 2) = (t.val / 4) % 4 :=
  (by decide +kernel : ∀ t : Fin grid0.N, _)

/-- What a point with k = 3 writes back is its block of `outArr`. -/
theorem flushed_eq (c : Dev nD) (t : Fin cfg0.N) (hf : (cfg0.win 2).flush t = true) :
    (dats m 0 c).flushed 2 t = ((cfg0.win 2).blk t).view.read (Elt F) (outArr m c) := by
  show (cfg0.win 2).cut (grid0.coords t) ((dats m 0 c).after 2 t) = _
  rw [after2]
  have h3 : t.val % 4 = 3 := (flush0_2 t).mp hf
  have hN : t.val < 64 := t.isLt
  obtain ⟨e0, e1⟩ := idx_out t
  funext j
  have hj0 : (j 0).val < 1024 := (j 0).isLt
  have hj1 : (j 1).val < 1024 := (j 1).isLt
  show accAt m c t.val t.isLt ((cfg0.win 2).xinj (grid0.coords t) j) = outArr m c (((cfg0.win 2).blk t).view.emb j)
  obtain ⟨y, hy⟩ : ∃ y : S4096x4096.Idx, y = ((cfg0.win 2).blk t).view.emb j := ⟨_, rfl⟩
  have a0 : (y 0).val = win0_2.index t (0 : Fin 2) * 1024 + 1 * (j 0).val := by rw [hy]; rfl
  have a1 : (y 1).val = win0_2.index t (1 : Fin 2) * 1024 + 1 * (j 1).val := by rw [hy]; rfl
  rw [← hy]
  unfold outArr
  refine accAt_congr m c _ _ (by omega) (funext fun a => Fin.ext ?_)
  match a with
  | ⟨0, _⟩ => show (j 0).val = (y 0).val % 1024; omega
  | ⟨1, _⟩ => show (j 1).val = (y 1).val % 1024; omega

/-- An index of the array is in point `t`'s block iff each coordinate is in the block's range on its axis. -/
theorem mem_blk (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the array is in the block of a point that writes back: the point (I / 1024, J / 1024, 3). -/
theorem cover (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 64 := N_0
  obtain ⟨t, tv⟩ : ∃ t : Fin cfg0.N, t.val = (4 * ((i 0).val / 1024) + (i 1).val / 1024) * 4 + 3 := ⟨⟨_, by omega⟩, rfl⟩
  obtain ⟨e0, e1⟩ := idx_out t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run. -/
theorem final (c : Dev nD) : (dats m 0 c).arrAt 2 cfg0.N = outArr m c :=
  (dats m 0 c).arrAt_eq_of_cover 2 (outArr m c) (fun t hf => flushed_eq m c t hf) (cover)

/-- Entry (I, J) of the result array after the run. -/
theorem S_block (c : Dev nD) (I J : Fin 4096) :
    ((dats m 0 c).arrAt 2 cfg0.N : Vec F S4096x4096 .f32) (ValueIdx.ix2 I J)
      = (accAt m c ((4 * (I.val / 1024) + J.val / 1024) * 4 + 3) (by have := I.isLt; have := J.isLt; have : cfg0.N = 64 := N_0; omega) : Vec F S1024x1024 .f32)
          (ValueIdx.ix2 (n0 := 1024) (n1 := 1024) ⟨I.val % 1024, Nat.mod_lt _ (by omega)⟩ ⟨J.val % 1024, Nat.mod_lt _ (by omega)⟩) := by
  rw [final]; rfl

end Cert.KernelIdeal.Val

end
-- ==== Proof.KiValue.lean ====
/-
  The value of the blocked matrix product at the ideal values: the product array the call leaves is the matrix product
  of the two argument matrices, entry by entry.

  Entry (i, j) of the product array lies in block (i / 1024, j / 1024) of the result, which is written back once, at the
  point with those block coordinates and k = 3, from the accumulator; there the accumulator holds, at the entry's place
  (i mod 1024, j mod 1024) inside the block, the whole contraction of row i of the first argument matrix with column j of
  the second, because 1024·(i / 1024) + i mod 1024 = i and likewise for j.
-/
import proofs.«139422_j40183714021525_1_alg».proof.Proof.KiValue1
import proofs.«139422_j40183714021525_1_alg».proof.Proof.KiCover

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL.Sem
open Idealize.ShloMosaic.Pipeline (Dat)

/-- The product array as the call leaves it on core c. -/
abbrev prodArr (m : (ℓ : Loc nD τ sig) → Buf (Elt Ideal) ℓ) (c : Dev nD) : FVec Ideal S4096x4096 .f32 :=
  (dats (F := Ideal) m 0 c).arrAt 2 cfg0.N

/-- Entry (i, j) of the product array is the contraction of row i of the first argument matrix with column j of the
    second: the block that covers it was written back at the point with k = 3, where the accumulator holds the whole
    contraction. -/
theorem S_apply (m : (ℓ : Loc nD τ sig) → Buf (Elt Ideal) ℓ) (c : Dev nD) (i j : Fin 4096) :
    prodArr m c (ValueIdx.ix2 i j) = ∑ k : Fin 4096, lhsArr m c (ValueIdx.ix2 i k) * rhsArr m c (ValueIdx.ix2 k j) := by
  have hi := i.isLt
  have hj := j.isLt
  have hN : cfg0.N = 64 := N_0
  have ht : (4 * (i.val / 1024) + j.val / 1024) * 4 + 3 < cfg0.N := by omega
  refine (S_block (F := Ideal) m c i j).trans ?_
  exact acc_last m c ⟨(4 * (i.val / 1024) + j.val / 1024) * 4 + 3, ht⟩
    (by show ((4 * (i.val / 1024) + j.val / 1024) * 4 + 3) % 4 = 3; omega)
    ⟨i.val % 1024, Nat.mod_lt _ (by omega)⟩ ⟨j.val % 1024, Nat.mod_lt _ (by omega)⟩ i j
    (by show i.val = 1024 * (((4 * (i.val / 1024) + j.val / 1024) * 4 + 3) / 16) + i.val % 1024; omega)
    (by show j.val = 1024 * (((4 * (i.val / 1024) + j.val / 1024) * 4 + 3) / 4 % 4) + j.val % 1024; omega)

end Cert.KernelIdeal.Val

end
-- ==== Proof.Algebraic.lean ====
/-
  The algebraic claim. The kernel program's results are the shared tail applied to its first argument and to its two
  bound vectors, which are terms of the product array the call leaves and of the other arguments; the reference's results
  are the same tail applied to its own bound vectors. Memories agreeing on the arguments give equal arguments; the product
  array is the matrix product of the fifth and third arguments entry by entry; so the bridge between the two spellings of
  the bound vectors applies, and the results are equal.
-/
import proofs.«139422_j40183714021525_1_alg».proof.Defs
import proofs.«139422_j40183714021525_1_alg».proof.Proof.Gen.Pre_finite_inputs
import proofs.«139422_j40183714021525_1_alg».proof.Proof.KiResults
import proofs.«139422_j40183714021525_1_alg».proof.Proof.RefRun
import proofs.«139422_j40183714021525_1_alg».proof.Proof.RefValue
import proofs.«139422_j40183714021525_1_alg».proof.Proof.Bridge
import proofs.«139422_j40183714021525_1_alg».proof.Proof.KiValue
set_option maxRecDepth 16384

noncomputable section

namespace Cert.Proof.Alg

open Idealize.ShloMosaic Idealize.ShloMosaic.TcCoe Idealize.ShloMosaic.ValueIdx Idealize.SL.Sem
open Cert.KernelIdeal.Frm Cert.KernelIdeal.TailVal Cert.ReferenceIdeal.TailVal Cert.KernelIdeal.Val Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Two memories that agree on the seven arguments. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The kernel program's row-vector arguments and the product array the call leaves, by their literal types. -/
abbrev kB1 (c : Dev Cert.KernelIdeal.nD) : FVec Ideal T1x4096 .f32 := m ((c.tc : Thread Cert.KernelIdeal.nD Cert.KernelIdeal.τ).loc Cert.KernelIdeal.main_arg4)
abbrev kB2 (c : Dev Cert.KernelIdeal.nD) : FVec Ideal T1x4096 .f32 := m ((c.tc : Thread Cert.KernelIdeal.nD Cert.KernelIdeal.τ).loc Cert.KernelIdeal.main_arg6)
abbrev kLo (c : Dev Cert.KernelIdeal.nD) : FVec Ideal T1x4096 .f32 := m ((c.tc : Thread Cert.KernelIdeal.nD Cert.KernelIdeal.τ).loc Cert.KernelIdeal.main_arg1)
abbrev kHi (c : Dev Cert.KernelIdeal.nD) : FVec Ideal T1x4096 .f32 := m ((c.tc : Thread Cert.KernelIdeal.nD Cert.KernelIdeal.τ).loc Cert.KernelIdeal.main_arg2)
abbrev Sx (c : Dev Cert.KernelIdeal.nD) : FVec Ideal T4096x4096 .f32 := Wx m c (Proc.devRef .tc Cert.KernelIdeal.main_v2)

/-- The product array the call leaves is the matrix product of the fifth and third arguments, entry by entry. -/
theorem hS (c : Dev Cert.KernelIdeal.nD) (i j : Fin 4096) :
    Sx m c (ix2 i j) = ∑ q : Fin 4096, lhsArr m c (ix2 i q) * rhsArr m c (ix2 q j) :=
  (congrFun (Wx_S m c) (ix2 i j)).trans (S_apply m c i j)

/-- The reference's lower bound vector is the kernel's: the reference splits the second weight matrix in its positive
    and negative parts where the kernel multiplies it whole, and both parts' products add up to the whole's. -/
theorem lb_bridge (c : Dev Cert.KernelIdeal.nD) (hag : Agree m m' c) :
    Cert.ReferenceIdeal.TailVal.lbR (StableHlo.launchContents m' c) = Cert.KernelIdeal.TailVal.lbK (Wx m c) := by
  obtain ⟨a0, a1, a2, a3, a4, a5, a6⟩ := hag
  have hr : ∀ (x3 x5 : FVec Ideal T4096x4096 .f32) (x4 x6 x1 x2 : FVec Ideal T1x4096 .f32),
      x3 = rhsArr m c → x5 = lhsArr m c → x4 = kB1 m c → x6 = kB2 m c → x1 = kLo m c → x2 = kHi m c →
      rLb Cert.ReferenceIdeal.TailVal.ev Cert.ReferenceIdeal.TailVal.d1 Cert.ReferenceIdeal.TailVal.dM x3 x5 x4 x6 x1 x2
        = rLb Cert.ReferenceIdeal.TailVal.ev Cert.ReferenceIdeal.TailVal.d1 Cert.ReferenceIdeal.TailVal.dM (rhsArr m c) (lhsArr m c) (kB1 m c) (kB2 m c) (kLo m c) (kHi m c) := by
    intro _ _ _ _ _ _ h3 h5 h4 h6 h1 h2; rw [h3, h5, h4, h6, h1, h2]
  have hk : ∀ (s x5 : FVec Ideal T4096x4096 .f32) (x4 x6 x1 x2 : FVec Ideal T1x4096 .f32),
      s = Sx m c → x5 = lhsArr m c → x4 = kB1 m c → x6 = kB2 m c → x1 = kLo m c → x2 = kHi m c →
      kLb Cert.KernelIdeal.TailVal.ev Cert.KernelIdeal.TailVal.d1 s x5 x4 x6 x1 x2
        = kLb Cert.ReferenceIdeal.TailVal.ev Cert.ReferenceIdeal.TailVal.d1 (Sx m c) (lhsArr m c) (kB1 m c) (kB2 m c) (kLo m c) (kHi m c) := by
    intro _ _ _ _ _ _ h0 h5 h4 h6 h1 h2; rw [h0, h5, h4, h6, h1, h2]; rfl
  exact (hr _ _ _ _ _ _ a3 a5 a4 a6 a1 a2).trans
    ((Cert.Bridge.lb_eq Cert.ReferenceIdeal.TailVal.ev Cert.ReferenceIdeal.TailVal.d1 Cert.ReferenceIdeal.TailVal.dM rfl rfl (Sx m c) (rhsArr m c) (lhsArr m c) (kB1 m c) (kB2 m c) (kLo m c) (kHi m c) (hS m c)).symm.trans
      (hk _ _ _ _ _ _ rfl (Wx_arg m c 5) (Wx_arg m c 4) (Wx_arg m c 6) (Wx_arg m c 1) (Wx_arg m c 2)).symm)

/-- The same for the upper bound vector. -/
theorem ub_bridge (c : Dev Cert.KernelIdeal.nD) (hag : Agree m m' c) :
    Cert.ReferenceIdeal.TailVal.ubR (StableHlo.launchContents m' c) = Cert.KernelIdeal.TailVal.ubK (Wx m c) := by
  obtain ⟨a0, a1, a2, a3, a4, a5, a6⟩ := hag
  have hr : ∀ (x3 x5 : FVec Ideal T4096x4096 .f32) (x4 x6 x1 x2 : FVec Ideal T1x4096 .f32),
      x3 = rhsArr m c → x5 = lhsArr m c → x4 = kB1 m c → x6 = kB2 m c → x1 = kLo m c → x2 = kHi m c →
      rUb Cert.ReferenceIdeal.TailVal.ev Cert.ReferenceIdeal.TailVal.d1 Cert.ReferenceIdeal.TailVal.dM x3 x5 x4 x6 x1 x2
        = rUb Cert.ReferenceIdeal.TailVal.ev Cert.ReferenceIdeal.TailVal.d1 Cert.ReferenceIdeal.TailVal.dM (rhsArr m c) (lhsArr m c) (kB1 m c) (kB2 m c) (kLo m c) (kHi m c) := by
    intro _ _ _ _ _ _ h3 h5 h4 h6 h1 h2; rw [h3, h5, h4, h6, h1, h2]
  have hk : ∀ (s x5 : FVec Ideal T4096x4096 .f32) (x4 x6 x1 x2 : FVec Ideal T1x4096 .f32),
      s = Sx m c → x5 = lhsArr m c → x4 = kB1 m c → x6 = kB2 m c → x1 = kLo m c → x2 = kHi m c →
      kUb Cert.KernelIdeal.TailVal.ev Cert.KernelIdeal.TailVal.d1 s x5 x4 x6 x1 x2
        = kUb Cert.ReferenceIdeal.TailVal.ev Cert.ReferenceIdeal.TailVal.d1 (Sx m c) (lhsArr m c) (kB1 m c) (kB2 m c) (kLo m c) (kHi m c) := by
    intro _ _ _ _ _ _ h0 h5 h4 h6 h1 h2; rw [h0, h5, h4, h6, h1, h2]; rfl
  exact (hr _ _ _ _ _ _ a3 a5 a4 a6 a1 a2).trans
    ((Cert.Bridge.ub_eq Cert.ReferenceIdeal.TailVal.ev Cert.ReferenceIdeal.TailVal.d1 Cert.ReferenceIdeal.TailVal.dM rfl rfl (Sx m c) (rhsArr m c) (lhsArr m c) (kB1 m c) (kB2 m c) (kLo m c) (kHi m c) (hS m c)).symm.trans
      (hk _ _ _ _ _ _ rfl (Wx_arg m c 5) (Wx_arg m c 4) (Wx_arg m c 6) (Wx_arg m c 1) (Wx_arg m c 2)).symm)

/-- Both idealized programs run, from memories agreeing on the arguments, to the same four results: the shared tail
    applied to the first argument and to bound vectors that are equal. -/
theorem algebraic : Cert.algebraic_KernelIdeal_ReferenceIdeal := by
  intro m ρ m' ρ' _ hagree
  refine ⟨fun c => tail67 Cert.KernelIdeal.TailVal.ev (m ((c.tc : Thread Cert.KernelIdeal.nD Cert.KernelIdeal.τ).loc Cert.KernelIdeal.main_arg0)) (Cert.KernelIdeal.TailVal.lbK (Wx m c)) (Cert.KernelIdeal.TailVal.ubK (Wx m c)),
    fun c => tail66 (F := Ideal) Cert.KernelIdeal.TailVal.ev,
    fun c => tail68 Cert.KernelIdeal.TailVal.ev (Cert.KernelIdeal.TailVal.lbK (Wx m c)) (Cert.KernelIdeal.TailVal.ubK (Wx m c)),
    fun c => tail56 Cert.KernelIdeal.TailVal.ev (Cert.KernelIdeal.TailVal.lbK (Wx m c)) (Cert.KernelIdeal.TailVal.ubK (Wx m c)), ?_, ?_⟩
  · exact (θ_run _ _ _).mono (fun r h c => ⟨res_v67 m r h c, res_v66 m r h c, res_v68 m r h c, res_v56 m r h c,
      arg_final m r h c 0, arg_final m r h c 1, arg_final m r h c 2, arg_final m r h c 3, arg_final m r h c 4, arg_final m r h c 5, arg_final m r h c 6⟩) (run_main (F := Ideal) m ρ)
  · refine (θ_run _ _ _).mono (fun r h c => ?_) (Cert.ReferenceIdeal.Hand.run (F := Ideal) m' ρ')
    obtain ⟨h103, h102, h104, h92, hargs⟩ := h c
    have hag : Agree m m' c := hagree c
    have hlb := lb_bridge m m' c hag
    have hub := ub_bridge m m' c hag
    refine ⟨h103.trans ?_, h102.trans ?_, h104.trans ?_, h92.trans ?_, hargs⟩
    · rw [ref_v103, hlb, hub]
      exact congrArg (fun a => tail67 Cert.KernelIdeal.TailVal.ev a _ _) hag.1
    · rw [ref_v102]
    · rw [ref_v104, hlb, hub]
    · rw [ref_v92, hlb, hub]

end Cert.Proof.Alg

end
-- ==== Proof.lean ====
/-
  DeepPoly bounds through two affine layers and a ReLU, kernel against reference, over the extended reals.

  Both programs take a parameter vector, an input box (lower and upper corner), and two affine layers (W1, b1), (W2, b2)
  of width 4096. The reference back-substitutes the second layer through the first with the second weight matrix split
  in its positive and negative parts P and N: slope S' = P·W1 + N·W1, intercept c' = (b1·Pᵀ + b1·Nᵀ) + b2; bounds the
  composed map on the box, lower = (lo·pos(S')ᵀ + hi·neg(S')ᵀ) + c', upper = (hi·pos(S')ᵀ + lo·neg(S')ᵀ) + c'; and from the
  two bound vectors and the sigmoid of the parameter vector forms the ReLU relaxation's slopes and intercepts, returned
  as two diagonal matrices and two row vectors. The kernel computes S = W2·W1 in one blocked matrix product on a
  4 × 4 × 4 grid (an accumulator carried over the contraction's four blocks), c = b1·W2ᵀ + b2, the same two bound vectors
  over S and c, and then the very same operations on them.

  Why they agree: for every extended real x and y, pos(x)·y + neg(x)·y = x·y, because one of pos(x), neg(x) is 0 and the
  other is x, and 0·y = 0 even at the infinities; finite sums regroup freely in the commutative monoid of the extended
  reals. Hence S' = S and c' = c entry by entry (no finiteness of the inputs is used), the bound vectors are equal, and
  the shared tail is one function applied to equal arguments. A change of float format is the identity at the ideal
  instance, so the kernel's conversion of its operands does not matter, and four blocks of a sum added left to right
  onto zero are the whole sum.

  The frames: the kernel program's entry function is two conversions, the call, and twenty stretches of host operations;
  its run is the library's launch theorem for a call followed by host operations, over proof data that state the
  accumulator in closed form point by point, at the word level and at the ideal instance alike. The reference is a
  straight line of host operations. No operation of either program writes an argument.
-/
import proofs.«139422_j40183714021525_1_alg».proof.Defs
import proofs.«139422_j40183714021525_1_alg».proof.Proof.Gen.Kernel
import proofs.«139422_j40183714021525_1_alg».proof.Proof.Gen.KernelIdeal
import proofs.«139422_j40183714021525_1_alg».proof.Proof.Gen.ReferenceIdeal
import proofs.«139422_j40183714021525_1_alg».proof.Proof.Gen.Pre_finite_inputs
import proofs.«139422_j40183714021525_1_alg».proof.Proof.KClaims
import proofs.«139422_j40183714021525_1_alg».proof.Proof.KiClaims
import proofs.«139422_j40183714021525_1_alg».proof.Proof.RefRun
import proofs.«139422_j40183714021525_1_alg».proof.Proof.Algebraic
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_kernel : Cert.frame_Kernel := fun m ρ _ => Cert.Kernel.Frm.frame m ρ

/-- So does the idealized kernel program. -/
theorem frame_kernelIdeal : Cert.frame_KernelIdeal := fun m ρ _ => Cert.KernelIdeal.Frm.frame m ρ

/-- So does the idealized reference. -/
theorem frame_referenceIdeal : Cert.frame_ReferenceIdeal := Cert.ReferenceIdeal.Hand.frame

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Alg.algebraic⟩

end Cert.Proof

end
